-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v131_1)) (v1 : (c : Dev Cert.KernelIdeal.nD) → Buf (Elt Ideal) ((c.tc : Thread Cert.KernelIdeal.nD Cert.KernelIdeal.τ).loc Cert.KernelIdeal.main_v132_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131_1) = v0 c
          ∧ r.2.mem ((c.tc : Thread Cert.KernelIdeal.nD Cert.KernelIdeal.τ).loc Cert.KernelIdeal.main_v132_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_v203) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S200000x64 : Shape := ⟨2, ![200000, 64]⟩
abbrev S32x64 : Shape := ⟨2, ![32, 64]⟩
abbrev S2x64x64 : Shape := ⟨3, ![2, 64, 64]⟩
abbrev S2x2000000 : Shape := ⟨2, ![2, 2000000]⟩
abbrev S2000000 : Shape := ⟨1, ![2000000]⟩
abbrev S1000000 : Shape := ⟨1, ![1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S32x64 : S_.BroadcastsInDim S32x64 (![] : Fin 0 → Fin S32x64.rank)
  reducesTo_S32x64_S_d0_1 : S32x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_arg4 : FVec F S2x64x64 .f32) (main_arg6 : IVec S2000000 32) (main_v13 : IVec S_ 1) (main_v16 : IVec S2x64x64 1) : IVec S_ 1 :=
  let main_c_5 : IVec S_ 1 := constantI S_ 1 1#1
  let main_v17 : IVec S_ 1 := (fun x v => Host.reduce IntOp.andi x v reducesTo_S2x64x64_S_d0_1_2 h_S_) main_v16 main_c_5
  let main_v18 : IVec S_ 1 := andi main_v13 main_v17
  let main_v19 : FVec F S2x64x64 .f32 := Host.absf main_arg4
  let main_cst_6 : FVec F S_ .f32 := constant S_ .f32 0x7F800000#32
  let main_v20 : FVec F S2x64x64 .f32 := broadcastInDim S2x64x64 ![] bcast_S_S2x64x64 main_cst_6
  let main_v21 : IVec S2x64x64 1 := cmpf .olt main_v19 main_v20
  let main_c_7 : IVec S_ 1 := constantI S_ 1 1#1
  let main_v22 : IVec S_ 1 := (fun x v => Host.reduce IntOp.andi x v reducesTo_S2x64x64_S_d0_1_2 h_S_) main_v21 main_c_7
  let main_v23 : IVec S_ 1 := andi main_v18 main_v22
  let main_c_8 : IVec S_ 32 := constantI S_ 32 0#32
  let main_v24 : IVec S2000000 32 := broadcastInDim S2000000 ![] bcast_S_S2000000 main_c_8
  let main_v25 : IVec S2000000 1 := cmpi .sge main_arg6 main_v24
  let main_c_9 : IVec S_ 1 := constantI S_ 1 1#1
  let main_v26 : IVec S_ 1 := (fun x v => Host.reduce IntOp.andi x v reducesTo_S2000000_S_d0 h_S_) main_v25 main_c_9
  let main_v27 : IVec S_ 1 := andi main_v23 main_v26
  let main_c_10 : IVec S_ 32 := constantI S_ 32 32#32
  let main_v28 : IVec S2000000 32 := broadcastInDim S2000000 ![] bcast_S_S2000000 main_c_10
  let main_v29 : IVec S2000000 1 := cmpi .slt main_arg6 main_v28
  let main_c_11 : IVec S_ 1 := constantI S_ 1 1#1
  let main_v30 : IVec S_ 1 := (fun x v => Host.reduce IntOp.andi x v reducesTo_S2000000_S_d0 h_S_) main_v29 main_c_11
  let main_v31 : IVec S_ 1 := andi main_v27 main_v30
  main_v31

def fn {F : FTy → Type} [FloatOps F] (main_arg0 : FVec F S100000x64 .f32) (main_arg1 : FVec F S200000x64 .f32) (main_arg2 : FVec F S32x64 .f32) (main_arg3 : FVec F S2x64x64 .f32) (main_arg4 : FVec F S2x64x64 .f32) (main_arg5 : IVec S2x2000000 32) (main_arg6 : IVec S2000000 32) (main_arg7 : IVec S1000000 32) (main_arg8 : IVec S1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S2x64x64 .f32 := Host.absf main_arg3
  let main_cst_4 : FVec F S_ .f32 := constant S_ .f32 0x7F800000#32
  let main_v15 : FVec F S2x64x64 .f32 := broadcastInDim S2x64x64 ![] bcast_S_S2x64x64 main_cst_4
  let main_v16 : IVec S2x64x64 1 := cmpf .olt main_v14 main_v15
  fn_part1 (F := F) main_arg4 main_arg6 main_v13 main_v16
-- ==== Kernel.lean ====
abbrev S100000x64 : Shape := ⟨2, ![100000, 64]⟩
abbrev S200000x64 : Shape := ⟨2, ![200000, 64]⟩
abbrev S32x64 : Shape := ⟨2, ![32, 64]⟩
abbrev S2x64x64 : Shape := ⟨3, ![2, 64, 64]⟩
abbrev S2x2000000 : Shape := ⟨2, ![2, 2000000]⟩
abbrev S2000000 : Shape := ⟨1, ![2000000]⟩
abbrev S1000000 : Shape := ⟨1, ![1000000]⟩
abbrev S1x2000000 : Shape := ⟨2, ![1, 2000000]⟩
abbrev S_ : Shape := ⟨0, ![]⟩
abbrev S2000000x1 : Shape := ⟨2, ![2000000, 1]⟩
abbrev S2000000x64 : Shape := ⟨2, ![2000000, 64]⟩
abbrev S8000x64 : Shape := ⟨2, ![8000, 64]⟩
abbrev S8000x1 : Shape := ⟨2, ![8000, 1]⟩
abbrev S8000x32 : Shape := ⟨2, ![8000, 32]⟩
abbrev S200000x1 : Shape := ⟨2, ![200000, 1]⟩
abbrev S50000x64 : Shape := ⟨2, ![50000, 64]⟩
abbrev S150000x64 : Shape := ⟨2, ![150000, 64]⟩
abbrev S1000000x1 : Shape := ⟨2, ![1000000, 1]⟩
abbrev S1000000x64 : Shape := ⟨2, ![1000000, 64]⟩
abbrev S1x64 : Shape := ⟨2, ![1, 64]⟩
abbrev S10000x64 : Shape := ⟨2, ![10000, 64]⟩
abbrev S50000x1 : Shape := ⟨2, ![50000, 1]⟩
abbrev S1x64x64 : Shape := ⟨3, ![1, 64, 64]⟩
abbrev S64x64 : Shape := ⟨2, ![64, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 176
  | .vmem => 72
  | .smem => 0
  | _ => 0

abbrev hbmTy0_0 (i : Nat) : BufTy := match i % 128 with
  | 0 => ⟨S100000x64, .f32⟩
  | 1 => ⟨S200000x64, .f32⟩
  | 2 => ⟨S32x64, .f32⟩
  | 3 => ⟨S2x64x64, .f32⟩
  | 4 => ⟨S2x64x64, .f32⟩
  | 5 => ⟨S2x2000000, .i32⟩
  | 6 => ⟨S2000000, .i32⟩
  | 7 => ⟨S1000000, .i32⟩
  | 8 => ⟨S1000000, .i32⟩
  | 9 => ⟨S1x2000000, .i32⟩
  | 10 => ⟨S2000000, .i32⟩
  | 11 => ⟨S1x2000000, .i32⟩
  | 12 => ⟨S2000000, .i32⟩
  | 13 => ⟨S32x64, .bf16⟩
  | 14 => ⟨S_, .i32⟩
  | 15 => ⟨S2000000, .i32⟩
  | 16 => ⟨S2000000, .i1⟩
  | 17 => ⟨S_, .i32⟩
  | 18 => ⟨S2000000, .i32⟩
  | 19 => ⟨S2000000, .i32⟩
  | 20 => ⟨S2000000, .i32⟩
  | 21 => ⟨S2000000x1, .i32⟩
  | 22 => ⟨S2000000x64, .f32⟩
  | 23 => ⟨S2000000x1, .i32⟩
  | 24 => ⟨S2000000x64, .f32⟩
  | 25 => ⟨S_, .f32⟩
  | 26 => ⟨S200000x64, .f32⟩
  | 27 => ⟨S2000000x1, .i32⟩
  | 28 => ⟨S200000x64, .f32⟩
  | 29 => ⟨S_, .f32⟩
  | 30 => ⟨S2000000x1, .f32⟩
  | 31 => ⟨S_, .f32⟩
  | 32 => ⟨S200000x1, .f32⟩
  | 33 => ⟨S2000000x1, .i32⟩
  | 34 => ⟨S200000x1, .f32⟩
  | 35 => ⟨S_, .f32⟩
  | 36 => ⟨S200000x1, .f32⟩
  | 37 => ⟨S200000x1, .f32⟩
  | 38 => ⟨S200000x64, .f32⟩
  | 39 => ⟨S200000x64, .f32⟩
  | 40 => ⟨S50000x64, .f32⟩
  | 41 => ⟨S150000x64, .f32⟩
  | 42 => ⟨S_, .i32⟩
  | 43 => ⟨S1000000, .i32⟩
  | 44 => ⟨S1000000, .i1⟩
  | 45 => ⟨S_, .i32⟩
  | 46 => ⟨S1000000, .i32⟩
  | 47 => ⟨S1000000, .i32⟩
  | 48 => ⟨S1000000, .i32⟩
  | 49 => ⟨S1000000x1, .i32⟩
  | 50 => ⟨S1000000x64, .f32⟩
  | 51 => ⟨S1x64, .f32⟩
  | 52 => ⟨S1000000x64, .f32⟩
  | 53 => ⟨S_, .f32⟩
  | 54 => ⟨S50000x64, .f32⟩
  | 55 => ⟨S1000000x1, .i32⟩
  | 56 => ⟨S50000x64, .f32⟩
  | 57 => ⟨S_, .f32⟩
  | 58 => ⟨S1000000x1, .f32⟩
  | 59 => ⟨S_, .f32⟩
  | 60 => ⟨S50000x1, .f32⟩
  | 61 => ⟨S1000000x1, .i32⟩
  | 62 => ⟨S50000x1, .f32⟩
  | 63 => ⟨S_, .f32⟩
  | 64 => ⟨S50000x1, .f32⟩
  | 65 => ⟨S50000x1, .f32⟩
  | 66 => ⟨S50000x64, .f32⟩
  | 67 => ⟨S50000x64, .f32⟩
  | 68 => ⟨S1x64x64, .f32⟩
  | 69 => ⟨S64x64, .f32⟩
  | 70 => ⟨S64x64, .f32⟩
  | 71 => ⟨S64x64, .bf16⟩
  | 72 => ⟨S1x64x64, .f32⟩
  | 73 => ⟨S64x64, .f32⟩
  | 74 => ⟨S64x64, .f32⟩
  | 75 => ⟨S64x64, .bf16⟩
  | 76 => ⟨S50000x64, .f32⟩
  | 77 => ⟨S_, .i32⟩
  | 78 => ⟨S1000000, .i32⟩
  | 79 => ⟨S1000000, .i1⟩
  | 80 => ⟨S_, .i32⟩
  | 81 => ⟨S1000000, .i32⟩
  | 82 => ⟨S1000000, .i32⟩
  | 83 => ⟨S1000000, .i32⟩
  | 84 => ⟨S1000000x1, .i32⟩
  | 85 => ⟨S1000000x64, .f32⟩
  | 86 => ⟨S_, .f32⟩
  | 87 => ⟨S100000x64, .f32⟩
  | 88 => ⟨S1000000x1, .i32⟩
  | 89 => ⟨S100000x64, .f32⟩
  | 90 => ⟨S200000x64, .f32⟩
  | 91 => ⟨S200000x64, .f32⟩
  | 92 => ⟨S200000x64, .f32⟩
  | 93 => ⟨S100000x64, .f32⟩
  | 94 => ⟨S100000x64, .f32⟩
  | 95 => ⟨S_, .i32⟩
  | 96 => ⟨S2000000, .i32⟩
  | 97 => ⟨S2000000, .i1⟩
  | 98 => ⟨S_, .i32⟩
  | 99 => ⟨S2000000, .i32⟩
  | 100 => ⟨S2000000, .i32⟩
  | 101 => ⟨S2000000, .i32⟩
  | 102 => ⟨S2000000x1, .i32⟩
  | 103 => ⟨S2000000x64, .f32⟩
  | 104 => ⟨S2000000x1, .i32⟩
  | 105 => ⟨S2000000x64, .f32⟩
  | 106 => ⟨S_, .f32⟩
  | 107 => ⟨S200000x64, .f32⟩
  | 108 => ⟨S2000000x1, .i32⟩
  | 109 => ⟨S200000x64, .f32⟩
  | 110 => ⟨S_, .f32⟩
  | 111 => ⟨S2000000x1, .f32⟩
  | 112 => ⟨S_, .f32⟩
  | 113 => ⟨S200000x1, .f32⟩
  | 114 => ⟨S2000000x1, .i32⟩
  | 115 => ⟨S200000x1, .f32⟩
  | 116 => ⟨S_, .f32⟩
  | 117 => ⟨S200000x1, .f32⟩
  | 118 => ⟨S200000x1, .f32⟩
  | 119 => ⟨S200000x64, .f32⟩
  | 120 => ⟨S200000x64, .f32⟩
  | 121 => ⟨S50000x64, .f32⟩
  | 122 => ⟨S150000x64, .f32⟩
  | 123 => ⟨S_, .i32⟩
  | 124 => ⟨S1000000, .i32⟩
  | 125 => ⟨S1000000, .i1⟩
  | 126 => ⟨S_, .i32⟩
  | 127 => ⟨S1000000, .i32⟩
  | _ => ⟨S100000x64, .f32⟩

abbrev hbmTy0_1 (i : Nat) : BufTy := match i % 128 with
  | 0 => ⟨S1000000, .i32⟩
  | 1 => ⟨S1000000, .i32⟩
  | 2 => ⟨S1000000x1, .i32⟩
  | 3 => ⟨S1000000x64, .f32⟩
  | 4 => ⟨S1x64, .f32⟩
  | 5 => ⟨S1000000x64, .f32⟩
  | 6 => ⟨S_, .f32⟩
  | 7 => ⟨S50000x64, .f32⟩
  | 8 => ⟨S1000000x1, .i32⟩
  | 9 => ⟨S50000x64, .f32⟩
  | 10 => ⟨S_, .f32⟩
  | 11 => ⟨S1000000x1, .f32⟩
  | 12 => ⟨S_, .f32⟩
  | 13 => ⟨S50000x1, .f32⟩
  | 14 => ⟨S1000000x1, .i32⟩
  | 15 => ⟨S50000x1, .f32⟩
  | 16 => ⟨S_, .f32⟩
  | 17 => ⟨S50000x1, .f32⟩
  | 18 => ⟨S50000x1, .f32⟩
  | 19 => ⟨S50000x64, .f32⟩
  | 20 => ⟨S50000x64, .f32⟩
  | 21 => ⟨S1x64x64, .f32⟩
  | 22 => ⟨S64x64, .f32⟩
  | 23 => ⟨S64x64, .f32⟩
  | 24 => ⟨S64x64, .bf16⟩
  | 25 => ⟨S1x64x64, .f32⟩
  | 26 => ⟨S64x64, .f32⟩
  | 27 => ⟨S64x64, .f32⟩
  | 28 => ⟨S64x64, .bf16⟩
  | 29 => ⟨S50000x64, .f32⟩
  | 30 => ⟨S_, .i32⟩
  | 31 => ⟨S1000000, .i32⟩
  | 32 => ⟨S1000000, .i1⟩
  | 33 => ⟨S_, .i32⟩
  | 34 => ⟨S1000000, .i32⟩
  | 35 => ⟨S1000000, .i32⟩
  | 36 => ⟨S1000000, .i32⟩
  | 37 => ⟨S1000000x1, .i32⟩
  | 38 => ⟨S1000000x64, .f32⟩
  | 39 => ⟨S_, .f32⟩
  | 40 => ⟨S100000x64, .f32⟩
  | 41 => ⟨S1000000x1, .i32⟩
  | 42 => ⟨S100000x64, .f32⟩
  | 43 => ⟨S200000x64, .f32⟩
  | 44 => ⟨S200000x64, .f32⟩
  | 45 => ⟨S200000x64, .f32⟩
  | 46 => ⟨S100000x64, .f32⟩
  | 47 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S8000x64, .f32⟩
  | .local _ .vmem, ⟨1, _⟩ => ⟨S8000x64, .f32⟩
  | .local _ .vmem, ⟨2, _⟩ => ⟨S8000x1, .i32⟩
  | .local _ .vmem, ⟨3, _⟩ => ⟨S8000x1, .i32⟩
  | .local _ .vmem, ⟨4, _⟩ => ⟨S32x64, .bf16⟩
  | .local _ .vmem, ⟨5, _⟩ => ⟨S8000x64, .f32⟩
  | .local _ .vmem, ⟨6, _⟩ => ⟨S8000x64, .f32⟩
  | .local _ .vmem, ⟨7, _⟩ => ⟨S10000x64, .f32⟩
  | .local _ .vmem, ⟨8, _⟩ => ⟨S10000x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .bf16⟩
  | .local _ .vmem, ⟨17, _⟩ => ⟨S64x64, .bf16⟩
  | .local _ .vmem, ⟨18, _⟩ => ⟨S10000x64, .f32⟩
  | .local _ .vmem, ⟨19, _⟩ => ⟨S10000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S8000x64, .f32⟩
  | .local _ .vmem, ⟨37, _⟩ => ⟨S8000x64, .f32⟩
  | .local _ .vmem, ⟨38, _⟩ => ⟨S8000x1, .i32⟩
  | .local _ .vmem, ⟨39, _⟩ => ⟨S8000x1, .i32⟩
  | .local _ .vmem, ⟨40, _⟩ => ⟨S32x64, .bf16⟩
  | .local _ .vmem, ⟨41, _⟩ => ⟨S8000x64, .f32⟩
  | .local _ .vmem, ⟨42, _⟩ => ⟨S8000x64, .f32⟩
  | .local _ .vmem, ⟨43, _⟩ => ⟨S10000x64, .f32⟩
  | .local _ .vmem, ⟨44, _⟩ => ⟨S10000x64, .f32⟩
  | .local _ .vmem, ⟨45, _⟩ => ⟨S1x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S10000x64, .f32⟩
  | .local _ .vmem, ⟨50, _⟩ => ⟨S10000x64, .f32⟩
  | .local _ .vmem, ⟨51, _⟩ => ⟨S10000x64, .f32⟩
  | .local _ .vmem, ⟨52, _⟩ => ⟨S64x64, .bf16⟩
  | .local _ .vmem, ⟨53, _⟩ => ⟨S64x64, .bf16⟩
  | .local _ .vmem, ⟨54, _⟩ => ⟨S10000x64, .f32⟩
  | .local _ .vmem, ⟨55, _⟩ => ⟨S10000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S5000x64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | .local _ .vmem, ⟨64, _⟩ => ⟨S5000x64, .f32⟩
  | .local _ .vmem, ⟨65, _⟩ => ⟨S5000x64, .f32⟩
  | .local _ .vmem, ⟨66, _⟩ => ⟨S5000x64, .f32⟩
  | .local _ .vmem, ⟨67, _⟩ => ⟨S5000x64, .f32⟩
  | .local _ .vmem, ⟨68, _⟩ => ⟨S5000x64, .f32⟩
  | .local _ .vmem, ⟨69, _⟩ => ⟨S5000x64, .f32⟩
  | .local _ .vmem, ⟨70, _⟩ => ⟨S5000x64, .f32⟩
  | .local _ .vmem, ⟨71, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_10 : Ref sig .tc := ⟨.hbm, 77, rfl⟩
abbrev main_v56 : Ref sig .tc := ⟨.hbm, 78, rfl⟩
abbrev main_v57 : Ref sig .tc := ⟨.hbm, 79, rfl⟩
abbrev main_c_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67_0 : Ref sig .tc := ⟨.hbm, 91, rfl⟩
abbrev main_v67_1 : Ref sig .tc := ⟨.hbm, 92, rfl⟩
abbrev main_v68_0 : Ref sig .tc := ⟨.hbm, 93, rfl⟩
abbrev main_v68_1 : Ref sig .tc := ⟨.hbm, 94, rfl⟩
abbrev main_c_13 : Ref sig .tc := ⟨.hbm, 95, rfl⟩
abbrev main_v69 : Ref sig .tc := ⟨.hbm, 96, rfl⟩
abbrev main_v70 : Ref sig .tc := ⟨.hbm, 97, rfl⟩
abbrev main_c_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_16 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_18 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_c_19 : Ref sig .tc := ⟨.hbm, 123, rfl⟩
abbrev main_v91 : Ref sig .tc := ⟨.hbm, 124, rfl⟩
abbrev main_v92 : Ref sig .tc := ⟨.hbm, 125, rfl⟩
abbrev main_c_20 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_21 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_22 : Ref sig .tc := ⟨.hbm, 138, rfl⟩
abbrev main_v103 : Ref sig .tc := ⟨.hbm, 139, rfl⟩
abbrev main_cst_23 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_24 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_c_25 : Ref sig .tc := ⟨.hbm, 158, rfl⟩
abbrev main_v120 : Ref sig .tc := ⟨.hbm, 159, rfl⟩
abbrev main_v121 : Ref sig .tc := ⟨.hbm, 160, rfl⟩
abbrev main_c_26 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_27 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131_0 : Ref sig .tc := ⟨.hbm, 172, rfl⟩
abbrev main_v131_1 : Ref sig .tc := ⟨.hbm, 173, rfl⟩
abbrev main_v132_0 : Ref sig .tc := ⟨.hbm, 174, rfl⟩
abbrev main_v132_1 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg2_0 : Ref sig .tc := ⟨.vmem, 46, rfl⟩
abbrev cc6_stg2_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg2_1 : Ref sig .tc := ⟨.vmem, 61, rfl⟩
abbrev cc8_stg3_0 : Ref sig .tc := ⟨.vmem, 62, rfl⟩
abbrev cc8_stg3_1 : Ref sig .tc := ⟨.vmem, 63, rfl⟩
abbrev cc9_stg0_0 : Ref sig .tc := ⟨.vmem, 64, rfl⟩
abbrev cc9_stg0_1 : Ref sig .tc := ⟨.vmem, 65, rfl⟩
abbrev cc9_stg1_0 : Ref sig .tc := ⟨.vmem, 66, rfl⟩
abbrev cc9_stg1_1 : Ref sig .tc := ⟨.vmem, 67, rfl⟩
abbrev cc9_stg2_0 : Ref sig .tc := ⟨.vmem, 68, rfl⟩
abbrev cc9_stg2_1 : Ref sig .tc := ⟨.vmem, 69, rfl⟩
abbrev cc9_stg3_0 : Ref sig .tc := ⟨.vmem, 70, rfl⟩
abbrev cc9_stg3_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem3_1 : DmaSem sig := 42
abbrev cc6_sem0_0 : DmaSem sig := 43
abbrev cc6_sem0_1 : DmaSem sig := 44
abbrev cc6_sem1_0 : DmaSem sig := 45
abbrev cc6_sem2_0 : DmaSem sig := 46
abbrev cc6_sem2_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem3_0 : DmaSem sig := 53
abbrev cc7_sem4_0 : DmaSem sig := 54
abbrev cc7_sem4_1 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60
abbrev cc8_sem2_1 : DmaSem sig := 61
abbrev cc8_sem3_0 : DmaSem sig := 62
abbrev cc8_sem3_1 : DmaSem sig := 63
abbrev cc9_sem0_0 : DmaSem sig := 64
abbrev cc9_sem0_1 : DmaSem sig := 65
abbrev cc9_sem1_0 : DmaSem sig := 66
abbrev cc9_sem1_1 : DmaSem sig := 67
abbrev cc9_sem2_0 : DmaSem sig := 68
abbrev cc9_sem2_1 : DmaSem sig := 69
abbrev cc9_sem3_0 : DmaSem sig := 70
abbrev cc9_sem3_1 : DmaSem sig := 71

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![250], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S32x64 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S8000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x64 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x64 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S10000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![40], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S5000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S5000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bitsLt_bf16_f32 : FTy.bits .bf16 < FTy.bits .f32
  bcast_S_S2000000 : S_.BroadcastsInDim S2000000 (![] : Fin 0 → Fin S2000000.rank)
  bcast_S2000000_S2000000x1_0 : S2000000.BroadcastsInDim S2000000x1 (![0] : Fin 1 → Fin S2000000x1.rank)
  shapeCasts_S2000000_S2000000x1 : S2000000.ShapeCasts S2000000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  iota_S8000x32_d1_w32 : S8000x32.Iotas .tc 32 [1]
  broadcasts_S8000x1_S8000x32 : S8000x1.Broadcasts S8000x32
  natLt_1_32 : 1 < 32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S200000x64 : S_.BroadcastsInDim S200000x64 (![] : Fin 0 → Fin S200000x64.rank)
  bcast_S_S2000000x1 : S_.BroadcastsInDim S2000000x1 (![] : Fin 0 → Fin S2000000x1.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  slices_S200000x64_S50000x64_0_0 : S200000x64.Slices ![0, 0] S50000x64
  slices_S200000x64_S150000x64_50000_0 : S200000x64.Slices ![50000, 0] S150000x64
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S32x64_S1x64_0_0 : S32x64.Slices ![0, 0] S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S50000x64 : S_.BroadcastsInDim S50000x64 (![] : Fin 0 → Fin S50000x64.rank)
  bcast_S_S1000000x1 : S_.BroadcastsInDim S1000000x1 (![] : Fin 0 → Fin S1000000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  slices_S2x64x64_S1x64x64_0_0_0 : S2x64x64.Slices ![0, 0, 0] S1x64x64
  shapeCasts_S1x64x64_S64x64 : S1x64x64.ShapeCasts S64x64
  transposes_S64x64_S64x64_1_0 : S64x64.Transposes [1, 0] S64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S100000x64 : S_.BroadcastsInDim S100000x64 (![] : Fin 0 → Fin S100000x64.rank)
  concatenates_S50000x64_S150000x64_S200000x64_d0 : Shape.Concatenates [S50000x64, S150000x64] S200000x64 0
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  slices_S2x64x64_S1x64x64_1_0_0 : S2x64x64.Slices ![1, 0, 0] S1x64x64
  gather_S200000x64_S2000000x1_S2000000x64_1_0_n_n_0_1_164_wf : GatherDims.WF S200000x64 S2000000x1 S2000000x64 [1] [0] [] [0] [] 1 ![1, 64]
  dot_S8000x32_S32x64_S8000x64_1_0_0_1_n_n_wf : DotDims.WF S8000x32 S32x64 S8000x64 [1] [0] [0] [1] [] []
  scatter_S200000x64_S2000000x1_S2000000x64_1_0_0_1_wf : ScatterDims.WF S200000x64 S2000000x1 S2000000x64 [1] [0] [0] 1
  scatter_S200000x1_S2000000x1_S2000000x1_1_0_0_1_wf : ScatterDims.WF S200000x1 S2000000x1 S2000000x1 [1] [0] [0] 1
  gather_S100000x64_S1000000x1_S1000000x64_1_0_n_n_0_1_164_wf : GatherDims.WF S100000x64 S1000000x1 S1000000x64 [1] [0] [] [0] [] 1 ![1, 64]
  scatter_S50000x64_S1000000x1_S1000000x64_1_0_0_1_wf : ScatterDims.WF S50000x64 S1000000x1 S1000000x64 [1] [0] [0] 1
  scatter_S50000x1_S1000000x1_S1000000x1_1_0_0_1_wf : ScatterDims.WF S50000x1 S1000000x1 S1000000x1 [1] [0] [0] 1
  dot_S10000x64_S64x64_S10000x64_1_0_0_1_n_n_wf : DotDims.WF S10000x64 S64x64 S10000x64 [1] [0] [0] [1] [] []
  gather_S50000x64_S1000000x1_S1000000x64_1_0_n_n_0_1_164_wf : GatherDims.WF S50000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S2000000x64.size a
  hwx0_0 : ∀ i : grid0.Coords, EltTy.bits .f32 = 32 ∨ (Rect.block (s := S2000000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S2000000x1.size a
  hwx0_1 : ∀ i : grid0.Coords, EltTy.bits .i32 = 32 ∨ (Rect.block (s := S2000000x1) S8000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .bf16 = 32 ∨ (Rect.block (s := S32x64) S32x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x64.size a ≤ S2000000x64.size a
  hwx0_3 : ∀ i : grid0.Coords, EltTy.bits .f32 = 32 ∨ (Rect.block (s := S2000000x64) S8000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1000000x64.size a
  hwx1_0 : ∀ i : grid1.Coords, EltTy.bits .f32 = 32 ∨ (Rect.block (s := S1000000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S1000000x64.size a
  hwx1_2 : ∀ i : grid1.Coords, EltTy.bits .f32 = 32 ∨ (Rect.block (s := S1000000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S50000x64.size a
  hwx2_1 : ∀ i : grid2.Coords, EltTy.bits .f32 = 32 ∨ (Rect.block (s := S50000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .bf16 = 32 ∨ (Rect.block (s := S64x64) S64x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .bf16 = 32 ∨ (Rect.block (s := S64x64) S64x64.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S50000x64.size a
  hwx2_4 : ∀ i : grid2.Coords, EltTy.bits .f32 = 32 ∨ (Rect.block (s := S50000x64) S10000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S200000x64.size a
  hwx3_0 : ∀ i : grid3.Coords, EltTy.bits .f32 = 32 ∨ (Rect.block (s := S200000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S200000x64.size a
  hwx3_1 : ∀ i : grid3.Coords, EltTy.bits .f32 = 32 ∨ (Rect.block (s := S200000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S200000x64.size a
  hwx3_2 : ∀ i : grid3.Coords, EltTy.bits .f32 = 32 ∨ (Rect.block (s := S200000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S200000x64.size a
  hwx3_3 : ∀ i : grid3.Coords, EltTy.bits .f32 = 32 ∨ (Rect.block (s := S200000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x64.size a ≤ S2000000x64.size a
  hwx5_0 : ∀ i : grid5.Coords, EltTy.bits .f32 = 32 ∨ (Rect.block (s := S2000000x64) S8000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x1.size a ≤ S2000000x1.size a
  hwx5_1 : ∀ i : grid5.Coords, EltTy.bits .i32 = 32 ∨ (Rect.block (s := S2000000x1) S8000x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S32x64.size a ≤ S32x64.size a
  hwx5_2 : ∀ i : grid5.Coords, EltTy.bits .bf16 = 32 ∨ (Rect.block (s := S32x64) S32x64.size (cc5_transform_2 i) (hinb5_2 i)).WholeWords (EltTy.packing .bf16)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S8000x64.size a ≤ S2000000x64.size a
  hwx5_3 : ∀ i : grid5.Coords, EltTy.bits .f32 = 32 ∨ (Rect.block (s := S2000000x64) S8000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S1000000x64.size a
  hwx6_0 : ∀ i : grid6.Coords, EltTy.bits .f32 = 32 ∨ (Rect.block (s := S1000000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S1000000x64.size a
  hwx6_2 : ∀ i : grid6.Coords, EltTy.bits .f32 = 32 ∨ (Rect.block (s := S1000000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S50000x64.size a
  hwx7_0 : ∀ i : grid7.Coords, EltTy.bits .f32 = 32 ∨ (Rect.block (s := S50000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x64.size a ≤ S50000x64.size a
  hwx7_1 : ∀ i : grid7.Coords, EltTy.bits .f32 = 32 ∨ (Rect.block (s := S50000x64) S10000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .bf16 = 32 ∨ (Rect.block (s := S64x64) S64x64.size (cc7_transform_2 i) (hinb7_2 i)).WholeWords (EltTy.packing .bf16)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .bf16 = 32 ∨ (Rect.block (s := S64x64) S64x64.size (cc7_transform_3 i) (hinb7_3 i)).WholeWords (EltTy.packing .bf16)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S10000x64.size a ≤ S50000x64.size a
  hwx7_4 : ∀ i : grid7.Coords, EltTy.bits .f32 = 32 ∨ (Rect.block (s := S50000x64) S10000x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S200000x64.size a
  hwx8_0 : ∀ i : grid8.Coords, EltTy.bits .f32 = 32 ∨ (Rect.block (s := S200000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S200000x64.size a
  hwx8_1 : ∀ i : grid8.Coords, EltTy.bits .f32 = 32 ∨ (Rect.block (s := S200000x64) S5000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x64.size a ≤ S200000x64.size a
  hwx8_2 : ∀ i : grid8.Coords, EltTy.bits .f32 = 32 ∨ (Rect.block (s := S200000x64) S5000x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x64.size a ≤ S200000x64.size a
  hwx8_3 : ∀ i : grid8.Coords, EltTy.bits .f32 = 32 ∨ (Rect.block (s := S200000x64) S5000x64.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x64.size a ≤ S100000x64.size a
  hwx9_1 : ∀ i : grid9.Coords, EltTy.bits .f32 = 32 ∨ (Rect.block (s := S100000x64) S5000x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x64.size a ≤ S100000x64.size a
  hwx9_2 : ∀ i : grid9.Coords, EltTy.bits .f32 = 32 ∨ (Rect.block (s := S100000x64) S5000x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x64.size a ≤ S100000x64.size a
  hwx9_3 : ∀ i : grid9.Coords, EltTy.bits .f32 = 32 ∨ (Rect.block (s := S100000x64) S5000x64.size (cc9_transform_3 i) (hinb9_3 i)).WholeWords (EltTy.packing .f32)

variable [Facts₀]

def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def scatter_S200000x1_S2000000x1_S2000000x1_1_0_0_1 : ScatterDims S200000x1 S2000000x1 S2000000x1 where
  updateWindowDims := [1]
  insertedWindowDims := [0]
  scatterDimsToOperandDims := [0]
  indexVectorDim := 1
  wf := scatter_S200000x1_S2000000x1_S2000000x1_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S50000x1_S1000000x1_S1000000x1_1_0_0_1 : ScatterDims S50000x1 S1000000x1 S1000000x1 where
  updateWindowDims := [1]
  insertedWindowDims := [0]
  scatterDimsToOperandDims := [0]
  indexVectorDim := 1
  wf := scatter_S50000x1_S1000000x1_S1000000x1_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_v11) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S8000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v25) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v66) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v67_0) S5000x64.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v67_1) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v65) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg0) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v68_0) S5000x64.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v68_1) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v75) S8000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S8000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v4) S32x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v77) S8000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v97) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v98) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v99) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v89) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v110) S10000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v114) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v118) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v119) S10000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v130) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v67_1) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v131_0) S5000x64.size cc8_transform_2 reads8_2 true false 2 stage8_2 sem8_2
    hrank8 hreads8_2 hinb8_2 nbuf8_2 (Memref.isWhole_whole _) hwx8_2 hstage8_2

abbrev win8_3 : Pipeline.Window sig grid8 :=
  Pipeline.Window.ofSpec (Memref.whole main_v131_1) S5000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v129) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v68_1) S5000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v132_0) S5000x64.size cc9_transform_2 reads9_2 true false 2 stage9_2 sem9_2
    hrank9 hreads9_2 hinb9_2 nbuf9_2 (Memref.isWhole_whole _) hwx9_2 hstage9_2

abbrev win9_3 : Pipeline.Window sig grid9 :=
  Pipeline.Window.ofSpec (Memref.whole main_v132_1) S5000x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S100000x64 : Shape := ⟨2, ![100000, 64]⟩
abbrev S200000x64 : Shape := ⟨2, ![200000, 64]⟩
abbrev S32x64 : Shape := ⟨2, ![32, 64]⟩
abbrev S2x64x64 : Shape := ⟨3, ![2, 64, 64]⟩
abbrev S2x2000000 : Shape := ⟨2, ![2, 2000000]⟩
abbrev S2000000 : Shape := ⟨1, ![2000000]⟩
abbrev S1000000 : Shape := ⟨1, ![1000000]⟩
abbrev S1x2000000 : Shape := ⟨2, ![1, 2000000]⟩
abbrev S_ : Shape := ⟨0, ![]⟩
abbrev S2000000x1 : Shape := ⟨2, ![2000000, 1]⟩
abbrev S2000000x64 : Shape := ⟨2, ![2000000, 64]⟩
abbrev S200000x1 : Shape := ⟨2, ![200000, 1]⟩
abbrev S50000x64 : Shape := ⟨2, ![50000, 64]⟩
abbrev S150000x64 : Shape := ⟨2, ![150000, 64]⟩
abbrev S1000000x1 : Shape := ⟨2, ![1000000, 1]⟩
abbrev S1000000x64 : Shape := ⟨2, ![1000000, 64]⟩
abbrev S1x64 : Shape := ⟨2, ![1, 64]⟩
abbrev S64 : Shape := ⟨1, ![64]⟩
abbrev S50000x1 : Shape := ⟨2, ![50000, 1]⟩
abbrev S1x64x64 : Shape := ⟨3, ![1, 64, 64]⟩
abbrev S64x64 : Shape := ⟨2, ![64, 64]⟩
abbrev S200000 : Shape := ⟨1, ![200000]⟩
abbrev S100000 : Shape := ⟨1, ![100000]⟩
abbrev S100000x1 : Shape := ⟨2, ![100000, 1]⟩

abbrev nBuf : Space → Nat
  | .hbm => 261
  | .vmem => 0
  | .smem => 0
  | _ => 0

abbrev hbmTy0_0 (i : Nat) : BufTy := match i % 128 with
  | 0 => ⟨S100000x64, .f32⟩
  | 1 => ⟨S200000x64, .f32⟩
  | 2 => ⟨S32x64, .f32⟩
  | 3 => ⟨S2x64x64, .f32⟩
  | 4 => ⟨S2x64x64, .f32⟩
  | 5 => ⟨S2x2000000, .i32⟩
  | 6 => ⟨S2000000, .i32⟩
  | 7 => ⟨S1000000, .i32⟩
  | 8 => ⟨S1000000, .i32⟩
  | 9 => ⟨S1x2000000, .i32⟩
  | 10 => ⟨S2000000, .i32⟩
  | 11 => ⟨S1x2000000, .i32⟩
  | 12 => ⟨S2000000, .i32⟩
  | 13 => ⟨S_, .i32⟩
  | 14 => ⟨S2000000, .i32⟩
  | 15 => ⟨S2000000, .i1⟩
  | 16 => ⟨S_, .i32⟩
  | 17 => ⟨S2000000, .i32⟩
  | 18 => ⟨S2000000, .i32⟩
  | 19 => ⟨S2000000, .i32⟩
  | 20 => ⟨S2000000x1, .i32⟩
  | 21 => ⟨S2000000x64, .f32⟩
  | 22 => ⟨S_, .i32⟩
  | 23 => ⟨S2000000, .i32⟩
  | 24 => ⟨S2000000, .i1⟩
  | 25 => ⟨S_, .i32⟩
  | 26 => ⟨S2000000, .i32⟩
  | 27 => ⟨S2000000, .i32⟩
  | 28 => ⟨S2000000, .i32⟩
  | 29 => ⟨S2000000x1, .i32⟩
  | 30 => ⟨S2000000x64, .f32⟩
  | 31 => ⟨S2000000x64, .f32⟩
  | 32 => ⟨S_, .f32⟩
  | 33 => ⟨S200000x64, .f32⟩
  | 34 => ⟨S2000000x1, .i32⟩
  | 35 => ⟨S200000x64, .f32⟩
  | 36 => ⟨S_, .f32⟩
  | 37 => ⟨S2000000x1, .f32⟩
  | 38 => ⟨S_, .f32⟩
  | 39 => ⟨S200000x1, .f32⟩
  | 40 => ⟨S2000000x1, .i32⟩
  | 41 => ⟨S200000x1, .f32⟩
  | 42 => ⟨S_, .f32⟩
  | 43 => ⟨S200000x1, .f32⟩
  | 44 => ⟨S200000x1, .f32⟩
  | 45 => ⟨S200000x64, .f32⟩
  | 46 => ⟨S200000x64, .f32⟩
  | 47 => ⟨S50000x64, .f32⟩
  | 48 => ⟨S150000x64, .f32⟩
  | 49 => ⟨S_, .i32⟩
  | 50 => ⟨S1000000, .i32⟩
  | 51 => ⟨S1000000, .i1⟩
  | 52 => ⟨S_, .i32⟩
  | 53 => ⟨S1000000, .i32⟩
  | 54 => ⟨S1000000, .i32⟩
  | 55 => ⟨S1000000, .i32⟩
  | 56 => ⟨S1000000x1, .i32⟩
  | 57 => ⟨S1000000x64, .f32⟩
  | 58 => ⟨S1x64, .f32⟩
  | 59 => ⟨S64, .f32⟩
  | 60 => ⟨S1x64, .f32⟩
  | 61 => ⟨S1000000x64, .f32⟩
  | 62 => ⟨S1000000x64, .f32⟩
  | 63 => ⟨S_, .f32⟩
  | 64 => ⟨S50000x64, .f32⟩
  | 65 => ⟨S1000000x1, .i32⟩
  | 66 => ⟨S50000x64, .f32⟩
  | 67 => ⟨S_, .f32⟩
  | 68 => ⟨S1000000x1, .f32⟩
  | 69 => ⟨S_, .f32⟩
  | 70 => ⟨S50000x1, .f32⟩
  | 71 => ⟨S1000000x1, .i32⟩
  | 72 => ⟨S50000x1, .f32⟩
  | 73 => ⟨S_, .f32⟩
  | 74 => ⟨S50000x1, .f32⟩
  | 75 => ⟨S50000x1, .f32⟩
  | 76 => ⟨S50000x64, .f32⟩
  | 77 => ⟨S50000x64, .f32⟩
  | 78 => ⟨S1x64x64, .f32⟩
  | 79 => ⟨S64x64, .f32⟩
  | 80 => ⟨S64x64, .f32⟩
  | 81 => ⟨S50000x64, .f32⟩
  | 82 => ⟨S1x64x64, .f32⟩
  | 83 => ⟨S64x64, .f32⟩
  | 84 => ⟨S64x64, .f32⟩
  | 85 => ⟨S50000x64, .f32⟩
  | 86 => ⟨S50000x64, .f32⟩
  | 87 => ⟨S50000x64, .f32⟩
  | 88 => ⟨S50000x64, .f32⟩
  | 89 => ⟨S_, .f32⟩
  | 90 => ⟨S50000x64, .f32⟩
  | 91 => ⟨S50000x64, .f32⟩
  | 92 => ⟨S_, .f32⟩
  | 93 => ⟨S50000x64, .f32⟩
  | 94 => ⟨S50000x64, .f32⟩
  | 95 => ⟨S50000x64, .f32⟩
  | 96 => ⟨S_, .f32⟩
  | 97 => ⟨S50000x64, .f32⟩
  | 98 => ⟨S50000x64, .f32⟩
  | 99 => ⟨S50000x64, .f32⟩
  | 100 => ⟨S50000x64, .f32⟩
  | 101 => ⟨S_, .i32⟩
  | 102 => ⟨S1000000, .i32⟩
  | 103 => ⟨S1000000, .i1⟩
  | 104 => ⟨S_, .i32⟩
  | 105 => ⟨S1000000, .i32⟩
  | 106 => ⟨S1000000, .i32⟩
  | 107 => ⟨S1000000, .i32⟩
  | 108 => ⟨S1000000x1, .i32⟩
  | 109 => ⟨S1000000x64, .f32⟩
  | 110 => ⟨S_, .f32⟩
  | 111 => ⟨S100000x64, .f32⟩
  | 112 => ⟨S1000000x1, .i32⟩
  | 113 => ⟨S100000x64, .f32⟩
  | 114 => ⟨S200000x64, .f32⟩
  | 115 => ⟨S200000x64, .f32⟩
  | 116 => ⟨S_, .f32⟩
  | 117 => ⟨S200000, .f32⟩
  | 118 => ⟨S200000x1, .f32⟩
  | 119 => ⟨S200000x1, .f32⟩
  | 120 => ⟨S_, .f32⟩
  | 121 => ⟨S200000x1, .f32⟩
  | 122 => ⟨S200000x1, .f32⟩
  | 123 => ⟨S200000x64, .f32⟩
  | 124 => ⟨S200000x64, .f32⟩
  | 125 => ⟨S100000x64, .f32⟩
  | 126 => ⟨S_, .f32⟩
  | 127 => ⟨S100000, .f32⟩
  | _ => ⟨S100000x64, .f32⟩

abbrev hbmTy0_1 (i : Nat) : BufTy := match i % 128 with
  | 0 => ⟨S100000x1, .f32⟩
  | 1 => ⟨S100000x1, .f32⟩
  | 2 => ⟨S_, .f32⟩
  | 3 => ⟨S100000x1, .f32⟩
  | 4 => ⟨S100000x1, .f32⟩
  | 5 => ⟨S100000x64, .f32⟩
  | 6 => ⟨S100000x64, .f32⟩
  | 7 => ⟨S200000x64, .f32⟩
  | 8 => ⟨S100000x64, .f32⟩
  | 9 => ⟨S_, .i32⟩
  | 10 => ⟨S2000000, .i32⟩
  | 11 => ⟨S2000000, .i1⟩
  | 12 => ⟨S_, .i32⟩
  | 13 => ⟨S2000000, .i32⟩
  | 14 => ⟨S2000000, .i32⟩
  | 15 => ⟨S2000000, .i32⟩
  | 16 => ⟨S2000000x1, .i32⟩
  | 17 => ⟨S2000000x64, .f32⟩
  | 18 => ⟨S_, .i32⟩
  | 19 => ⟨S2000000, .i32⟩
  | 20 => ⟨S2000000, .i1⟩
  | 21 => ⟨S_, .i32⟩
  | 22 => ⟨S2000000, .i32⟩
  | 23 => ⟨S2000000, .i32⟩
  | 24 => ⟨S2000000, .i32⟩
  | 25 => ⟨S2000000x1, .i32⟩
  | 26 => ⟨S2000000x64, .f32⟩
  | 27 => ⟨S2000000x64, .f32⟩
  | 28 => ⟨S_, .f32⟩
  | 29 => ⟨S200000x64, .f32⟩
  | 30 => ⟨S2000000x1, .i32⟩
  | 31 => ⟨S200000x64, .f32⟩
  | 32 => ⟨S_, .f32⟩
  | 33 => ⟨S2000000x1, .f32⟩
  | 34 => ⟨S_, .f32⟩
  | 35 => ⟨S200000x1, .f32⟩
  | 36 => ⟨S2000000x1, .i32⟩
  | 37 => ⟨S200000x1, .f32⟩
  | 38 => ⟨S_, .f32⟩
  | 39 => ⟨S200000x1, .f32⟩
  | 40 => ⟨S200000x1, .f32⟩
  | 41 => ⟨S200000x64, .f32⟩
  | 42 => ⟨S200000x64, .f32⟩
  | 43 => ⟨S50000x64, .f32⟩
  | 44 => ⟨S150000x64, .f32⟩
  | 45 => ⟨S_, .i32⟩
  | 46 => ⟨S1000000, .i32⟩
  | 47 => ⟨S1000000, .i1⟩
  | 48 => ⟨S_, .i32⟩
  | 49 => ⟨S1000000, .i32⟩
  | 50 => ⟨S1000000, .i32⟩
  | 51 => ⟨S1000000, .i32⟩
  | 52 => ⟨S1000000x1, .i32⟩
  | 53 => ⟨S1000000x64, .f32⟩
  | 54 => ⟨S1x64, .f32⟩
  | 55 => ⟨S64, .f32⟩
  | 56 => ⟨S1x64, .f32⟩
  | 57 => ⟨S1000000x64, .f32⟩
  | 58 => ⟨S1000000x64, .f32⟩
  | 59 => ⟨S_, .f32⟩
  | 60 => ⟨S50000x64, .f32⟩
  | 61 => ⟨S1000000x1, .i32⟩
  | 62 => ⟨S50000x64, .f32⟩
  | 63 => ⟨S_, .f32⟩
  | 64 => ⟨S1000000x1, .f32⟩
  | 65 => ⟨S_, .f32⟩
  | 66 => ⟨S50000x1, .f32⟩
  | 67 => ⟨S1000000x1, .i32⟩
  | 68 => ⟨S50000x1, .f32⟩
  | 69 => ⟨S_, .f32⟩
  | 70 => ⟨S50000x1, .f32⟩
  | 71 => ⟨S50000x1, .f32⟩
  | 72 => ⟨S50000x64, .f32⟩
  | 73 => ⟨S50000x64, .f32⟩
  | 74 => ⟨S1x64x64, .f32⟩
  | 75 => ⟨S64x64, .f32⟩
  | 76 => ⟨S64x64, .f32⟩
  | 77 => ⟨S50000x64, .f32⟩
  | 78 => ⟨S1x64x64, .f32⟩
  | 79 => ⟨S64x64, .f32⟩
  | 80 => ⟨S64x64, .f32⟩
  | 81 => ⟨S50000x64, .f32⟩
  | 82 => ⟨S50000x64, .f32⟩
  | 83 => ⟨S50000x64, .f32⟩
  | 84 => ⟨S50000x64, .f32⟩
  | 85 => ⟨S_, .f32⟩
  | 86 => ⟨S50000x64, .f32⟩
  | 87 => ⟨S50000x64, .f32⟩
  | 88 => ⟨S_, .f32⟩
  | 89 => ⟨S50000x64, .f32⟩
  | 90 => ⟨S50000x64, .f32⟩
  | 91 => ⟨S50000x64, .f32⟩
  | 92 => ⟨S_, .f32⟩
  | 93 => ⟨S50000x64, .f32⟩
  | 94 => ⟨S50000x64, .f32⟩
  | 95 => ⟨S50000x64, .f32⟩
  | 96 => ⟨S50000x64, .f32⟩
  | 97 => ⟨S_, .i32⟩
  | 98 => ⟨S1000000, .i32⟩
  | 99 => ⟨S1000000, .i1⟩
  | 100 => ⟨S_, .i32⟩
  | 101 => ⟨S1000000, .i32⟩
  | 102 => ⟨S1000000, .i32⟩
  | 103 => ⟨S1000000, .i32⟩
  | 104 => ⟨S1000000x1, .i32⟩
  | 105 => ⟨S1000000x64, .f32⟩
  | 106 => ⟨S_, .f32⟩
  | 107 => ⟨S100000x64, .f32⟩
  | 108 => ⟨S1000000x1, .i32⟩
  | 109 => ⟨S100000x64, .f32⟩
  | 110 => ⟨S200000x64, .f32⟩
  | 111 => ⟨S200000x64, .f32⟩
  | 112 => ⟨S_, .f32⟩
  | 113 => ⟨S200000, .f32⟩
  | 114 => ⟨S200000x1, .f32⟩
  | 115 => ⟨S200000x1, .f32⟩
  | 116 => ⟨S_, .f32⟩
  | 117 => ⟨S200000x1, .f32⟩
  | 118 => ⟨S200000x1, .f32⟩
  | 119 => ⟨S200000x64, .f32⟩
  | 120 => ⟨S200000x64, .f32⟩
  | 121 => ⟨S100000x64, .f32⟩
  | 122 => ⟨S_, .f32⟩
  | 123 => ⟨S100000, .f32⟩
  | 124 => ⟨S100000x1, .f32⟩
  | 125 => ⟨S100000x1, .f32⟩
  | 126 => ⟨S_, .f32⟩
  | 127 => ⟨S100000x1, .f32⟩
  | _ => ⟨S100000x64, .f32⟩

abbrev hbmTy0_2 (i : Nat) : BufTy := match i % 128 with
  | 0 => ⟨S100000x1, .f32⟩
  | 1 => ⟨S100000x64, .f32⟩
  | 2 => ⟨S100000x64, .f32⟩
  | 3 => ⟨S200000x64, .f32⟩
  | 4 => ⟨S100000x64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_cst_13 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_14 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_15 : Ref sig .tc := ⟨.hbm, 101, rfl⟩
abbrev main_v75 : Ref sig .tc := ⟨.hbm, 102, rfl⟩
abbrev main_v76 : Ref sig .tc := ⟨.hbm, 103, rfl⟩
abbrev main_c_16 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_18 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_19 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_20 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_21 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_c_22 : Ref sig .tc := ⟨.hbm, 137, rfl⟩
abbrev main_v104 : Ref sig .tc := ⟨.hbm, 138, rfl⟩
abbrev main_v105 : Ref sig .tc := ⟨.hbm, 139, rfl⟩
abbrev main_c_23 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_c_24 : Ref sig .tc := ⟨.hbm, 146, rfl⟩
abbrev main_v111 : Ref sig .tc := ⟨.hbm, 147, rfl⟩
abbrev main_v112 : Ref sig .tc := ⟨.hbm, 148, rfl⟩
abbrev main_c_25 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_26 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_cst_27 : Ref sig .tc := ⟨.hbm, 160, rfl⟩
abbrev main_v122 : Ref sig .tc := ⟨.hbm, 161, rfl⟩
abbrev main_cst_28 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_29 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_c_30 : Ref sig .tc := ⟨.hbm, 173, rfl⟩
abbrev main_v132 : Ref sig .tc := ⟨.hbm, 174, rfl⟩
abbrev main_v133 : Ref sig .tc := ⟨.hbm, 175, rfl⟩
abbrev main_c_31 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_cst_32 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_cst_33 : Ref sig .tc := ⟨.hbm, 191, rfl⟩
abbrev main_v147 : Ref sig .tc := ⟨.hbm, 192, rfl⟩
abbrev main_cst_34 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_cst_35 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_cst_36 : Ref sig .tc := ⟨.hbm, 213, rfl⟩
abbrev main_v166 : Ref sig .tc := ⟨.hbm, 214, rfl⟩
abbrev main_v167 : Ref sig .tc := ⟨.hbm, 215, rfl⟩
abbrev main_cst_37 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_cst_38 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_c_39 : Ref sig .tc := ⟨.hbm, 225, rfl⟩
abbrev main_v175 : Ref sig .tc := ⟨.hbm, 226, rfl⟩
abbrev main_v176 : Ref sig .tc := ⟨.hbm, 227, rfl⟩
abbrev main_c_40 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_cst_41 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_cst_42 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_cst_43 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_cst_44 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_cst_45 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S200000x64 : S_.BroadcastsInDim S200000x64 (![] : Fin 0 → Fin S200000x64.rank)
  bcast_S_S2000000x1 : S_.BroadcastsInDim S2000000x1 (![] : Fin 0 → Fin S2000000x1.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  slices_S200000x64_S50000x64_0_0 : S200000x64.Slices ![0, 0] S50000x64
  slices_S200000x64_S150000x64_50000_0 : S200000x64.Slices ![50000, 0] S150000x64
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S32x64_S1x64_0_0 : S32x64.Slices ![0, 0] S1x64
  shapeCasts_S1x64_S64 : S1x64.ShapeCasts S64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S50000x64 : S_.BroadcastsInDim S50000x64 (![] : Fin 0 → Fin S50000x64.rank)
  bcast_S_S1000000x1 : S_.BroadcastsInDim S1000000x1 (![] : Fin 0 → Fin S1000000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  slices_S2x64x64_S1x64x64_0_0_0 : S2x64x64.Slices ![0, 0, 0] S1x64x64
  shapeCasts_S1x64x64_S64x64 : S1x64x64.ShapeCasts S64x64
  transposes_S64x64_S64x64_1_0 : S64x64.Transposes [1, 0] S64x64
  bcast_S_S100000x64 : S_.BroadcastsInDim S100000x64 (![] : Fin 0 → Fin S100000x64.rank)
  concatenates_S50000x64_S150000x64_S200000x64_d0 : Shape.Concatenates [S50000x64, S150000x64] S200000x64 0
  reducesTo_S200000x64_S200000_d1 : S200000x64.ReducesTo [1] S200000
  h_S_ : 0 < S_.numel
  bcast_S200000_S200000x1_0 : S200000.BroadcastsInDim S200000x1 (![0] : Fin 1 → Fin S200000x1.rank)
  reducesTo_S100000x64_S100000_d1 : S100000x64.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  slices_S2x64x64_S1x64x64_1_0_0 : S2x64x64.Slices ![1, 0, 0] S1x64x64
  gather_S200000x64_S2000000x1_S2000000x64_1_0_n_n_0_1_164_wf : GatherDims.WF S200000x64 S2000000x1 S2000000x64 [1] [0] [] [0] [] 1 ![1, 64]
  gather_S32x64_S2000000x1_S2000000x64_1_0_n_n_0_1_164_wf : GatherDims.WF S32x64 S2000000x1 S2000000x64 [1] [0] [] [0] [] 1 ![1, 64]
  scatter_S200000x64_S2000000x1_S2000000x64_1_0_0_1_wf : ScatterDims.WF S200000x64 S2000000x1 S2000000x64 [1] [0] [0] 1
  scatter_S200000x1_S2000000x1_S2000000x1_1_0_0_1_wf : ScatterDims.WF S200000x1 S2000000x1 S2000000x1 [1] [0] [0] 1
  gather_S100000x64_S1000000x1_S1000000x64_1_0_n_n_0_1_164_wf : GatherDims.WF S100000x64 S1000000x1 S1000000x64 [1] [0] [] [0] [] 1 ![1, 64]
  scatter_S50000x64_S1000000x1_S1000000x64_1_0_0_1_wf : ScatterDims.WF S50000x64 S1000000x1 S1000000x64 [1] [0] [0] 1
  scatter_S50000x1_S1000000x1_S1000000x1_1_0_0_1_wf : ScatterDims.WF S50000x1 S1000000x1 S1000000x1 [1] [0] [0] 1
  dot_S50000x64_S64x64_S50000x64_1_0_0_1_n_n_wf : DotDims.WF S50000x64 S64x64 S50000x64 [1] [0] [0] [1] [] []
  gather_S50000x64_S1000000x1_S1000000x64_1_0_n_n_0_1_164_wf : GatherDims.WF S50000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def gather_S32x64_S2000000x1_S2000000x64_1_0_n_n_0_1_164 : GatherDims S32x64 S2000000x1 S2000000x64 where
  offsetDims := [1]
  collapsedSliceDims := [0]
  operandBatchingDims := []
  startIndicesBatchingDims := []
  startIndexMap := [0]
  indexVectorDim := 1
  sliceSizes := ![1, 64]
  wf := gather_S32x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def scatter_S200000x1_S2000000x1_S2000000x1_1_0_0_1 : ScatterDims S200000x1 S2000000x1 S2000000x1 where
  updateWindowDims := [1]
  insertedWindowDims := [0]
  scatterDimsToOperandDims := [0]
  indexVectorDim := 1
  wf := scatter_S200000x1_S2000000x1_S2000000x1_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S50000x1_S1000000x1_S1000000x1_1_0_0_1 : ScatterDims S50000x1 S1000000x1 S1000000x1 where
  updateWindowDims := [1]
  insertedWindowDims := [0]
  scatterDimsToOperandDims := [0]
  indexVectorDim := 1
  wf := scatter_S50000x1_S1000000x1_S1000000x1_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.RangeOfPre.lean ====
/-
  The precondition read back at the edge-type words. The printed predicate is a chain of one-bit conjunctions whose
  last two conjuncts are "every word w of the edge-type array has 0 ≤ w" and "every word has w < 32", each an
  and-reduction over the whole array of a signed comparison against a broadcast literal. The predicate being 1 makes
  each conjunct 1 (a one-bit and is 1 only of two 1s); an and-reduction to one result being 1 makes every compared
  bit 1; a signed comparison bit being 1 is the order of the two signed readings; the literals read 0 and 32.
-/
import proofs.«411258_j87239375716570_3_alg».proof.Pre_finite_inputs
import Idealize.ShloMosaic.Lib.ReduceAll
import Idealize.ShloMosaic.Lib.StableHlo.Predicate
import Idealize.ShloMosaic.Lib.ValueIdx

noncomputable section

namespace Cert.Pre_finite_inputs

open Idealize.ShloMosaic Idealize.ShloMosaic.ValueIdx
open Facts

/-- Every edge-type word, read signed, lies in [0, 32) when the predicate holds. -/
theorem edge_type_range [Facts] (a0 : FVec Ideal S100000x64 .f32) (a1 : FVec Ideal S200000x64 .f32) (a2 : FVec Ideal S32x64 .f32) (a3 a4 : FVec Ideal S2x64x64 .f32)
    (a5 : IVec S2x2000000 32) (a6 : IVec S2000000 32) (a7 a8 : IVec S1000000 32)
    (h : fn (F := Ideal) a0 a1 a2 a3 a4 a5 a6 a7 a8 = fun _ => 1#1) :
    ∀ e : S2000000.Idx, 0 ≤ (a6 e).toInt ∧ (a6 e).toInt < 32 := by
  -- a rank-0 array has one index
  haveI : Subsingleton S_.Idx := ⟨fun a b => funext fun d => d.elim0⟩
  have e0 := congrFun h ValueIdx.ix0
  dsimp only [fn, fn_part1] at e0
  -- the last conjunction: (… and all (0 ≤ w)) and all (w < 32)
  obtain ⟨e1, hlt⟩ := IntOp.andi_eq_one.1 e0
  obtain ⟨-, hge⟩ := IntOp.andi_eq_one.1 e1
  intro e
  -- each and-reduction over the whole array gives the compared bit at e
  have g : IntOp.cmpi .sge (a6 e) (0#32) = 1#1 := Host.reduce_andi_all _ _ _ _ _ hge e
  have l : IntOp.cmpi .slt (a6 e) (32#32) = 1#1 := Host.reduce_andi_all _ _ _ _ _ hlt e
  have g' := IntOp.cmpi_sge.1 g
  have l' := IntOp.cmpi_slt.1 l
  rw [show (0#32 : BitVec 32).toInt = 0 from by decide] at g'
  rw [show (32#32 : BitVec 32).toInt = 32 from by decide] at l'
  exact ⟨g', l'⟩

end Cert.Pre_finite_inputs

end
-- ==== Proof.ChainKeep.lean ====
import proofs.«411258_j87239375716570_3_alg».proof.Proof.Gen.KernelIdeal.Frame
import Idealize.ShloMosaic.Lib.StableHlo.Run

/-!
  A buffer that a stretch of host operations does not write holds, after the stretch, what it held before it.
  One statement per stretch, for every buffer outside the stretch's list of written buffers.
-/
set_option maxRecDepth 16384
noncomputable section
open Idealize.ShloMosaic Idealize.ShloMosaic.TcCoe Idealize.SL.Sem Idealize.ShloMosaic.StableHlo
namespace Cert.KernelIdeal.Chain
open Cert.KernelIdeal Cert.KernelIdeal.Gen

variable {F : FTy → Type} [FloatOps F]
variable (m : (ℓ : Loc nD τ sig) → Buf (Elt F) ℓ) (ρ : Dev nD → PrngReg)

/-- The buffers the operations of stretch 0 write. -/
abbrev written0 : List (Ref sig .tc) := [main_v0, main_v1, main_v2, main_v3, main_v4, main_c, main_v5, main_v6, main_c_0, main_v7, main_v8, main_v9, main_v10, main_v11, main_v12]
theorem writes0 : (hostOps0 : List (HloOp τ sig (Elt F))).Forall fun op => op.writes ⊆ (written0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer stretch 0 does not write is unchanged across it. -/
theorem keep0 (c : Dev nD) (b : Ref sig .tc) (hb : b ∉ written0) :
    W1 m ρ c (Proc.devRef .tc b) = W0 m ρ c (Proc.devRef .tc b) :=
  StableHlo.after_of_writes_sub hostOps0 _ writes0 hb

/-- The buffers the operations of stretch 1 write. -/
abbrev written1 : List (Ref sig .tc) := [main_cst, main_v14, main_v15, main_v16, main_cst_1, main_v17, main_cst_2, main_v18, main_v19, main_v20, main_cst_3, main_v21, main_v22, main_v23, main_v24, main_v25, main_v26, main_c_4, main_v27, main_v28, main_c_5, main_v29, main_v30, main_v31, main_v32, main_v33, main_v34]
theorem writes1 : (hostOps1 : List (HloOp τ sig (Elt F))).Forall fun op => op.writes ⊆ (written1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer stretch 1 does not write is unchanged across it. -/
theorem keep1 (c : Dev nD) (b : Ref sig .tc) (hb : b ∉ written1) :
    W3 m ρ c (Proc.devRef .tc b) = W2 m ρ c (Proc.devRef .tc b) :=
  StableHlo.after_of_writes_sub hostOps1 _ writes1 hb

/-- The buffers the operations of stretch 2 write. -/
abbrev written2 : List (Ref sig .tc) := [main_cst_6, main_v36, main_v37, main_v38, main_cst_7, main_v39, main_cst_8, main_v40, main_v41, main_v42, main_cst_9, main_v43, main_v44, main_v45, main_v46, main_v47, main_v48, main_v49, main_v50, main_v51, main_v52, main_v53, main_v54]
theorem writes2 : (hostOps2 : List (HloOp τ sig (Elt F))).Forall fun op => op.writes ⊆ (written2.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer stretch 2 does not write is unchanged across it. -/
theorem keep2 (c : Dev nD) (b : Ref sig .tc) (hb : b ∉ written2) :
    W5 m ρ c (Proc.devRef .tc b) = W4 m ρ c (Proc.devRef .tc b) :=
  StableHlo.after_of_writes_sub hostOps2 _ writes2 hb

/-- The buffers the operations of stretch 3 write. -/
abbrev written3 : List (Ref sig .tc) := [main_c_10, main_v56, main_v57, main_c_11, main_v58, main_v59, main_v60, main_v61, main_v62, main_cst_12, main_v63, main_v64, main_v65, main_v66]
theorem writes3 : (hostOps3 : List (HloOp τ sig (Elt F))).Forall fun op => op.writes ⊆ (written3.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer stretch 3 does not write is unchanged across it. -/
theorem keep3 (c : Dev nD) (b : Ref sig .tc) (hb : b ∉ written3) :
    W7 m ρ c (Proc.devRef .tc b) = W6 m ρ c (Proc.devRef .tc b) :=
  StableHlo.after_of_writes_sub hostOps3 _ writes3 hb

/-- The buffers the operations of stretch 5 write. -/
abbrev written5 : List (Ref sig .tc) := [main_c_13, main_v69, main_v70, main_c_14, main_v71, main_v72, main_v73, main_v74, main_v75, main_v76]
theorem writes5 : (hostOps5 : List (HloOp τ sig (Elt F))).Forall fun op => op.writes ⊆ (written5.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer stretch 5 does not write is unchanged across it. -/
theorem keep5 (c : Dev nD) (b : Ref sig .tc) (hb : b ∉ written5) :
    W10 m ρ c (Proc.devRef .tc b) = W9 m ρ c (Proc.devRef .tc b) :=
  StableHlo.after_of_writes_sub hostOps5 _ writes5 hb

/-- The buffers the operations of stretch 6 write. -/
abbrev written6 : List (Ref sig .tc) := [main_cst_15, main_v78, main_v79, main_v80, main_cst_16, main_v81, main_cst_17, main_v82, main_v83, main_v84, main_cst_18, main_v85, main_v86, main_v87, main_v88, main_v89, main_v90, main_c_19, main_v91, main_v92, main_c_20, main_v93, main_v94, main_v95, main_v96, main_v97, main_v98]
theorem writes6 : (hostOps6 : List (HloOp τ sig (Elt F))).Forall fun op => op.writes ⊆ (written6.map (Proc.devRef (τ := τ) .tc)).toFinset := by
  simp only [hostOps6, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer stretch 6 does not write is unchanged across it. -/
theorem keep6 (c : Dev nD) (b : Ref sig .tc) (hb : b ∉ written6) :
    W12 m ρ c (Proc.devRef .tc b) = W11 m ρ c (Proc.devRef .tc b) :=
  StableHlo.after_of_writes_sub hostOps6 _ writes6 hb

/-- The buffers the operations of stretch 7 write. -/
abbrev written7 : List (Ref sig .tc) := [main_cst_21, main_v100, main_v101, main_v102, main_cst_22, main_v103, main_cst_23, main_v104, main_v105, main_v106, main_cst_24, main_v107, main_v108, main_v109, main_v110, main_v111, main_v112, main_v113, main_v114, main_v115, main_v116, main_v117, main_v118]
theorem writes7 : (hostOps7 : List (HloOp τ sig (Elt F))).Forall fun op => op.writes ⊆ (written7.map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer stretch 7 does not write is unchanged across it. -/
theorem keep7 (c : Dev nD) (b : Ref sig .tc) (hb : b ∉ written7) :
    W14 m ρ c (Proc.devRef .tc b) = W13 m ρ c (Proc.devRef .tc b) :=
  StableHlo.after_of_writes_sub hostOps7 _ writes7 hb

/-- The buffers the operations of stretch 8 write. -/
abbrev written8 : List (Ref sig .tc) := [main_c_25, main_v120, main_v121, main_c_26, main_v122, main_v123, main_v124, main_v125, main_v126, main_cst_27, main_v127, main_v128, main_v129, main_v130]
theorem writes8 : (hostOps8 : List (HloOp τ sig (Elt F))).Forall fun op => op.writes ⊆ (written8.map (Proc.devRef (τ := τ) .tc)).toFinset := by
  simp only [hostOps8, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer stretch 8 does not write is unchanged across it. -/
theorem keep8 (c : Dev nD) (b : Ref sig .tc) (hb : b ∉ written8) :
    W16 m ρ c (Proc.devRef .tc b) = W15 m ρ c (Proc.devRef .tc b) :=
  StableHlo.after_of_writes_sub hostOps8 _ writes8 hb

end Cert.KernelIdeal.Chain
end
-- ==== Proof.RefTerms.lean ====
import proofs.«411258_j87239375716570_3_alg».proof.Proof.Gen.ReferenceIdeal.Run
import Idealize.ShloMosaic.PureOps.Ideal

/-!
  The reference's run, folded: the composed terms of its two hops written over a few named stages, so that the
  second hop is visibly the first at other operands. Every equation here holds by unfolding.
-/
set_option maxRecDepth 16384
noncomputable section
open Idealize.ShloMosaic Idealize.SL.Sem
namespace Cert.ReferenceIdeal.RefTerms
open Cert.ReferenceIdeal Cert.ReferenceIdeal.Facts₀ Cert.ReferenceIdeal.Facts Cert.ReferenceIdeal.Value

abbrev RVal := Valuation τ sig (Elt Ideal)
variable (T : RVal)

abbrev a0 : FVec Ideal S100000x64 .f32 := T (Proc.devRef .tc main_arg0)
abbrev a1 : FVec Ideal S200000x64 .f32 := T (Proc.devRef .tc main_arg1)
abbrev a2 : FVec Ideal S32x64 .f32 := T (Proc.devRef .tc main_arg2)
abbrev a3 : FVec Ideal S2x64x64 .f32 := T (Proc.devRef .tc main_arg3)
abbrev a4 : FVec Ideal S2x64x64 .f32 := T (Proc.devRef .tc main_arg4)
abbrev a5 : IVec S2x2000000 32 := T (Proc.devRef .tc main_arg5)
abbrev a6 : IVec S2000000 32 := T (Proc.devRef .tc main_arg6)
abbrev a7 : IVec S1000000 32 := T (Proc.devRef .tc main_arg7)
abbrev a8 : IVec S1000000 32 := T (Proc.devRef .tc main_arg8)

/-- The rows of an entity table at the edges' tails (negative indices wrapped). -/
def gatherTail (x : FVec Ideal S200000x64 .f32) : FVec Ideal S2000000x64 .f32 :=
  Host.gather gather_S200000x64_S2000000x1_S2000000x64_1_0_n_n_0_1_164 x (broadcastInDim S2000000x1 ![0] bcast_S2000000_S2000000x1_0 (select (cmpi .slt (res_main_v3 T) (broadcastInDim S2000000 ![] bcast_S_S2000000 (constantI S_ 32 0#32))) (addi (res_main_v3 T) (broadcastInDim S2000000 ![] bcast_S_S2000000 (constantI S_ 32 200000#32))) (res_main_v3 T)))
/-- The relation table's rows at the edges' types (negative indices wrapped). -/
def relGather : FVec Ideal S2000000x64 .f32 :=
  Host.gather gather_S32x64_S2000000x1_S2000000x64_1_0_n_n_0_1_164 (a2 T) (broadcastInDim S2000000x1 ![0] bcast_S2000000_S2000000x1_0 (select (cmpi .slt (a6 T) (broadcastInDim S2000000 ![] bcast_S_S2000000 (constantI S_ 32 0#32))) (addi (a6 T) (broadcastInDim S2000000 ![] bcast_S_S2000000 (constantI S_ 32 32#32))) (a6 T)))
/-- The per-edge messages: tail rows times relation rows. -/
def neigh (x : FVec Ideal S200000x64 .f32) : FVec Ideal S2000000x64 .f32 := mulf (gatherTail T x) (relGather T)
/-- The mean of the messages at each head entity. -/
def entityAgg (nb : FVec Ideal S2000000x64 .f32) : FVec Ideal S200000x64 .f32 :=
  Host.divf (Host.scatterAdd scatter_S200000x64_S2000000x1_S2000000x64_1_0_0_1 (broadcastInDim S200000x64 ![] bcast_S_S200000x64 (constant S_ .f32 0x00000000#32)) (broadcastInDim S2000000x1 ![0] bcast_S2000000_S2000000x1_0 (res_main_v1 T)) nb) (broadcastInDim S200000x64 ![0, 1] bcast_S200000x1_S200000x64_0_1 (maximumf (Host.scatterAdd scatter_S200000x1_S2000000x1_S2000000x1_1_0_0_1 (broadcastInDim S200000x1 ![] bcast_S_S200000x1 (constant S_ .f32 0x00000000#32)) (broadcastInDim S2000000x1 ![0] bcast_S2000000_S2000000x1_0 (res_main_v1 T)) (broadcastInDim S2000000x1 ![] bcast_S_S2000000x1 (constant S_ .f32 0x3F800000#32))) (broadcastInDim S200000x1 ![] bcast_S_S200000x1 (constant S_ .f32 0x3F800000#32))))
theorem res_main_v29_eq : res_main_v29 T = entityAgg T (neigh T (a1 T)) := rfl
theorem res_main_v129_eq : res_main_v129 T = entityAgg T (neigh T (res_main_v93 T)) := rfl
/-- The attribute entities' part of an aggregate. -/
def attPart (e : FVec Ideal S200000x64 .f32) : FVec Ideal S150000x64 .f32 :=
  extractStridedSlice S150000x64 ![50000, 0] e slices_S200000x64_S150000x64_50000_0

/-- The rows of a user table at the interactions' users (negative indices wrapped). -/
def userRows (u : FVec Ideal S100000x64 .f32) : FVec Ideal S1000000x64 .f32 :=
  Host.gather gather_S100000x64_S1000000x1_S1000000x64_1_0_n_n_0_1_164 u (broadcastInDim S1000000x1 ![0] bcast_S1000000_S1000000x1_0 (select (cmpi .slt (a7 T) (broadcastInDim S1000000 ![] bcast_S_S1000000 (constantI S_ 32 0#32))) (addi (a7 T) (broadcastInDim S1000000 ![] bcast_S_S1000000 (constantI S_ 32 100000#32))) (a7 T)))
/-- The relation table's first row. -/
def row0 : FVec Ideal S1x64 .f32 := extractStridedSlice S1x64 ![0, 0] (a2 T) slices_S32x64_S1x64_0_0
/-- The user rows scaled by the relation table's first row. -/
def itemNeigh (u : FVec Ideal S100000x64 .f32) : FVec Ideal S1000000x64 .f32 :=
  mulf (userRows T u) (broadcastInDim S1000000x64 ![0, 1] bcast_S1x64_S1000000x64_0_1 (broadcastInDim S1x64 ![1] bcast_S64_S1x64_1 (shapeCast _ (row0 T) shapeCasts_S1x64_S64)))
/-- The mean of the scaled user rows at each item. -/
def itemAgg (nb : FVec Ideal S1000000x64 .f32) : FVec Ideal S50000x64 .f32 :=
  Host.divf (Host.scatterAdd scatter_S50000x64_S1000000x1_S1000000x64_1_0_0_1 (broadcastInDim S50000x64 ![] bcast_S_S50000x64 (constant S_ .f32 0x00000000#32)) (broadcastInDim S1000000x1 ![0] bcast_S1000000_S1000000x1_0 (a8 T)) nb) (broadcastInDim S50000x64 ![0, 1] bcast_S50000x1_S50000x64_0_1 (maximumf (Host.scatterAdd scatter_S50000x1_S1000000x1_S1000000x1_1_0_0_1 (broadcastInDim S50000x1 ![] bcast_S_S50000x1 (constant S_ .f32 0x00000000#32)) (broadcastInDim S1000000x1 ![0] bcast_S1000000_S1000000x1_0 (a8 T)) (broadcastInDim S1000000x1 ![] bcast_S_S1000000x1 (constant S_ .f32 0x3F800000#32))) (broadcastInDim S50000x1 ![] bcast_S_S50000x1 (constant S_ .f32 0x3F800000#32))))
theorem res_main_v54_eq : res_main_v54 T = itemAgg T (itemNeigh T (a0 T)) := rfl
theorem res_main_v154_eq : res_main_v154 T = itemAgg T (itemNeigh T (res_main_v101 T)) := rfl

/-- The gate matrices of the two hops, transposed. -/
def g1_0 : FVec Ideal S64x64 .f32 := transpose S64x64 [1, 0] (shapeCast _ (extractStridedSlice S1x64x64 ![0, 0, 0] (a3 T) slices_S2x64x64_S1x64x64_0_0_0) shapeCasts_S1x64x64_S64x64) transposes_S64x64_S64x64_1_0
def g2_0 : FVec Ideal S64x64 .f32 := transpose S64x64 [1, 0] (shapeCast _ (extractStridedSlice S1x64x64 ![0, 0, 0] (a4 T) slices_S2x64x64_S1x64x64_0_0_0) shapeCasts_S1x64x64_S64x64) transposes_S64x64_S64x64_1_0
def g1_1 : FVec Ideal S64x64 .f32 := transpose S64x64 [1, 0] (shapeCast _ (extractStridedSlice S1x64x64 ![1, 0, 0] (a3 T) slices_S2x64x64_S1x64x64_1_0_0) shapeCasts_S1x64x64_S64x64) transposes_S64x64_S64x64_1_0
def g2_1 : FVec Ideal S64x64 .f32 := transpose S64x64 [1, 0] (shapeCast _ (extractStridedSlice S1x64x64 ![1, 0, 0] (a4 T) slices_S2x64x64_S1x64x64_1_0_0) shapeCasts_S1x64x64_S64x64) transposes_S64x64_S64x64_1_0
/-- The gate: the logistic function of the two projections' sum, spelt by its operations. -/
def gate (kg iu : FVec Ideal S50000x64 .f32) (g1 g2 : FVec Ideal S64x64 .f32) : FVec Ideal S50000x64 .f32 :=
  (Host.divf (broadcastInDim S50000x64 ![] bcast_S_S50000x64 (constant S_ .f32 0x3F800000#32)) (addf (broadcastInDim S50000x64 ![] bcast_S_S50000x64 (constant S_ .f32 0x3F800000#32)) (Host.exp (Host.negf (addf (Host.dotGeneral dot_S50000x64_S64x64_S50000x64_1_0_0_1_n_n none kg g1) (Host.dotGeneral dot_S50000x64_S64x64_S50000x64_1_0_0_1_n_n none iu g2))))))
/-- The gated blend of the two aggregates. -/
def blend (kg iu : FVec Ideal S50000x64 .f32) (g1 g2 : FVec Ideal S64x64 .f32) : FVec Ideal S50000x64 .f32 :=
  addf (mulf (gate kg iu g1 g2) kg) (mulf (subf (broadcastInDim S50000x64 ![] bcast_S_S50000x64 (constant S_ .f32 0x3F800000#32)) (gate kg iu g1 g2)) iu)
theorem res_main_v74_eq : res_main_v74 T = blend (res_main_v30 T) (res_main_v54 T) (g1_0 T) (g2_0 T) := rfl
theorem res_main_v174_eq : res_main_v174 T = blend (res_main_v130 T) (res_main_v154 T) (g1_1 T) (g2_1 T) := rfl

/-- The sum of the fused item rows at each user. -/
def userAgg (f : FVec Ideal S50000x64 .f32) : FVec Ideal S100000x64 .f32 :=
  Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (a7 T)) (Host.gather gather_S50000x64_S1000000x1_S1000000x64_1_0_n_n_0_1_164 f (broadcastInDim S1000000x1 ![0] bcast_S1000000_S1000000x1_0 (select (cmpi .slt (a8 T) (broadcastInDim S1000000 ![] bcast_S_S1000000 (constantI S_ 32 0#32))) (addi (a8 T) (broadcastInDim S1000000 ![] bcast_S_S1000000 (constantI S_ 32 50000#32))) (a8 T))))
theorem res_main_v84_eq : res_main_v84 T = userAgg T (res_main_v74 T) := rfl
theorem res_main_v184_eq : res_main_v184 T = userAgg T (res_main_v174 T) := rfl
/-- The entity table of the next hop before normalising: fused items above, attribute entities below. -/
def stack (f : FVec Ideal S50000x64 .f32) (e : FVec Ideal S150000x64 .f32) : FVec Ideal S200000x64 .f32 :=
  concatenate S200000x64 0 [⟨S50000x64, f⟩, ⟨S150000x64, e⟩] concatenates_S50000x64_S150000x64_S200000x64_d0
theorem res_main_v85_eq : res_main_v85 T = stack (res_main_v74 T) (attPart (res_main_v29 T)) := rfl
theorem res_main_v185_eq : res_main_v185 T = stack (res_main_v174 T) (attPart (res_main_v129 T)) := rfl

/-- Rows divided by their Euclidean norm, the norm bounded below by the guard word. -/
def normE (x : FVec Ideal S200000x64 .f32) : FVec Ideal S200000x64 .f32 :=
  Host.divf x (broadcastInDim S200000x64 ![0, 1] bcast_S200000x1_S200000x64_0_1 (maximumf (Host.sqrt (broadcastInDim S200000x1 ![0] bcast_S200000_S200000x1_0 (Host.reduceAdd (mulf x x) (constant S_ .f32 0x00000000#32) reducesTo_S200000x64_S200000_d1 h_S_))) (broadcastInDim S200000x1 ![] bcast_S_S200000x1 (constant S_ .f32 0x2B8CBCCC#32))))
def normU (x : FVec Ideal S100000x64 .f32) : FVec Ideal S100000x64 .f32 :=
  Host.divf x (broadcastInDim S100000x64 ![0, 1] bcast_S100000x1_S100000x64_0_1 (maximumf (Host.sqrt (broadcastInDim S100000x1 ![0] bcast_S100000_S100000x1_0 (Host.reduceAdd (mulf x x) (constant S_ .f32 0x00000000#32) reducesTo_S100000x64_S100000_d1 h_S_))) (broadcastInDim S100000x1 ![] bcast_S_S100000x1 (constant S_ .f32 0x2B8CBCCC#32))))
theorem res_main_v93_eq : res_main_v93 T = normE (res_main_v85 T) := rfl
theorem res_main_v101_eq : res_main_v101 T = normU (res_main_v84 T) := rfl

/-- The two results: the inputs plus the two hops' normalised tables. -/
def out0 : FVec Ideal S200000x64 .f32 := addf (addf (a1 T) (res_main_v93 T)) (normE (res_main_v185 T))
def out1 : FVec Ideal S100000x64 .f32 := addf (addf (a0 T) (res_main_v101 T)) (normU (res_main_v184 T))

end Cert.ReferenceIdeal.RefTerms
end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.SpecRelMul.lean ====
/-
  Relation multiply, as one function of the whole arrays.

  Every edge `r` carries a relation number `a6 r` and a row `x r` of 64 reals; the table `w` has one row of 64
  reals per relation, 32 of them. The result's entry `(r, d)` is `x (r, d) * w (a6 r, d)`: the edge's row times its
  relation's row, coordinate by coordinate. The relation number is read as a natural number below 32 (its residue
  modulo 32, which is the number itself when it lies in `[0, 32)`).
-/
import Idealize.ShloMosaic.Lib.ValueIdx
import Idealize.ShloMosaic.PureOps.Ideal
import Idealize.ShloMosaic.PureOps.Ideal.Laws

noncomputable section

namespace Cert.Spec

open Idealize.ShloMosaic Idealize.ShloMosaic.ValueIdx

/-- The row of the table that edge `r` reads: its relation number modulo 32. -/
abbrev relRow (a6 : IVec ⟨1, ![2000000]⟩ 32) (r : Fin 2000000) : Fin 32 :=
  ⟨(a6 (ix1 r)).toNat % 32, Nat.mod_lt _ (by decide)⟩

/-- Entry `(r, d)` is `x (r, d) * w (a6 r, d)`. -/
def relMul (x : FVec Ideal ⟨2, ![2000000, 64]⟩ .f32) (a6 : IVec ⟨1, ![2000000]⟩ 32) (w : FVec Ideal ⟨2, ![32, 64]⟩ .f32) :
    FVec Ideal ⟨2, ![2000000, 64]⟩ .f32 :=
  fun j => x j * w (ix2 (relRow a6 (j 0)) (j 1))

/-- The definition read at an entry. -/
theorem relMul_apply (x : FVec Ideal ⟨2, ![2000000, 64]⟩ .f32) (a6 : IVec ⟨1, ![2000000]⟩ 32) (w : FVec Ideal ⟨2, ![32, 64]⟩ .f32)
    (j : (⟨2, ![2000000, 64]⟩ : Shape).Idx) :
    relMul x a6 w j = x j * w (ix2 (relRow a6 (j 0)) (j 1)) := rfl

/-- A 32-bit word whose signed reading lies in `[0, 32)` is, as a natural number, below 32 and equal to that reading. -/
theorem toNat_of_range (a : BitVec 32) (h : 0 ≤ a.toInt ∧ a.toInt < 32) : a.toNat < 32 ∧ (a.toNat : Int) = a.toInt := by
  have e := BitVec.toInt_eq_toNat_cond a
  have := a.isLt
  constructor <;> omega

end Cert.Spec

end
-- ==== Proof.RelMulK0.lean ====
/-
  Relation multiply on the grid: the array the region leaves.

  Each of the 250 points handles 8000 edges. For an edge with relation number a in [0, 32) the body forms the one-hot
  row (1 in column a, 0 elsewhere), multiplies it into the relation table (a sum over 32 columns in which the zero
  terms vanish and the single one term is the table's row a), and multiplies the edge's own row by that, coordinate
  by coordinate. Point t writes back rows [8000 t, 8000 t + 8000), every row lies in exactly one such block, so the
  array after the run is the whole-array function Cert.Spec.relMul of the arrays the region found.
-/
import proofs.«411258_j87239375716570_3_alg».proof.Proof.Gen.KernelIdeal.Frame
import proofs.«411258_j87239375716570_3_alg».proof.Proof.LibPlainDot
import proofs.«411258_j87239375716570_3_alg».proof.Proof.SpecRelMul
import Idealize.ShloMosaic.Lib.ValueIdx
import Idealize.ShloMosaic.Lib.Pipeline.Value
import Idealize.ShloMosaic.Lib.KernelVsHost
import Idealize.ShloMosaic.Lib.StableHlo.Predicate

noncomputable section

namespace Cert.KernelIdeal.RelMul

open Idealize.ShloMosaic Idealize.ShloMosaic.ValueIdx Idealize.ShloMosaic.TcCoe Idealize.SL.Sem
open Cert.KernelIdeal.Gen

namespace K0

/-! ## The payload at an entry -/

/-- One entry of the one-hot matrix: 1 where the edge's relation number is the column number, else 0. -/
theorem onehot_apply (e : Vec Ideal S8000x1 .i32) (p : Fin 8000) (k : Fin 32) :
    (truncf .bf16 (sitofp .f32 (extui 32 (cmpi .eq
        (broadcastTo S8000x32 e broadcasts_S8000x1_S8000x32)
        (iota .tc S8000x32 32 [1] iota_S8000x32_d1_w32)) natLt_1_32)) bitsLt_bf16_f32 : FVec Ideal S8000x32 .bf16) (ix2 p k)
      = if e (ix2 p 0) = BitVec.ofNat 32 k.val then (1 : EReal) else 0 := by
  rw [truncf_apply, sitofp_apply, extui_apply]
  have hb : broadcastTo S8000x32 e broadcasts_S8000x1_S8000x32 (ix2 p k) = e (ix2 p 0) :=
    broadcastTo_apply _ _ _ (ix2 p 0) (fun a => by
      match a with
      | ⟨0, _⟩ => rfl
      | ⟨1, _⟩ => rfl)
  have hi : iota .tc S8000x32 32 [1] iota_S8000x32_d1_w32 (ix2 p k) = BitVec.ofNat 32 k.val :=
    iota_single_apply _ _ _ _ _ _
  show ((((IntOp.cmpi .eq (broadcastTo S8000x32 e broadcasts_S8000x1_S8000x32 (ix2 p k))
      (iota .tc S8000x32 32 [1] iota_S8000x32_d1_w32 (ix2 p k))).setWidth 32).toInt : ℝ) : EReal) = _
  rw [hb, hi, toInt_setWidth_bit]
  by_cases h : e (ix2 p 0) = BitVec.ofNat 32 k.val
  · rw [if_pos h, StableHlo.Predicate.cmpi_eq_iff.mpr h]
    norm_num
  · rw [if_neg h, eq_zero_of_ne_one (mt StableHlo.Predicate.cmpi_eq_iff.mp h)]
    norm_num

/-- The product into the zero accumulator at an entry: the sum over the 32 columns of the left operand's row. -/
theorem matmul_entry (oh : FVec Ideal S8000x32 .bf16) (wt : FVec Ideal S32x64 .bf16) (p : Fin 8000) (q : Fin 64) :
    matmul dot_S8000x32_S32x64_S8000x64_1_0_0_1_n_n none oh wt (constant S8000x64 .f32 0x00000000#32) (ix2 p q)
      = ∑ k : Fin 32, oh (ix2 p k) * wt (ix2 k q) :=
  Cert.Lib.PlainDot.matmul_zero_apply (M := 8000) (K := 32) (N := 64) (φ₁ := .bf16) (φ₂ := .bf16) none oh wt p q

/-- A word whose signed reading lies in [0, 32) is the word of a column number k below 32 exactly when its value modulo 32 is k. -/
theorem eq_ofNat_iff (a : BitVec 32) (h : 0 ≤ a.toInt ∧ a.toInt < 32) (k : Fin 32) :
    a = BitVec.ofNat 32 k.val ↔ (⟨a.toNat % 32, Nat.mod_lt _ (by decide)⟩ : Fin 32) = k := by
  obtain ⟨hlt, -⟩ := Cert.Spec.toNat_of_range a h
  have hk := k.isLt
  constructor
  · intro e
    apply Fin.ext
    show a.toNat % 32 = k.val
    rw [e, BitVec.toNat_ofNat]
    omega
  · intro e
    have e' : a.toNat % 32 = k.val := congrArg Fin.val e
    apply BitVec.eq_of_toNat_eq
    rw [BitVec.toNat_ofNat]
    omega

/-- The body's payload at an entry: the edge's entry times its relation's row entry — the one-hot row picks one term
    of the product's sum (0 * a = 0 and 1 * a = a on the extended reals). -/
theorem pay_apply (e : Vec Ideal S8000x1 .i32) (wt : Vec Ideal S32x64 .bf16) (x : Vec Ideal S8000x64 .f32) (p : Fin 8000) (q : Fin 64)
    (hr : 0 ≤ (e (ix2 p 0)).toInt ∧ (e (ix2 p 0)).toInt < 32) :
    k0_pay1 e wt x (ix2 p q) = x (ix2 p q) * wt (ix2 ⟨(e (ix2 p 0)).toNat % 32, Nat.mod_lt _ (by decide)⟩ q) := by
  unfold k0_pay1
  rw [mulf_apply, shapeCast_self, shapeCast_self, shapeCast_self, matmul_entry]
  refine congrArg (x (ix2 p q) * ·) ?_
  rw [Finset.sum_eq_single (⟨(e (ix2 p 0)).toNat % 32, Nat.mod_lt _ (by decide)⟩ : Fin 32)]
  · rw [onehot_apply, if_pos ((eq_ofNat_iff _ hr _).mpr rfl), one_mul]
  · intro k _ hk
    rw [onehot_apply, if_neg (fun h => hk ((eq_ofNat_iff _ hr k).mp h).symm), zero_mul]
  · intro h
    exact absurd (Finset.mem_univ _) h

/-! ## From blocks to the array -/

theorem hz : (![0, 0] : Fin 2 → Nat) = fun _ => 0 := funext fun a => by fin_cases a <;> rfl

/-- The printed index maps, decided over the grid: the edge rows' windows move with the output's, the table is one
    block, and the output's block row is below 250. -/
theorem idx_facts : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (0 : Fin 2) ≤ 249 ∧ win0_3.index t (1 : Fin 2) = 0 :=
  (by decide +kernel : ∀ t : Fin grid0.N, _)

/-- Every block row below 250 is some point's. -/
theorem idx_onto : ∀ q0 : Fin 250, ∃ t : Fin cfg0.N, win0_3.index t = ![q0.val, 0] :=
  (by decide +kernel : ∀ q0 : Fin 250, ∃ t : Fin grid0.N, win0_3.index t = ![q0.val, 0])

variable (V : (c : Dev nD) → (b : Ref sig .tc) → Buf (Elt Ideal) ((c : Thread nD τ).loc b))

/-- WHAT POINT t WRITES BACK is block t of the relation multiply of the whole arrays. -/
theorem flushed0_eq (c : Dev nD) (a6 : IVec S2000000 32) (w : FVec Ideal S32x64 .f32)
    (h12 : V c main_v12 = shapeCast S2000000x1 a6 shapeCasts_S2000000_S2000000x1)
    (h4 : V c main_v4 = truncf .bf16 w bitsLt_bf16_f32)
    (hr : ∀ e : S2000000.Idx, 0 ≤ (a6 e).toInt ∧ (a6 e).toInt < 32) (t : Fin cfg0.N) :
    (dat0 (F := Ideal) V c).flushed 3 t
      = ((cfg0.win 3).blk t).view.read (Elt Ideal) (Cert.Spec.relMul (V c main_v11) a6 w) := by
  show (cfg0.win 3).cut (grid0.coords t) ((dat0 V c).after 3 t) = _
  rw [after0_3]
  unfold out0_3
  rw [View.canon_unit_zero hz]
  simp only [View.ld_unit_zero (S := S8000x1) hz, View.ld_unit_zero (S := S32x64) hz, View.ld_unit_zero (S := S8000x64) hz]
  obtain ⟨e0, e1, e2, e3, e4, e5, e6, e7⟩ := idx_facts t
  funext j
  obtain ⟨p, q, rfl⟩ : ∃ (p : Fin 8000) (q : Fin 64), j = ix2 p q := ⟨j 0, j 1, eq_ix2 j⟩
  show k0_pay1 (iblk0 V c 1 t) (iblk0 V c 2 t) (iblk0 V c 0 t) (ix2 p q)
    = Cert.Spec.relMul (V c main_v11) a6 w (((cfg0.win 3).blk t).view.emb (ix2 p q))
  have hp := p.isLt
  have hq := q.isLt
  have hrow : win0_3.index t (0 : Fin 2) * 8000 + p.val < 2000000 := by omega
  have hE : iblk0 V c 1 t (ix2 p 0) = a6 (ix1 ⟨win0_3.index t (0 : Fin 2) * 8000 + p.val, hrow⟩) := by
    show V c main_v12 (((cfg0.win 1).blk t).view.emb (ix2 p 0)) = _
    rw [h12]
    refine shapeCast_apply _ _ _ (ix1 ⟨win0_3.index t (0 : Fin 2) * 8000 + p.val, hrow⟩) ?_
    rw [Shape.rowMajor_val_one, Shape.rowMajor_val_two]
    show win0_3.index t (0 : Fin 2) * 8000 + p.val
      = (win0_1.index t (0 : Fin 2) * 8000 + 1 * p.val) * 1 + (win0_1.index t (1 : Fin 2) * 1 + 1 * 0)
    omega
  have hW : ∀ k : Fin 32, iblk0 V c 2 t (ix2 k q) = w (ix2 k q) := by
    intro k
    show V c main_v4 (((cfg0.win 2).blk t).view.emb (ix2 k q)) = _
    rw [h4, truncf_apply]
    congr 1
    funext a; apply Fin.ext
    match a with
    | ⟨0, _⟩ => show win0_2.index t (0 : Fin 2) * 32 + 1 * k.val = k.val; omega
    | ⟨1, _⟩ => show win0_2.index t (1 : Fin 2) * 64 + 1 * q.val = q.val; omega
  have hX : iblk0 V c 0 t (ix2 p q) = V c main_v11 (ix2 ⟨win0_3.index t (0 : Fin 2) * 8000 + p.val, hrow⟩ q) := by
    show V c main_v11 (((cfg0.win 0).blk t).view.emb (ix2 p q)) = _
    congr 1
    funext a; apply Fin.ext
    match a with
    | ⟨0, _⟩ => show win0_0.index t (0 : Fin 2) * 8000 + 1 * p.val = win0_3.index t (0 : Fin 2) * 8000 + p.val; omega
    | ⟨1, _⟩ => show win0_0.index t (1 : Fin 2) * 64 + 1 * q.val = q.val; omega
  have h3 : ((cfg0.win 3).blk t).view.emb (ix2 p q) = ix2 ⟨win0_3.index t (0 : Fin 2) * 8000 + p.val, hrow⟩ q := by
    funext a; apply Fin.ext
    match a with
    | ⟨0, _⟩ => show win0_3.index t (0 : Fin 2) * 8000 + 1 * p.val = win0_3.index t (0 : Fin 2) * 8000 + p.val; omega
    | ⟨1, _⟩ => show win0_3.index t (1 : Fin 2) * 64 + 1 * q.val = q.val; omega
  have hrow32 : (⟨(iblk0 V c 1 t (ix2 p 0)).toNat % 32, Nat.mod_lt _ (by decide)⟩ : Fin 32)
      = Cert.Spec.relRow a6 ⟨win0_3.index t (0 : Fin 2) * 8000 + p.val, hrow⟩ :=
    Fin.ext (by
      show (iblk0 V c 1 t (ix2 p 0)).toNat % 32 = (a6 (ix1 ⟨win0_3.index t (0 : Fin 2) * 8000 + p.val, hrow⟩)).toNat % 32
      rw [hE])
  refine (pay_apply (iblk0 V c 1 t) (iblk0 V c 2 t) (iblk0 V c 0 t) p q (by rw [hE]; exact hr _)).trans ?_
  rw [h3, Cert.Spec.relMul_apply, hX, hrow32, hW]

/-- An index of the array is in point t's block iff each coordinate is in the block's range on its axis. -/
theorem mem_blk (t : Fin cfg0.N) (i : S2000000x64.Idx) :
    i ∈ ((cfg0.win 3).blk t).view.set ↔ ∀ a : Fin 2, win0_3.index t a * S8000x64.size a ≤ (i a).val
      ∧ (i a).val < win0_3.index t a * S8000x64.size a + S8000x64.size a := by
  show i ∈ ((View.whole main_v13).slice (win0_3.rect t)).set ↔ _
  rw [View.set_slice_whole, Rect.mem_set_unit]
  exact Iff.rfl

/-- Every entry of the array is in some point's block: row r in the block of point r / 8000. -/
theorem cover (i : S2000000x64.Idx) :
    ∃ t : Fin cfg0.N, (cfg0.win 3).flush t = true ∧ i ∈ ((cfg0.win 3).blk t).view.set := by
  have hi0 : (i 0).val < 2000000 := (i 0).isLt
  have hi1 : (i 1).val < 64 := (i 1).isLt
  obtain ⟨t, ht⟩ := idx_onto ⟨(i 0).val / 8000, by omega⟩
  have q0 : win0_3.index t (0 : Fin 2) = (i 0).val / 8000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 8000 ≤ (i 0).val ∧ (i 0).val < win0_3.index t (0 : Fin 2) * 8000 + 8000
    omega
  | ⟨1, _⟩ =>
    show win0_3.index t (1 : Fin 2) * 64 ≤ (i 1).val ∧ (i 1).val < win0_3.index t (1 : Fin 2) * 64 + 64
    omega

end K0

/-- THE ARRAY the region leaves: the relation multiply of the arrays it found. -/
theorem final0 (V : (c : Dev nD) → (b : Ref sig .tc) → Buf (Elt Ideal) ((c : Thread nD τ).loc b)) (c : Dev nD)
    (a6 : IVec S2000000 32) (w : FVec Ideal S32x64 .f32)
    (h12 : V c main_v12 = shapeCast S2000000x1 a6 shapeCasts_S2000000_S2000000x1)
    (h4 : V c main_v4 = truncf .bf16 w bitsLt_bf16_f32)
    (hr : ∀ e : S2000000.Idx, 0 ≤ (a6 e).toInt ∧ (a6 e).toInt < 32) :
    (Gen.dat0 (F := Ideal) V c).arrAt 3 cfg0.N = Cert.Spec.relMul (V c main_v11) a6 w :=
  (dat0 V c).arrAt_eq_of_cover 3 _ (fun t _ => K0.flushed0_eq V c a6 w h12 h4 hr t) K0.cover

end Cert.KernelIdeal.RelMul

end
-- ==== Proof.RelMulK5.lean ====
/-
  Relation multiply on the grid: the array the region leaves.

  Each of the 250 points handles 8000 edges. For an edge with relation number a in [0, 32) the body forms the one-hot
  row (1 in column a, 0 elsewhere), multiplies it into the relation table (a sum over 32 columns in which the zero
  terms vanish and the single one term is the table's row a), and multiplies the edge's own row by that, coordinate
  by coordinate. Point t writes back rows [8000 t, 8000 t + 8000), every row lies in exactly one such block, so the
  array after the run is the whole-array function Cert.Spec.relMul of the arrays the region found.
-/
import proofs.«411258_j87239375716570_3_alg».proof.Proof.Gen.KernelIdeal.Frame
import proofs.«411258_j87239375716570_3_alg».proof.Proof.LibPlainDot
import proofs.«411258_j87239375716570_3_alg».proof.Proof.SpecRelMul
import Idealize.ShloMosaic.Lib.ValueIdx
import Idealize.ShloMosaic.Lib.Pipeline.Value
import Idealize.ShloMosaic.Lib.KernelVsHost
import Idealize.ShloMosaic.Lib.StableHlo.Predicate

noncomputable section

namespace Cert.KernelIdeal.RelMul

open Idealize.ShloMosaic Idealize.ShloMosaic.ValueIdx Idealize.ShloMosaic.TcCoe Idealize.SL.Sem
open Cert.KernelIdeal.Gen

namespace K5

/-! ## The payload at an entry -/

/-- One entry of the one-hot matrix: 1 where the edge's relation number is the column number, else 0. -/
theorem onehot_apply (e : Vec Ideal S8000x1 .i32) (p : Fin 8000) (k : Fin 32) :
    (truncf .bf16 (sitofp .f32 (extui 32 (cmpi .eq
        (broadcastTo S8000x32 e broadcasts_S8000x1_S8000x32)
        (iota .tc S8000x32 32 [1] iota_S8000x32_d1_w32)) natLt_1_32)) bitsLt_bf16_f32 : FVec Ideal S8000x32 .bf16) (ix2 p k)
      = if e (ix2 p 0) = BitVec.ofNat 32 k.val then (1 : EReal) else 0 := by
  rw [truncf_apply, sitofp_apply, extui_apply]
  have hb : broadcastTo S8000x32 e broadcasts_S8000x1_S8000x32 (ix2 p k) = e (ix2 p 0) :=
    broadcastTo_apply _ _ _ (ix2 p 0) (fun a => by
      match a with
      | ⟨0, _⟩ => rfl
      | ⟨1, _⟩ => rfl)
  have hi : iota .tc S8000x32 32 [1] iota_S8000x32_d1_w32 (ix2 p k) = BitVec.ofNat 32 k.val :=
    iota_single_apply _ _ _ _ _ _
  show ((((IntOp.cmpi .eq (broadcastTo S8000x32 e broadcasts_S8000x1_S8000x32 (ix2 p k))
      (iota .tc S8000x32 32 [1] iota_S8000x32_d1_w32 (ix2 p k))).setWidth 32).toInt : ℝ) : EReal) = _
  rw [hb, hi, toInt_setWidth_bit]
  by_cases h : e (ix2 p 0) = BitVec.ofNat 32 k.val
  · rw [if_pos h, StableHlo.Predicate.cmpi_eq_iff.mpr h]
    norm_num
  · rw [if_neg h, eq_zero_of_ne_one (mt StableHlo.Predicate.cmpi_eq_iff.mp h)]
    norm_num

/-- The product into the zero accumulator at an entry: the sum over the 32 columns of the left operand's row. -/
theorem matmul_entry (oh : FVec Ideal S8000x32 .bf16) (wt : FVec Ideal S32x64 .bf16) (p : Fin 8000) (q : Fin 64) :
    matmul dot_S8000x32_S32x64_S8000x64_1_0_0_1_n_n none oh wt (constant S8000x64 .f32 0x00000000#32) (ix2 p q)
      = ∑ k : Fin 32, oh (ix2 p k) * wt (ix2 k q) :=
  Cert.Lib.PlainDot.matmul_zero_apply (M := 8000) (K := 32) (N := 64) (φ₁ := .bf16) (φ₂ := .bf16) none oh wt p q

/-- A word whose signed reading lies in [0, 32) is the word of a column number k below 32 exactly when its value modulo 32 is k. -/
theorem eq_ofNat_iff (a : BitVec 32) (h : 0 ≤ a.toInt ∧ a.toInt < 32) (k : Fin 32) :
    a = BitVec.ofNat 32 k.val ↔ (⟨a.toNat % 32, Nat.mod_lt _ (by decide)⟩ : Fin 32) = k := by
  obtain ⟨hlt, -⟩ := Cert.Spec.toNat_of_range a h
  have hk := k.isLt
  constructor
  · intro e
    apply Fin.ext
    show a.toNat % 32 = k.val
    rw [e, BitVec.toNat_ofNat]
    omega
  · intro e
    have e' : a.toNat % 32 = k.val := congrArg Fin.val e
    apply BitVec.eq_of_toNat_eq
    rw [BitVec.toNat_ofNat]
    omega

/-- The body's payload at an entry: the edge's entry times its relation's row entry — the one-hot row picks one term
    of the product's sum (0 * a = 0 and 1 * a = a on the extended reals). -/
theorem pay_apply (e : Vec Ideal S8000x1 .i32) (wt : Vec Ideal S32x64 .bf16) (x : Vec Ideal S8000x64 .f32) (p : Fin 8000) (q : Fin 64)
    (hr : 0 ≤ (e (ix2 p 0)).toInt ∧ (e (ix2 p 0)).toInt < 32) :
    k5_pay1 e wt x (ix2 p q) = x (ix2 p q) * wt (ix2 ⟨(e (ix2 p 0)).toNat % 32, Nat.mod_lt _ (by decide)⟩ q) := by
  unfold k5_pay1
  rw [mulf_apply, shapeCast_self, shapeCast_self, shapeCast_self, matmul_entry]
  refine congrArg (x (ix2 p q) * ·) ?_
  rw [Finset.sum_eq_single (⟨(e (ix2 p 0)).toNat % 32, Nat.mod_lt _ (by decide)⟩ : Fin 32)]
  · rw [onehot_apply, if_pos ((eq_ofNat_iff _ hr _).mpr rfl), one_mul]
  · intro k _ hk
    rw [onehot_apply, if_neg (fun h => hk ((eq_ofNat_iff _ hr k).mp h).symm), zero_mul]
  · intro h
    exact absurd (Finset.mem_univ _) h

/-! ## From blocks to the array -/

theorem hz : (![0, 0] : Fin 2 → Nat) = fun _ => 0 := funext fun a => by fin_cases a <;> rfl

/-- The printed index maps, decided over the grid: the edge rows' windows move with the output's, the table is one
    block, and the output's block row is below 250. -/
theorem idx_facts : ∀ t : Fin cfg5.N,
    win5_0.index t (0 : Fin 2) = win5_3.index t (0 : Fin 2) ∧ win5_0.index t (1 : Fin 2) = 0
    ∧ win5_1.index t (0 : Fin 2) = win5_3.index t (0 : Fin 2) ∧ win5_1.index t (1 : Fin 2) = 0
    ∧ win5_2.index t (0 : Fin 2) = 0 ∧ win5_2.index t (1 : Fin 2) = 0
    ∧ win5_3.index t (0 : Fin 2) ≤ 249 ∧ win5_3.index t (1 : Fin 2) = 0 :=
  (by decide +kernel : ∀ t : Fin grid5.N, _)

/-- Every block row below 250 is some point's. -/
theorem idx_onto : ∀ q0 : Fin 250, ∃ t : Fin cfg5.N, win5_3.index t = ![q0.val, 0] :=
  (by decide +kernel : ∀ q0 : Fin 250, ∃ t : Fin grid5.N, win5_3.index t = ![q0.val, 0])

variable (V : (c : Dev nD) → (b : Ref sig .tc) → Buf (Elt Ideal) ((c : Thread nD τ).loc b))

/-- WHAT POINT t WRITES BACK is block t of the relation multiply of the whole arrays. -/
theorem flushed5_eq (c : Dev nD) (a6 : IVec S2000000 32) (w : FVec Ideal S32x64 .f32)
    (h76 : V c main_v76 = shapeCast S2000000x1 a6 shapeCasts_S2000000_S2000000x1)
    (h4 : V c main_v4 = truncf .bf16 w bitsLt_bf16_f32)
    (hr : ∀ e : S2000000.Idx, 0 ≤ (a6 e).toInt ∧ (a6 e).toInt < 32) (t : Fin cfg5.N) :
    (dat5 (F := Ideal) V c).flushed 3 t
      = ((cfg5.win 3).blk t).view.read (Elt Ideal) (Cert.Spec.relMul (V c main_v75) a6 w) := by
  show (cfg5.win 3).cut (grid5.coords t) ((dat5 V c).after 3 t) = _
  rw [after5_3]
  unfold out5_3
  rw [View.canon_unit_zero hz]
  simp only [View.ld_unit_zero (S := S8000x1) hz, View.ld_unit_zero (S := S32x64) hz, View.ld_unit_zero (S := S8000x64) hz]
  obtain ⟨e0, e1, e2, e3, e4, e5, e6, e7⟩ := idx_facts t
  funext j
  obtain ⟨p, q, rfl⟩ : ∃ (p : Fin 8000) (q : Fin 64), j = ix2 p q := ⟨j 0, j 1, eq_ix2 j⟩
  show k5_pay1 (iblk5 V c 1 t) (iblk5 V c 2 t) (iblk5 V c 0 t) (ix2 p q)
    = Cert.Spec.relMul (V c main_v75) a6 w (((cfg5.win 3).blk t).view.emb (ix2 p q))
  have hp := p.isLt
  have hq := q.isLt
  have hrow : win5_3.index t (0 : Fin 2) * 8000 + p.val < 2000000 := by omega
  have hE : iblk5 V c 1 t (ix2 p 0) = a6 (ix1 ⟨win5_3.index t (0 : Fin 2) * 8000 + p.val, hrow⟩) := by
    show V c main_v76 (((cfg5.win 1).blk t).view.emb (ix2 p 0)) = _
    rw [h76]
    refine shapeCast_apply _ _ _ (ix1 ⟨win5_3.index t (0 : Fin 2) * 8000 + p.val, hrow⟩) ?_
    rw [Shape.rowMajor_val_one, Shape.rowMajor_val_two]
    show win5_3.index t (0 : Fin 2) * 8000 + p.val
      = (win5_1.index t (0 : Fin 2) * 8000 + 1 * p.val) * 1 + (win5_1.index t (1 : Fin 2) * 1 + 1 * 0)
    omega
  have hW : ∀ k : Fin 32, iblk5 V c 2 t (ix2 k q) = w (ix2 k q) := by
    intro k
    show V c main_v4 (((cfg5.win 2).blk t).view.emb (ix2 k q)) = _
    rw [h4, truncf_apply]
    congr 1
    funext a; apply Fin.ext
    match a with
    | ⟨0, _⟩ => show win5_2.index t (0 : Fin 2) * 32 + 1 * k.val = k.val; omega
    | ⟨1, _⟩ => show win5_2.index t (1 : Fin 2) * 64 + 1 * q.val = q.val; omega
  have hX : iblk5 V c 0 t (ix2 p q) = V c main_v75 (ix2 ⟨win5_3.index t (0 : Fin 2) * 8000 + p.val, hrow⟩ q) := by
    show V c main_v75 (((cfg5.win 0).blk t).view.emb (ix2 p q)) = _
    congr 1
    funext a; apply Fin.ext
    match a with
    | ⟨0, _⟩ => show win5_0.index t (0 : Fin 2) * 8000 + 1 * p.val = win5_3.index t (0 : Fin 2) * 8000 + p.val; omega
    | ⟨1, _⟩ => show win5_0.index t (1 : Fin 2) * 64 + 1 * q.val = q.val; omega
  have h3 : ((cfg5.win 3).blk t).view.emb (ix2 p q) = ix2 ⟨win5_3.index t (0 : Fin 2) * 8000 + p.val, hrow⟩ q := by
    funext a; apply Fin.ext
    match a with
    | ⟨0, _⟩ => show win5_3.index t (0 : Fin 2) * 8000 + 1 * p.val = win5_3.index t (0 : Fin 2) * 8000 + p.val; omega
    | ⟨1, _⟩ => show win5_3.index t (1 : Fin 2) * 64 + 1 * q.val = q.val; omega
  have hrow32 : (⟨(iblk5 V c 1 t (ix2 p 0)).toNat % 32, Nat.mod_lt _ (by decide)⟩ : Fin 32)
      = Cert.Spec.relRow a6 ⟨win5_3.index t (0 : Fin 2) * 8000 + p.val, hrow⟩ :=
    Fin.ext (by
      show (iblk5 V c 1 t (ix2 p 0)).toNat % 32 = (a6 (ix1 ⟨win5_3.index t (0 : Fin 2) * 8000 + p.val, hrow⟩)).toNat % 32
      rw [hE])
  refine (pay_apply (iblk5 V c 1 t) (iblk5 V c 2 t) (iblk5 V c 0 t) p q (by rw [hE]; exact hr _)).trans ?_
  rw [h3, Cert.Spec.relMul_apply, hX, hrow32, hW]

/-- An index of the array is in point t's block iff each coordinate is in the block's range on its axis. -/
theorem mem_blk (t : Fin cfg5.N) (i : S2000000x64.Idx) :
    i ∈ ((cfg5.win 3).blk t).view.set ↔ ∀ a : Fin 2, win5_3.index t a * S8000x64.size a ≤ (i a).val
      ∧ (i a).val < win5_3.index t a * S8000x64.size a + S8000x64.size a := by
  show i ∈ ((View.whole main_v77).slice (win5_3.rect t)).set ↔ _
  rw [View.set_slice_whole, Rect.mem_set_unit]
  exact Iff.rfl

/-- Every entry of the array is in some point's block: row r in the block of point r / 8000. -/
theorem cover (i : S2000000x64.Idx) :
    ∃ t : Fin cfg5.N, (cfg5.win 3).flush t = true ∧ i ∈ ((cfg5.win 3).blk t).view.set := by
  have hi0 : (i 0).val < 2000000 := (i 0).isLt
  have hi1 : (i 1).val < 64 := (i 1).isLt
  obtain ⟨t, ht⟩ := idx_onto ⟨(i 0).val / 8000, by omega⟩
  have q0 : win5_3.index t (0 : Fin 2) = (i 0).val / 8000 := congrFun ht 0
  have q1 : win5_3.index t (1 : Fin 2) = 0 := congrFun ht 1
  refine ⟨t, flush5_3 t, ?_⟩
  rw [mem_blk]
  intro a
  match a with
  | ⟨0, _⟩ =>
    show win5_3.index t (0 : Fin 2) * 8000 ≤ (i 0).val ∧ (i 0).val < win5_3.index t (0 : Fin 2) * 8000 + 8000
    omega
  | ⟨1, _⟩ =>
    show win5_3.index t (1 : Fin 2) * 64 ≤ (i 1).val ∧ (i 1).val < win5_3.index t (1 : Fin 2) * 64 + 64
    omega

end K5

/-- THE ARRAY the region leaves: the relation multiply of the arrays it found. -/
theorem final5 (V : (c : Dev nD) → (b : Ref sig .tc) → Buf (Elt Ideal) ((c : Thread nD τ).loc b)) (c : Dev nD)
    (a6 : IVec S2000000 32) (w : FVec Ideal S32x64 .f32)
    (h76 : V c main_v76 = shapeCast S2000000x1 a6 shapeCasts_S2000000_S2000000x1)
    (h4 : V c main_v4 = truncf .bf16 w bitsLt_bf16_f32)
    (hr : ∀ e : S2000000.Idx, 0 ≤ (a6 e).toInt ∧ (a6 e).toInt < 32) :
    (Gen.dat5 (F := Ideal) V c).arrAt 3 cfg5.N = Cert.Spec.relMul (V c main_v75) a6 w :=
  (dat5 V c).arrAt_eq_of_cover 3 _ (fun t _ => K5.flushed5_eq V c a6 w h76 h4 hr t) K5.cover

end Cert.KernelIdeal.RelMul

end
-- ==== Proof.RelMulRef.lean ====
/-
  Relation multiply in the reference: the gather of the relation table.

  The reference multiplies each edge's row by the table's row at the edge's relation number, after adding 32 to a
  negative number and clamping the row into [0, 31]. With the relation number in [0, 32) the addition never happens
  and the clamp is the identity, so edge r reads row a6 r: the whole-array function Cert.Spec.relMul.
-/
import proofs.«411258_j87239375716570_3_alg».proof.Proof.Gen.ReferenceIdeal
import proofs.«411258_j87239375716570_3_alg».proof.Proof.SpecRelMul
import Idealize.ShloMosaic.Lib.ValueIdx
import Idealize.ShloMosaic.Lib.Pipeline.Value
import Idealize.ShloMosaic.Lib.StableHlo.Predicate

noncomputable section

namespace Cert.ReferenceIdeal.RelMul

open Idealize.ShloMosaic Idealize.ShloMosaic.ValueIdx
open Cert.ReferenceIdeal Cert.ReferenceIdeal.Facts₀ Cert.ReferenceIdeal.Facts

/-- A word whose signed reading is not negative is not below zero in the signed order. -/
theorem slt_zero_of_nonneg (a : BitVec 32) (h : 0 ≤ a.toInt) : IntOp.cmpi .slt a 0#32 = 0#1 := by
  apply eq_zero_of_ne_one
  intro h1
  rw [IntOp.cmpi, StableHlo.Predicate.ofBool_eq_one_iff, BitVec.slt_iff_toInt_lt] at h1
  have z : (0#32 : BitVec 32).toInt = 0 := by decide
  omega

/-- The start index the gather reads for edge r: the relation number, 32 added where it is negative (it never is). -/
theorem wrapped_apply (a6 : IVec S2000000 32) (hr : ∀ e : S2000000.Idx, 0 ≤ (a6 e).toInt ∧ (a6 e).toInt < 32) (r : Fin 2000000) :
    broadcastInDim S2000000x1 ![0] bcast_S2000000_S2000000x1_0
      (select (cmpi .slt a6 (broadcastInDim S2000000 ![] bcast_S_S2000000 (constantI S_ 32 0#32)))
        (addi a6 (broadcastInDim S2000000 ![] bcast_S_S2000000 (constantI S_ 32 32#32))) a6) (ix2 r 0)
      = a6 (ix1 r) := by
  rw [broadcastInDim_apply _ _ _ (ix2 r 0) (ix1 r) (fun a => by
    match a with
    | ⟨0, _⟩ => rfl)]
  rw [select_apply]
  show Scalar.select (IntOp.cmpi .slt (a6 (ix1 r)) 0#32) _ _ = _
  rw [slt_zero_of_nonneg _ (hr (ix1 r)).1, select_zero]

/-- THE GATHER READ AT (r, q): the table's row at the start index of edge r, read signed and clamped into [0, 31], column q. -/
theorem gather_apply (w : FVec Ideal S32x64 .f32) (idx : IVec S2000000x1 32) (r : Fin 2000000) (q : Fin 64) :
    Host.gather gather_S32x64_S2000000x1_S2000000x64_1_0_n_n_0_1_164 w idx (ix2 r q)
      = w (ix2 ⟨min (idx (ix2 r 0)).toInt.toNat 31, by omega⟩ q) := by
  unfold Host.gather
  congr 1
  funext a
  refine Fin.ext ?_
  match a with
  | ⟨0, _⟩ =>
    show gather_S32x64_S2000000x1_S2000000x64_1_0_n_n_0_1_164.start (ix2 r q) idx 0
      + gather_S32x64_S2000000x1_S2000000x64_1_0_n_n_0_1_164.batchCoord (ix2 r q) 0
      + gather_S32x64_S2000000x1_S2000000x64_1_0_n_n_0_1_164.offCoord (ix2 r q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S32x64.rank) ∈ gather_S32x64_S2000000x1_S2000000x64_1_0_n_n_0_1_164.startIndexMap from
      List.mem_singleton.mpr rfl)]
    have hsi : gather_S32x64_S2000000x1_S2000000x64_1_0_n_n_0_1_164.siIdx (ix2 r q)
        ⟨List.idxOf (0 : Fin S32x64.rank) gather_S32x64_S2000000x1_S2000000x64_1_0_n_n_0_1_164.startIndexMap,
          List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show gather_S32x64_S2000000x1_S2000000x64_1_0_n_n_0_1_164.start (ix2 r q) idx 1
      + gather_S32x64_S2000000x1_S2000000x64_1_0_n_n_0_1_164.batchCoord (ix2 r q) 1
      + gather_S32x64_S2000000x1_S2000000x64_1_0_n_n_0_1_164.offCoord (ix2 r q) 1 = q.val
    rw [GatherDims.batchCoord_eq_zero _ _ _ List.not_mem_nil]
    unfold GatherDims.start
    rw [dif_neg (show (1 : Fin S32x64.rank) ∉ gather_S32x64_S2000000x1_S2000000x64_1_0_n_n_0_1_164.startIndexMap from by decide)]
    unfold GatherDims.offCoord
    rw [dif_pos (show (1 : Fin S32x64.rank) ∈ gather_S32x64_S2000000x1_S2000000x64_1_0_n_n_0_1_164.sKept from by decide)]
    have hk : ∀ h : List.idxOf (1 : Fin S32x64.rank) gather_S32x64_S2000000x1_S2000000x64_1_0_n_n_0_1_164.sKept
          < gather_S32x64_S2000000x1_S2000000x64_1_0_n_n_0_1_164.offsetDims.length,
        gather_S32x64_S2000000x1_S2000000x64_1_0_n_n_0_1_164.offsetDims[List.idxOf (1 : Fin S32x64.rank)
          gather_S32x64_S2000000x1_S2000000x64_1_0_n_n_0_1_164.sKept]'h = (1 : Fin S2000000x64.rank) := by decide
    rw [hk]
    show 0 + 0 + q.val = q.val
    omega

/-- THE REFERENCE's relation multiply is the whole-array function: with the relation number in [0, 32) the wrap adds
    nothing and the clamp changes nothing, so edge r reads the table's row a6 r. -/
theorem ref_eq (x : FVec Ideal S2000000x64 .f32) (a6 : IVec S2000000 32) (w : FVec Ideal S32x64 .f32)
    (hr : ∀ e : S2000000.Idx, 0 ≤ (a6 e).toInt ∧ (a6 e).toInt < 32) :
    mulf x (Host.gather gather_S32x64_S2000000x1_S2000000x64_1_0_n_n_0_1_164 w (broadcastInDim S2000000x1 ![0] bcast_S2000000_S2000000x1_0 (select (cmpi .slt a6 (broadcastInDim S2000000 ![] bcast_S_S2000000 (constantI S_ 32 0#32))) (addi a6 (broadcastInDim S2000000 ![] bcast_S_S2000000 (constantI S_ 32 32#32))) a6)))
      = Cert.Spec.relMul x a6 w := by
  funext j
  obtain ⟨r, q, rfl⟩ : ∃ (r : Fin 2000000) (q : Fin 64), j = ix2 r q := ⟨j 0, j 1, eq_ix2 j⟩
  rw [mulf_apply, gather_apply, Cert.Spec.relMul_apply]
  refine congrArg (x (ix2 r q) * ·) (congrArg w ?_)
  refine congrArg (fun k : Fin 32 => ix2 k q) (Fin.ext ?_)
  show min (broadcastInDim S2000000x1 ![0] bcast_S2000000_S2000000x1_0 (select (cmpi .slt a6 (broadcastInDim S2000000 ![] bcast_S_S2000000 (constantI S_ 32 0#32))) (addi a6 (broadcastInDim S2000000 ![] bcast_S_S2000000 (constantI S_ 32 32#32))) a6) (ix2 r 0)).toInt.toNat 31
    = (a6 (ix1 r)).toNat % 32
  rw [wrapped_apply a6 hr r]
  have h := Cert.Spec.toNat_of_range _ (hr (ix1 r))
  omega

end Cert.ReferenceIdeal.RelMul

end
-- ==== Proof.SpecRowScale.lean ====
import Idealize.ShloMosaic.Lib.ValueIdx
import Idealize.ShloMosaic.PureOps.Ideal

/-! The row scale: every row of a matrix multiplied, column by column, by the one row of a second matrix. -/

noncomputable section

namespace Cert.Spec

open Idealize.ShloMosaic Idealize.ShloMosaic.ValueIdx

/-- out[r, d] = x[r, d] · s[0, d]. -/
def rowScale (x : FVec Ideal ⟨2, ![1000000, 64]⟩ .f32) (s : FVec Ideal ⟨2, ![1, 64]⟩ .f32) : FVec Ideal ⟨2, ![1000000, 64]⟩ .f32 :=
  fun i => x i * s (ix2 (0 : Fin 1) (i 1 : Fin 64))

/-- The row scale at the entry in row `r`, column `d`. -/
theorem rowScale_apply (x : FVec Ideal ⟨2, ![1000000, 64]⟩ .f32) (s : FVec Ideal ⟨2, ![1, 64]⟩ .f32) (r : Fin 1000000) (d : Fin 64) :
    rowScale x s (ix2 r d) = x (ix2 r d) * s (ix2 (0 : Fin 1) d) := rfl

end Cert.Spec

end
-- ==== Proof.RowScaleK1.lean ====
import proofs.«411258_j87239375716570_3_alg».proof.Proof.Gen.KernelIdeal.Frame
import Idealize.ShloMosaic.Lib.Pipeline.Value
import Idealize.ShloMosaic.Lib.ValueLayout
import proofs.«411258_j87239375716570_3_alg».proof.Proof.SpecRowScale

/-! The array region 1 leaves is the row scale of the two arrays it reads: each of its 100 points multiplies a block of
    10000 rows, entry by entry, by the one scale row broadcast down the block, and the 100 blocks tile the 1000000 rows. -/

noncomputable section

namespace Cert.KernelIdeal.RowScale

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body reads and writes its blocks from their corner: both offsets are zero. -/
theorem zero_offsets1 : (![0, 0] : Fin 2 → Nat) = fun _ => 0 := funext fun a => by fin_cases a <;> rfl

/-- The value the body stores, at row p and column q of the block: the block's entry times the scale row's entry in
    column q (the two shape casts are to the same shape; the broadcast repeats the one row). -/
theorem scaled_block1_apply (x0 : FVec Ideal S10000x64 .f32) (x1 : FVec Ideal S1x64 .f32) (p : Fin 10000) (q : Fin 64) :
    Gen.k1_pay1 x0 x1 (ix2 p q) = x0 (ix2 p q) * x1 (ix2 (0 : Fin 1) q) := by
  unfold Gen.k1_pay1
  rw [mulf_apply, shapeCast_self, shapeCast_self, broadcastTo_1b_ab_apply]

/-- An entry of the matrix times an entry of the scale row is the row scale at an index, when the matrix entry is at
    that index and the scale entry is in that index's column. -/
theorem scaled_entry1 (X : FVec Ideal S1000000x64 .f32) (S : FVec Ideal S1x64 .f32) (e0 e2 : S1000000x64.Idx) (e1 : S1x64.Idx)
    (h0 : e0 = e2) (h1 : e1 = ix2 (0 : Fin 1) (e2 1 : Fin 64)) : X e0 * S e1 = Cert.Spec.rowScale X S e2 := by
  subst h0 h1; rfl

/-- The windows' index maps at every point: the matrix block and the output block of point t are block t of the rows and
    the one block of columns; the scale row's block is the whole row. -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the row scale of the arrays the region reads: entry (p, q) of the block is
    the matrix at the same place of the array times the scale row at column q. -/
theorem written_back1 (c : Dev nD) (t : Fin cfg1.N) :
    (Gen.dat1 (F := Ideal) V c).flushed 2 t = ((cfg1.win 2).blk t).view.read (Elt Ideal) (Cert.Spec.rowScale (V c main_v33) (V c main_v34)) := by
  show (cfg1.win 2).cut (grid1.coords t) ((Gen.dat1 V c).after 2 t) = _
  rw [Gen.after1_2]
  unfold Gen.out1_2
  rw [View.canon_unit_zero zero_offsets1]
  simp only [View.ld_unit_zero (S := S10000x64) zero_offsets1, View.ld_unit_zero (S := S1x64) zero_offsets1]
  obtain ⟨e0, e1, e2, e3, e4, e5⟩ := index_maps1 t
  funext j
  obtain ⟨p, q, rfl⟩ : ∃ (p : Fin 10000) (q : Fin 64), j = ix2 p q := ⟨j 0, j 1, eq_ix2 j⟩
  show Gen.k1_pay1 (iblk1 V c 0 t) (iblk1 V c 1 t) (ix2 p q) = Cert.Spec.rowScale (V c main_v33) (V c main_v34) (((cfg1.win 2).blk t).view.emb (ix2 p q))
  rw [scaled_block1_apply]
  -- the matrix block's entry (p, q) and the output block's entry (p, q) sit at the same place of their arrays
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  -- the scale block's entry (0, q) is the scale row's entry in the output entry's column
  have h1 : ((cfg1.win 1).blk t).view.emb (ix2 (0 : Fin 1) q) = ix2 (0 : Fin 1) ((((cfg1.win 2).blk t).view.emb (ix2 p q)) 1 : Fin 64) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  exact scaled_entry1 (V c main_v33) (V c main_v34) (((cfg1.win 0).blk t).view.emb (ix2 p q)) (((cfg1.win 2).blk t).view.emb (ix2 p q))
    (((cfg1.win 1).blk t).view.emb (ix2 (0 : Fin 1) q)) h0 h1

/-- An index of the output array is in point t's block iff each coordinate is in the block's range on its axis. -/
theorem mem_block1 (t : Fin cfg1.N) (i : S1000000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v35).slice (win1_2.rect t)).set ↔ _
  rw [View.set_slice_whole, Rect.mem_set_unit]
  exact Iff.rfl

/-- Every index of the output array is in some point's block: row r is in the block of point r / 10000. -/
theorem rows_covered1 (i : S1000000x64.Idx) : ∃ t : Fin cfg1.N, (cfg1.win 2).flush t = true ∧ i ∈ ((cfg1.win 2).blk t).view.set := by
  have hi0 : (i 0).val < 1000000 := (i 0).isLt
  have hi1 : (i 1).val < 64 := (i 1).isLt
  have hN : cfg1.N = 100 := Gen.N_1
  let t : Fin cfg1.N := ⟨(i 0).val / 10000, by rw [hN]; omega⟩
  obtain ⟨e0, e1, e2, e3, e4, e5⟩ := index_maps1 t
  have e4' : win1_2.index t (0 : Fin 2) = (i 0).val / 10000 := e4
  refine ⟨t, Gen.flush1_2 t, ?_⟩
  rw [mem_block1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array after region 1 is the row scale of the two arrays the region reads, as it finds them. -/
theorem final1 (c : Dev nD) : (Gen.dat1 (F := Ideal) V c).arrAt 2 cfg1.N = Cert.Spec.rowScale (V c main_v33) (V c main_v34) :=
  (Gen.dat1 (F := Ideal) V c).arrAt_eq_of_cover 2 (Cert.Spec.rowScale (V c main_v33) (V c main_v34)) (fun t _ => written_back1 V c t) rows_covered1

end Cert.KernelIdeal.RowScale

end
-- ==== Proof.RowScaleK6.lean ====
import proofs.«411258_j87239375716570_3_alg».proof.Proof.Gen.KernelIdeal.Frame
import Idealize.ShloMosaic.Lib.Pipeline.Value
import Idealize.ShloMosaic.Lib.ValueLayout
import proofs.«411258_j87239375716570_3_alg».proof.Proof.SpecRowScale

/-! The array region 6 leaves is the row scale of the two arrays it reads: each of its 100 points multiplies a block of
    10000 rows, entry by entry, by the one scale row broadcast down the block, and the 100 blocks tile the 1000000 rows. -/

noncomputable section

namespace Cert.KernelIdeal.RowScale

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body reads and writes its blocks from their corner: both offsets are zero. -/
theorem zero_offsets6 : (![0, 0] : Fin 2 → Nat) = fun _ => 0 := funext fun a => by fin_cases a <;> rfl

/-- The value the body stores, at row p and column q of the block: the block's entry times the scale row's entry in
    column q (the two shape casts are to the same shape; the broadcast repeats the one row). -/
theorem scaled_block6_apply (x0 : FVec Ideal S10000x64 .f32) (x1 : FVec Ideal S1x64 .f32) (p : Fin 10000) (q : Fin 64) :
    Gen.k6_pay1 x0 x1 (ix2 p q) = x0 (ix2 p q) * x1 (ix2 (0 : Fin 1) q) := by
  unfold Gen.k6_pay1
  rw [mulf_apply, shapeCast_self, shapeCast_self, broadcastTo_1b_ab_apply]

/-- An entry of the matrix times an entry of the scale row is the row scale at an index, when the matrix entry is at
    that index and the scale entry is in that index's column. -/
theorem scaled_entry6 (X : FVec Ideal S1000000x64 .f32) (S : FVec Ideal S1x64 .f32) (e0 e2 : S1000000x64.Idx) (e1 : S1x64.Idx)
    (h0 : e0 = e2) (h1 : e1 = ix2 (0 : Fin 1) (e2 1 : Fin 64)) : X e0 * S e1 = Cert.Spec.rowScale X S e2 := by
  subst h0 h1; rfl

/-- The windows' index maps at every point: the matrix block and the output block of point t are block t of the rows and
    the one block of columns; the scale row's block is the whole row. -/
theorem index_maps6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the row scale of the arrays the region reads: entry (p, q) of the block is
    the matrix at the same place of the array times the scale row at column q. -/
theorem written_back6 (c : Dev nD) (t : Fin cfg6.N) :
    (Gen.dat6 (F := Ideal) V c).flushed 2 t = ((cfg6.win 2).blk t).view.read (Elt Ideal) (Cert.Spec.rowScale (V c main_v97) (V c main_v98)) := by
  show (cfg6.win 2).cut (grid6.coords t) ((Gen.dat6 V c).after 2 t) = _
  rw [Gen.after6_2]
  unfold Gen.out6_2
  rw [View.canon_unit_zero zero_offsets6]
  simp only [View.ld_unit_zero (S := S10000x64) zero_offsets6, View.ld_unit_zero (S := S1x64) zero_offsets6]
  obtain ⟨e0, e1, e2, e3, e4, e5⟩ := index_maps6 t
  funext j
  obtain ⟨p, q, rfl⟩ : ∃ (p : Fin 10000) (q : Fin 64), j = ix2 p q := ⟨j 0, j 1, eq_ix2 j⟩
  show Gen.k6_pay1 (iblk6 V c 0 t) (iblk6 V c 1 t) (ix2 p q) = Cert.Spec.rowScale (V c main_v97) (V c main_v98) (((cfg6.win 2).blk t).view.emb (ix2 p q))
  rw [scaled_block6_apply]
  -- the matrix block's entry (p, q) and the output block's entry (p, q) sit at the same place of their arrays
  have h0 : ((cfg6.win 0).blk t).view.emb (ix2 p q) = ((cfg6.win 2).blk t).view.emb (ix2 p q) := by
    funext a; apply Fin.ext
    match a with
    | ⟨0, _⟩ => show win6_0.index t (0 : Fin 2) * 10000 + 1 * p.val = win6_2.index t (0 : Fin 2) * 10000 + 1 * p.val; omega
    | ⟨1, _⟩ => show win6_0.index t (1 : Fin 2) * 64 + 1 * q.val = win6_2.index t (1 : Fin 2) * 64 + 1 * q.val; omega
  -- the scale block's entry (0, q) is the scale row's entry in the output entry's column
  have h1 : ((cfg6.win 1).blk t).view.emb (ix2 (0 : Fin 1) q) = ix2 (0 : Fin 1) ((((cfg6.win 2).blk t).view.emb (ix2 p q)) 1 : Fin 64) := by
    funext a; apply Fin.ext
    match a with
    | ⟨0, _⟩ => show win6_1.index t (0 : Fin 2) * 1 + 1 * 0 = 0; omega
    | ⟨1, _⟩ => show win6_1.index t (1 : Fin 2) * 64 + 1 * q.val = win6_2.index t (1 : Fin 2) * 64 + 1 * q.val; omega
  exact scaled_entry6 (V c main_v97) (V c main_v98) (((cfg6.win 0).blk t).view.emb (ix2 p q)) (((cfg6.win 2).blk t).view.emb (ix2 p q))
    (((cfg6.win 1).blk t).view.emb (ix2 (0 : Fin 1) q)) h0 h1

/-- An index of the output array is in point t's block iff each coordinate is in the block's range on its axis. -/
theorem mem_block6 (t : Fin cfg6.N) (i : S1000000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v99).slice (win6_2.rect t)).set ↔ _
  rw [View.set_slice_whole, Rect.mem_set_unit]
  exact Iff.rfl

/-- Every index of the output array is in some point's block: row r is in the block of point r / 10000. -/
theorem rows_covered6 (i : S1000000x64.Idx) : ∃ t : Fin cfg6.N, (cfg6.win 2).flush t = true ∧ i ∈ ((cfg6.win 2).blk t).view.set := by
  have hi0 : (i 0).val < 1000000 := (i 0).isLt
  have hi1 : (i 1).val < 64 := (i 1).isLt
  have hN : cfg6.N = 100 := Gen.N_6
  let t : Fin cfg6.N := ⟨(i 0).val / 10000, by rw [hN]; omega⟩
  obtain ⟨e0, e1, e2, e3, e4, e5⟩ := index_maps6 t
  have e4' : win6_2.index t (0 : Fin 2) = (i 0).val / 10000 := e4
  refine ⟨t, Gen.flush6_2 t, ?_⟩
  rw [mem_block6]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 64 ≤ (i 1).val ∧ (i 1).val < win6_2.index t (1 : Fin 2) * 64 + 64; omega

/-- The output array after region 6 is the row scale of the two arrays the region reads, as it finds them. -/
theorem final6 (c : Dev nD) : (Gen.dat6 (F := Ideal) V c).arrAt 2 cfg6.N = Cert.Spec.rowScale (V c main_v97) (V c main_v98) :=
  (Gen.dat6 (F := Ideal) V c).arrAt_eq_of_cover 2 (Cert.Spec.rowScale (V c main_v97) (V c main_v98)) (fun t _ => written_back6 V c t) rows_covered6

end Cert.KernelIdeal.RowScale

end
-- ==== Proof.RowScaleRef.lean ====
import proofs.«411258_j87239375716570_3_alg».proof.Proof.Gen.ReferenceIdeal
import Idealize.ShloMosaic.Lib.ValueIdx
import Idealize.ShloMosaic.Lib.ValueLayout
import Idealize.ShloMosaic.PureOps.Ideal
import proofs.«411258_j87239375716570_3_alg».proof.Proof.SpecRowScale

/-! The reference's row scale: the scale row, flattened to a vector and broadcast back over every row, multiplied
    into the matrix entry by entry, is the row scale. -/

noncomputable section

namespace Cert.ReferenceIdeal.RowScale

open Idealize.ShloMosaic Idealize.ShloMosaic.ValueIdx
open Cert.ReferenceIdeal Cert.ReferenceIdeal.Facts₀ Cert.ReferenceIdeal.Facts

/-- At (r, d) the doubly broadcast operand reads the scale row at column d: the outer broadcast keeps the column and
    sends every row to the one row, the inner one keeps the column, and the flattening reads row 0. -/
theorem ref_eq (x : FVec Ideal S1000000x64 .f32) (s : FVec Ideal S1x64 .f32) :
    mulf x (broadcastInDim S1000000x64 ![0, 1] bcast_S1x64_S1000000x64_0_1 (broadcastInDim S1x64 ![1] bcast_S64_S1x64_1 (shapeCast _ s shapeCasts_S1x64_S64))) = Cert.Spec.rowScale x s := by
  funext i
  obtain ⟨r, d, rfl⟩ : ∃ (r : Fin 1000000) (d : Fin 64), i = ix2 r d := ⟨i 0, i 1, eq_ix2 i⟩
  rw [mulf_apply, Cert.Spec.rowScale_apply]
  congr 1
  refine (broadcastInDim_apply _ _ _ (ix2 r d) (ix2 (0 : Fin 1) d) (fun a => ?_)).trans ?_
  · match a with
    | ⟨0, _⟩ => rfl
    | ⟨1, _⟩ => rfl
  refine (broadcastInDim_apply _ _ _ (ix2 (0 : Fin 1) d) (ix1 d) (fun a => ?_)).trans ?_
  · match a with
    | ⟨0, _⟩ => rfl
  exact shapeCast_1a_a_apply s _ d

end Cert.ReferenceIdeal.RowScale

end
-- ==== Proof.SpecFusion.lean ====
/-
  Gated fusion of two feature tables, entry by entry.

  For tables `kg`, `iu` of 50000 rows by 64 columns and two 64 by 64 gate matrices `g1`, `g2`, the gate's argument
  at row `p`, column `q` is `z p q = (Σ k, kg (p, k) · g1 (k, q)) + (Σ k, iu (p, k) · g2 (k, q))`, the gate is
  `σ = logistic (z p q) = 1 / (1 + e^(-z p q))`, and the fused entry is the mixture `σ · kg (p, q) + (1 - σ) · iu (p, q)`,
  over the extended reals.
-/
import Idealize.ShloMosaic.Lib.ValueIdx
import Idealize.ShloMosaic.PureOps.Ideal
import Idealize.ShloMosaic.PureOps.Ideal.Laws

noncomputable section

namespace Cert.Spec

open Idealize.ShloMosaic Idealize.ShloMosaic.ValueIdx

/-- The gate's argument at row `p`, column `q`: the two matrix products' entries, added. -/
def gateArg (kg iu : FVec Ideal ⟨2, ![50000, 64]⟩ .f32) (g1 g2 : FVec Ideal ⟨2, ![64, 64]⟩ .f32)
    (p : Fin 50000) (q : Fin 64) : EReal :=
  (∑ k : Fin 64, kg (ix2 p k) * g1 (ix2 k q)) + ∑ k : Fin 64, iu (ix2 p k) * g2 (ix2 k q)

/-- The fused table: at each entry the logistic gate of the gate's argument mixes the two tables' entries. -/
def fusion (kg iu : FVec Ideal ⟨2, ![50000, 64]⟩ .f32) (g1 g2 : FVec Ideal ⟨2, ![64, 64]⟩ .f32) :
    FVec Ideal ⟨2, ![50000, 64]⟩ .f32 :=
  fun i => Ideal.logistic (gateArg kg iu g1 g2 (i 0) (i 1)) * kg i
    + (1 - Ideal.logistic (gateArg kg iu g1 g2 (i 0) (i 1))) * iu i

/-- The fused table at row `p`, column `q`. -/
theorem fusion_apply (kg iu : FVec Ideal ⟨2, ![50000, 64]⟩ .f32) (g1 g2 : FVec Ideal ⟨2, ![64, 64]⟩ .f32)
    (p : Fin 50000) (q : Fin 64) :
    fusion kg iu g1 g2 (ix2 p q)
      = Ideal.logistic (gateArg kg iu g1 g2 p q) * kg (ix2 p q)
        + (1 - Ideal.logistic (gateArg kg iu g1 g2 p q)) * iu (ix2 p q) := rfl

end Cert.Spec

end
-- ==== Proof.FusionK2.lean ====
/-
  The gated fusion region: the table it leaves.

  At each of its 5 points the region reads 10000 rows of the two feature tables and the two 64 by 64 gate matrices
  (rounded to half width, which changes nothing over the extended reals), forms the gate's argument as the sum of two
  matrix products into a zero accumulator, takes its logistic, and writes back the mixture of the two blocks. Entry by
  entry that is `Cert.Spec.fusion` of the whole tables: a block's row `p` at point `t` is the table's row
  `t · 10000 + p`, the gate matrices are read whole at every point, and the 5 blocks tile the 50000 rows.
-/
import proofs.«411258_j87239375716570_3_alg».proof.Proof.Gen.KernelIdeal.Frame
import proofs.«411258_j87239375716570_3_alg».proof.Proof.LibPlainDot
import proofs.«411258_j87239375716570_3_alg».proof.Proof.SpecFusion
import Idealize.ShloMosaic.Lib.Pipeline.Value
import Idealize.ShloMosaic.Lib.IdealHost

noncomputable section

namespace Cert.KernelIdeal.Fusion.R2

open Cert.KernelIdeal Cert.KernelIdeal.Gen Idealize.ShloMosaic Idealize.ShloMosaic.ValueIdx Idealize.ShloMosaic.TcCoe Idealize.SL.Sem
open Idealize.ShloMosaic.Pipeline (Dat)

/-! ## The block's value at an entry -/

/-- A block's matrix product into the zero accumulator, at entry `(p, q)`: `Σ k, a (p, k) · b (k, q)`. -/
theorem mm_apply (a : FVec Ideal S10000x64 .bf16) (b : FVec Ideal S64x64 .bf16) (p : Fin 10000) (q : Fin 64) :
    matmul dot_S10000x64_S64x64_S10000x64_1_0_0_1_n_n none a b (constant (F := Ideal) S10000x64 .f32 0x00000000#32) (ix2 p q)
      = ∑ k : Fin 64, a (ix2 p k) * b (ix2 k q) :=
  Cert.Lib.PlainDot.matmul_zero_apply none a b p q

/-- The logistic of a block, at an index. -/
theorem logistic_apply {s : Shape} {φ : FTy} (a : FVec Ideal s φ) (i : s.Idx) : logistic a i = Ideal.logistic (a i) := rfl

/-- What the body stores, at entry `(p, q)` of the block: with `z = Σ k, x0 (p, k) · x2 (k, q) + Σ k, x1 (p, k) · x3 (k, q)`
    and `σ = logistic z`, the mixture `σ · x0 (p, q) + (one - σ) · x1 (p, q)`, `one` the single-precision word of one. -/
theorem pay_apply (x0 x1 : FVec Ideal S10000x64 .f32) (x2 x3 : FVec Ideal S64x64 .bf16) (p : Fin 10000) (q : Fin 64) :
    Gen.k2_pay1 (F := Ideal) x0 x1 x2 x3 (ix2 p q)
      = Ideal.logistic ((∑ k : Fin 64, x0 (ix2 p k) * x2 (ix2 k q)) + ∑ k : Fin 64, x1 (ix2 p k) * x3 (ix2 k q)) * x0 (ix2 p q)
        + (Ideal.ofBits .f32 0x3F800000#32 - Ideal.logistic ((∑ k : Fin 64, x0 (ix2 p k) * x2 (ix2 k q)) + ∑ k : Fin 64, x1 (ix2 p k) * x3 (ix2 k q))) * x1 (ix2 p q) := by
  unfold Gen.k2_pay1
  simp only [shapeCast_self]
  rw [addf_apply, mulf_apply, mulf_apply, subf_apply, broadcast_apply]
  rw [logistic_apply, addf_apply, mm_apply, mm_apply]
  simp only [truncf_apply]
  rfl

/-! ## Where each window's block sits in its array -/

variable (V : (c : Dev nD) → (b : Ref sig .tc) → Buf (Elt Ideal) ((c : Thread nD τ).loc b))

theorem zero_off : (![0, 0] : Fin 2 → Nat) = fun _ => 0 := funext fun a => by fin_cases a <;> rfl

/-- The index maps over the 5 points: the two tables' windows and the output's are at block row `t`, column block 0;
    the gate matrices' windows are at block `(0, 0)`. -/
theorem idx_facts : ∀ t : Fin cfg2.N, win2_0.index t (0 : Fin 2) = win2_4.index t (0 : Fin 2)
    ∧ win2_0.index t (1 : Fin 2) = 0
    ∧ win2_1.index t (0 : Fin 2) = win2_4.index t (0 : Fin 2)
    ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The row of the whole table that row `p` of the block at point `t` is: `t · 10000 + p`. -/
def rowOf (t : Fin cfg2.N) (p : Fin 10000) : Fin 50000 :=
  ⟨t.val * 10000 + p.val, by have h5 : grid2.N = 5 := Gen.N_2; have ht : t.val < grid2.N := t.isLt; have hp := p.isLt; omega⟩

/-- Entry `(p, q)` of the output's block at point `t` is entry `(t · 10000 + p, q)` of the table. -/
theorem out_emb (t : Fin cfg2.N) (p : Fin 10000) (q : Fin 64) :
    ((cfg2.win 4).blk t).view.emb (ix2 p q) = ix2 (rowOf t p) q := by
  obtain ⟨e0, e1, e2, e3, e4, e5, e6, e7, e8, e9⟩ := idx_facts t
  funext a; apply Fin.ext
  match a with
  | ⟨0, _⟩ => show win2_4.index t (0 : Fin 2) * 10000 + 1 * p.val = t.val * 10000 + p.val; omega
  | ⟨1, _⟩ => show win2_4.index t (1 : Fin 2) * 64 + 1 * q.val = q.val; omega

/-- The same for the first table's block. -/
theorem in0_emb (t : Fin cfg2.N) (p : Fin 10000) (k : Fin 64) :
    ((cfg2.win 0).blk t).view.emb (ix2 p k) = ix2 (rowOf t p) k := by
  obtain ⟨e0, e1, e2, e3, e4, e5, e6, e7, e8, e9⟩ := idx_facts t
  funext a; apply Fin.ext
  match a with
  | ⟨0, _⟩ => show win2_0.index t (0 : Fin 2) * 10000 + 1 * p.val = t.val * 10000 + p.val; omega
  | ⟨1, _⟩ => show win2_0.index t (1 : Fin 2) * 64 + 1 * k.val = k.val; omega

/-- The same for the second table's block. -/
theorem in1_emb (t : Fin cfg2.N) (p : Fin 10000) (k : Fin 64) :
    ((cfg2.win 1).blk t).view.emb (ix2 p k) = ix2 (rowOf t p) k := by
  obtain ⟨e0, e1, e2, e3, e4, e5, e6, e7, e8, e9⟩ := idx_facts t
  funext a; apply Fin.ext
  match a with
  | ⟨0, _⟩ => show win2_1.index t (0 : Fin 2) * 10000 + 1 * p.val = t.val * 10000 + p.val; omega
  | ⟨1, _⟩ => show win2_1.index t (1 : Fin 2) * 64 + 1 * k.val = k.val; omega

/-- The first gate matrix's block is the whole matrix. -/
theorem in2_emb (t : Fin cfg2.N) (k : Fin 64) (q : Fin 64) :
    ((cfg2.win 2).blk t).view.emb (ix2 k q) = ix2 k q := by
  obtain ⟨e0, e1, e2, e3, e4, e5, e6, e7, e8, e9⟩ := idx_facts t
  funext a; apply Fin.ext
  match a with
  | ⟨0, _⟩ => show win2_2.index t (0 : Fin 2) * 64 + 1 * k.val = k.val; omega
  | ⟨1, _⟩ => show win2_2.index t (1 : Fin 2) * 64 + 1 * q.val = q.val; omega

/-- The second gate matrix's block is the whole matrix. -/
theorem in3_emb (t : Fin cfg2.N) (k : Fin 64) (q : Fin 64) :
    ((cfg2.win 3).blk t).view.emb (ix2 k q) = ix2 k q := by
  obtain ⟨e0, e1, e2, e3, e4, e5, e6, e7, e8, e9⟩ := idx_facts t
  funext a; apply Fin.ext
  match a with
  | ⟨0, _⟩ => show win2_3.index t (0 : Fin 2) * 64 + 1 * k.val = k.val; omega
  | ⟨1, _⟩ => show win2_3.index t (1 : Fin 2) * 64 + 1 * q.val = q.val; omega

/-- The first table's block at point `t`, at `(p, k)`: the table at `(t · 10000 + p, k)`. -/
theorem blk0 (c : Dev nD) (t : Fin cfg2.N) (p : Fin 10000) (k : Fin 64) :
    Gen.iblk2 (F := Ideal) V c 0 t (ix2 p k) = V c main_v25 (ix2 (rowOf t p) k) := by
  show V c main_v25 (((cfg2.win 0).blk t).view.emb (ix2 p k)) = _
  rw [in0_emb]

/-- The second table's block at point `t`, at `(p, k)`: the table at `(t · 10000 + p, k)`. -/
theorem blk1 (c : Dev nD) (t : Fin cfg2.N) (p : Fin 10000) (k : Fin 64) :
    Gen.iblk2 (F := Ideal) V c 1 t (ix2 p k) = V c main_v46 (ix2 (rowOf t p) k) := by
  show V c main_v46 (((cfg2.win 1).blk t).view.emb (ix2 p k)) = _
  rw [in1_emb]

/-- The first gate matrix's block, at `(k, q)`: the matrix at `(k, q)`. -/
theorem blk2 (c : Dev nD) (t : Fin cfg2.N) (k : Fin 64) (q : Fin 64) :
    Gen.iblk2 (F := Ideal) V c 2 t (ix2 k q) = V c main_v50 (ix2 k q) := by
  show V c main_v50 (((cfg2.win 2).blk t).view.emb (ix2 k q)) = _
  rw [in2_emb]

/-- The second gate matrix's block, at `(k, q)`: the matrix at `(k, q)`. -/
theorem blk3 (c : Dev nD) (t : Fin cfg2.N) (k : Fin 64) (q : Fin 64) :
    Gen.iblk2 (F := Ideal) V c 3 t (ix2 k q) = V c main_v54 (ix2 k q) := by
  show V c main_v54 (((cfg2.win 3).blk t).view.emb (ix2 k q)) = _
  rw [in3_emb]

/-! ## What a point writes back, and the table after the 5 points -/

/-- What point `t` writes back is block `t` of the fused table: the stored mixture at `(p, q)` is the fused table's
    entry at `(t · 10000 + p, q)`, the half-width gate matrices read as the matrices they round and the word of one as one. -/
theorem flushed_eq (c : Dev nD) (g1 g2 : FVec Ideal S64x64 .f32)
    (h50 : V c main_v50 = truncf .bf16 g1 bitsLt_bf16_f32) (h54 : V c main_v54 = truncf .bf16 g2 bitsLt_bf16_f32) (t : Fin cfg2.N) :
    (Gen.dat2 (F := Ideal) V c).flushed 4 t
      = ((cfg2.win 4).blk t).view.read (Elt Ideal) (Cert.Spec.fusion (V c main_v25) (V c main_v46) g1 g2) := by
  show (cfg2.win 4).cut (grid2.coords t) ((Gen.dat2 V c).after 4 t) = _
  rw [Gen.after2_4]
  unfold Gen.out2_4
  rw [View.canon_unit_zero zero_off]
  simp only [View.ld_unit_zero (S := S10000x64) zero_off, View.ld_unit_zero (S := S64x64) zero_off]
  funext j
  obtain ⟨p, q, rfl⟩ : ∃ (p : Fin 10000) (q : Fin 64), j = ix2 p q := ⟨j 0, j 1, eq_ix2 j⟩
  show Gen.k2_pay1 (F := Ideal) (Gen.iblk2 V c 0 t) (Gen.iblk2 V c 1 t) (Gen.iblk2 V c 2 t) (Gen.iblk2 V c 3 t) (ix2 p q)
    = Cert.Spec.fusion (V c main_v25) (V c main_v46) g1 g2 (((cfg2.win 4).blk t).view.emb (ix2 p q))
  rw [pay_apply, out_emb, Cert.Spec.fusion_apply]
  unfold Cert.Spec.gateArg
  simp only [blk0, blk1, blk2, blk3]
  rw [h50, h54]
  simp only [truncf_apply, Ideal.ofBits_one_f32]

/-- An entry of the table is in point `t`'s block iff each coordinate is in the block's range on its axis. -/
theorem mem_blk (t : Fin cfg2.N) (i : S50000x64.Idx) :
    i ∈ ((cfg2.win 4).blk t).view.set ↔ ∀ a : Fin 2, win2_4.index t a * S10000x64.size a ≤ (i a).val ∧ (i a).val < win2_4.index t a * S10000x64.size a + S10000x64.size a := by
  show i ∈ ((View.whole main_v55).slice (win2_4.rect t)).set ↔ _
  rw [View.set_slice_whole, Rect.mem_set_unit]
  exact Iff.rfl

/-- Every entry of the table is in some point's block: row `r` in the block of point `r / 10000`. -/
theorem cover (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  have h5 : grid2.N = 5 := Gen.N_2
  obtain ⟨t, ht⟩ : ∃ t : Fin cfg2.N, t.val = (i 0).val / 10000 :=
    ⟨⟨(i 0).val / 10000, by show (i 0).val / 10000 < grid2.N; omega⟩, rfl⟩
  obtain ⟨e0, e1, e2, e3, e4, e5, e6, e7, e8, e9⟩ := idx_facts t
  refine ⟨t, Gen.flush2_4 t, ?_⟩
  rw [mem_blk]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 64 ≤ (i 1).val ∧ (i 1).val < win2_4.index t (1 : Fin 2) * 64 + 64; omega

end Cert.KernelIdeal.Fusion.R2

namespace Cert.KernelIdeal.Fusion

open Cert.KernelIdeal Cert.KernelIdeal.Gen Idealize.ShloMosaic Idealize.ShloMosaic.ValueIdx Idealize.ShloMosaic.TcCoe Idealize.SL.Sem

/-- The table the region leaves is the gated fusion of the two tables it finds, with the gate matrices whose
    roundings to half width it finds. -/
theorem final2 (V : (c : Dev nD) → (b : Ref sig .tc) → Buf (Elt Ideal) ((c : Thread nD τ).loc b)) (c : Dev nD)
    (g1 g2 : FVec Ideal S64x64 .f32)
    (h50 : V c main_v50 = truncf .bf16 g1 bitsLt_bf16_f32) (h54 : V c main_v54 = truncf .bf16 g2 bitsLt_bf16_f32) :
    (Gen.dat2 (F := Ideal) V c).arrAt 4 cfg2.N = Cert.Spec.fusion (V c main_v25) (V c main_v46) g1 g2 :=
  (Gen.dat2 (F := Ideal) V c).arrAt_eq_of_cover 4 (Cert.Spec.fusion (V c main_v25) (V c main_v46) g1 g2)
    (fun t _ => R2.flushed_eq V c g1 g2 h50 h54 t) (fun i => R2.cover i)

end Cert.KernelIdeal.Fusion

end
-- ==== Proof.FusionK7.lean ====
/-
  The gated fusion region: the table it leaves.

  At each of its 5 points the region reads 10000 rows of the two feature tables and the two 64 by 64 gate matrices
  (rounded to half width, which changes nothing over the extended reals), forms the gate's argument as the sum of two
  matrix products into a zero accumulator, takes its logistic, and writes back the mixture of the two blocks. Entry by
  entry that is `Cert.Spec.fusion` of the whole tables: a block's row `p` at point `t` is the table's row
  `t · 10000 + p`, the gate matrices are read whole at every point, and the 5 blocks tile the 50000 rows.
-/
import proofs.«411258_j87239375716570_3_alg».proof.Proof.Gen.KernelIdeal.Frame
import proofs.«411258_j87239375716570_3_alg».proof.Proof.LibPlainDot
import proofs.«411258_j87239375716570_3_alg».proof.Proof.SpecFusion
import Idealize.ShloMosaic.Lib.Pipeline.Value
import Idealize.ShloMosaic.Lib.IdealHost

noncomputable section

namespace Cert.KernelIdeal.Fusion.R7

open Cert.KernelIdeal Cert.KernelIdeal.Gen Idealize.ShloMosaic Idealize.ShloMosaic.ValueIdx Idealize.ShloMosaic.TcCoe Idealize.SL.Sem
open Idealize.ShloMosaic.Pipeline (Dat)

/-! ## The block's value at an entry -/

/-- A block's matrix product into the zero accumulator, at entry `(p, q)`: `Σ k, a (p, k) · b (k, q)`. -/
theorem mm_apply (a : FVec Ideal S10000x64 .bf16) (b : FVec Ideal S64x64 .bf16) (p : Fin 10000) (q : Fin 64) :
    matmul dot_S10000x64_S64x64_S10000x64_1_0_0_1_n_n none a b (constant (F := Ideal) S10000x64 .f32 0x00000000#32) (ix2 p q)
      = ∑ k : Fin 64, a (ix2 p k) * b (ix2 k q) :=
  Cert.Lib.PlainDot.matmul_zero_apply none a b p q

/-- The logistic of a block, at an index. -/
theorem logistic_apply {s : Shape} {φ : FTy} (a : FVec Ideal s φ) (i : s.Idx) : logistic a i = Ideal.logistic (a i) := rfl

/-- What the body stores, at entry `(p, q)` of the block: with `z = Σ k, x0 (p, k) · x2 (k, q) + Σ k, x1 (p, k) · x3 (k, q)`
    and `σ = logistic z`, the mixture `σ · x0 (p, q) + (one - σ) · x1 (p, q)`, `one` the single-precision word of one. -/
theorem pay_apply (x0 x1 : FVec Ideal S10000x64 .f32) (x2 x3 : FVec Ideal S64x64 .bf16) (p : Fin 10000) (q : Fin 64) :
    Gen.k7_pay1 (F := Ideal) x0 x1 x2 x3 (ix2 p q)
      = Ideal.logistic ((∑ k : Fin 64, x0 (ix2 p k) * x2 (ix2 k q)) + ∑ k : Fin 64, x1 (ix2 p k) * x3 (ix2 k q)) * x0 (ix2 p q)
        + (Ideal.ofBits .f32 0x3F800000#32 - Ideal.logistic ((∑ k : Fin 64, x0 (ix2 p k) * x2 (ix2 k q)) + ∑ k : Fin 64, x1 (ix2 p k) * x3 (ix2 k q))) * x1 (ix2 p q) := by
  unfold Gen.k7_pay1
  simp only [shapeCast_self]
  rw [addf_apply, mulf_apply, mulf_apply, subf_apply, broadcast_apply]
  rw [logistic_apply, addf_apply, mm_apply, mm_apply]
  simp only [truncf_apply]
  rfl

/-! ## Where each window's block sits in its array -/

variable (V : (c : Dev nD) → (b : Ref sig .tc) → Buf (Elt Ideal) ((c : Thread nD τ).loc b))

theorem zero_off : (![0, 0] : Fin 2 → Nat) = fun _ => 0 := funext fun a => by fin_cases a <;> rfl

/-- The index maps over the 5 points: the two tables' windows and the output's are at block row `t`, column block 0;
    the gate matrices' windows are at block `(0, 0)`. -/
theorem idx_facts : ∀ t : Fin cfg7.N, win7_0.index t (0 : Fin 2) = win7_4.index t (0 : Fin 2)
    ∧ win7_0.index t (1 : Fin 2) = 0
    ∧ win7_1.index t (0 : Fin 2) = win7_4.index t (0 : Fin 2)
    ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- The row of the whole table that row `p` of the block at point `t` is: `t · 10000 + p`. -/
def rowOf (t : Fin cfg7.N) (p : Fin 10000) : Fin 50000 :=
  ⟨t.val * 10000 + p.val, by have h5 : grid7.N = 5 := Gen.N_7; have ht : t.val < grid7.N := t.isLt; have hp := p.isLt; omega⟩

/-- Entry `(p, q)` of the output's block at point `t` is entry `(t · 10000 + p, q)` of the table. -/
theorem out_emb (t : Fin cfg7.N) (p : Fin 10000) (q : Fin 64) :
    ((cfg7.win 4).blk t).view.emb (ix2 p q) = ix2 (rowOf t p) q := by
  obtain ⟨e0, e1, e2, e3, e4, e5, e6, e7, e8, e9⟩ := idx_facts t
  funext a; apply Fin.ext
  match a with
  | ⟨0, _⟩ => show win7_4.index t (0 : Fin 2) * 10000 + 1 * p.val = t.val * 10000 + p.val; omega
  | ⟨1, _⟩ => show win7_4.index t (1 : Fin 2) * 64 + 1 * q.val = q.val; omega

/-- The same for the first table's block. -/
theorem in0_emb (t : Fin cfg7.N) (p : Fin 10000) (k : Fin 64) :
    ((cfg7.win 0).blk t).view.emb (ix2 p k) = ix2 (rowOf t p) k := by
  obtain ⟨e0, e1, e2, e3, e4, e5, e6, e7, e8, e9⟩ := idx_facts t
  funext a; apply Fin.ext
  match a with
  | ⟨0, _⟩ => show win7_0.index t (0 : Fin 2) * 10000 + 1 * p.val = t.val * 10000 + p.val; omega
  | ⟨1, _⟩ => show win7_0.index t (1 : Fin 2) * 64 + 1 * k.val = k.val; omega

/-- The same for the second table's block. -/
theorem in1_emb (t : Fin cfg7.N) (p : Fin 10000) (k : Fin 64) :
    ((cfg7.win 1).blk t).view.emb (ix2 p k) = ix2 (rowOf t p) k := by
  obtain ⟨e0, e1, e2, e3, e4, e5, e6, e7, e8, e9⟩ := idx_facts t
  funext a; apply Fin.ext
  match a with
  | ⟨0, _⟩ => show win7_1.index t (0 : Fin 2) * 10000 + 1 * p.val = t.val * 10000 + p.val; omega
  | ⟨1, _⟩ => show win7_1.index t (1 : Fin 2) * 64 + 1 * k.val = k.val; omega

/-- The first gate matrix's block is the whole matrix. -/
theorem in2_emb (t : Fin cfg7.N) (k : Fin 64) (q : Fin 64) :
    ((cfg7.win 2).blk t).view.emb (ix2 k q) = ix2 k q := by
  obtain ⟨e0, e1, e2, e3, e4, e5, e6, e7, e8, e9⟩ := idx_facts t
  funext a; apply Fin.ext
  match a with
  | ⟨0, _⟩ => show win7_2.index t (0 : Fin 2) * 64 + 1 * k.val = k.val; omega
  | ⟨1, _⟩ => show win7_2.index t (1 : Fin 2) * 64 + 1 * q.val = q.val; omega

/-- The second gate matrix's block is the whole matrix. -/
theorem in3_emb (t : Fin cfg7.N) (k : Fin 64) (q : Fin 64) :
    ((cfg7.win 3).blk t).view.emb (ix2 k q) = ix2 k q := by
  obtain ⟨e0, e1, e2, e3, e4, e5, e6, e7, e8, e9⟩ := idx_facts t
  funext a; apply Fin.ext
  match a with
  | ⟨0, _⟩ => show win7_3.index t (0 : Fin 2) * 64 + 1 * k.val = k.val; omega
  | ⟨1, _⟩ => show win7_3.index t (1 : Fin 2) * 64 + 1 * q.val = q.val; omega

/-- The first table's block at point `t`, at `(p, k)`: the table at `(t · 10000 + p, k)`. -/
theorem blk0 (c : Dev nD) (t : Fin cfg7.N) (p : Fin 10000) (k : Fin 64) :
    Gen.iblk7 (F := Ideal) V c 0 t (ix2 p k) = V c main_v89 (ix2 (rowOf t p) k) := by
  show V c main_v89 (((cfg7.win 0).blk t).view.emb (ix2 p k)) = _
  rw [in0_emb]

/-- The second table's block at point `t`, at `(p, k)`: the table at `(t · 10000 + p, k)`. -/
theorem blk1 (c : Dev nD) (t : Fin cfg7.N) (p : Fin 10000) (k : Fin 64) :
    Gen.iblk7 (F := Ideal) V c 1 t (ix2 p k) = V c main_v110 (ix2 (rowOf t p) k) := by
  show V c main_v110 (((cfg7.win 1).blk t).view.emb (ix2 p k)) = _
  rw [in1_emb]

/-- The first gate matrix's block, at `(k, q)`: the matrix at `(k, q)`. -/
theorem blk2 (c : Dev nD) (t : Fin cfg7.N) (k : Fin 64) (q : Fin 64) :
    Gen.iblk7 (F := Ideal) V c 2 t (ix2 k q) = V c main_v114 (ix2 k q) := by
  show V c main_v114 (((cfg7.win 2).blk t).view.emb (ix2 k q)) = _
  rw [in2_emb]

/-- The second gate matrix's block, at `(k, q)`: the matrix at `(k, q)`. -/
theorem blk3 (c : Dev nD) (t : Fin cfg7.N) (k : Fin 64) (q : Fin 64) :
    Gen.iblk7 (F := Ideal) V c 3 t (ix2 k q) = V c main_v118 (ix2 k q) := by
  show V c main_v118 (((cfg7.win 3).blk t).view.emb (ix2 k q)) = _
  rw [in3_emb]

/-! ## What a point writes back, and the table after the 5 points -/

/-- What point `t` writes back is block `t` of the fused table: the stored mixture at `(p, q)` is the fused table's
    entry at `(t · 10000 + p, q)`, the half-width gate matrices read as the matrices they round and the word of one as one. -/
theorem flushed_eq (c : Dev nD) (g1 g2 : FVec Ideal S64x64 .f32)
    (h114 : V c main_v114 = truncf .bf16 g1 bitsLt_bf16_f32) (h118 : V c main_v118 = truncf .bf16 g2 bitsLt_bf16_f32) (t : Fin cfg7.N) :
    (Gen.dat7 (F := Ideal) V c).flushed 4 t
      = ((cfg7.win 4).blk t).view.read (Elt Ideal) (Cert.Spec.fusion (V c main_v89) (V c main_v110) g1 g2) := by
  show (cfg7.win 4).cut (grid7.coords t) ((Gen.dat7 V c).after 4 t) = _
  rw [Gen.after7_4]
  unfold Gen.out7_4
  rw [View.canon_unit_zero zero_off]
  simp only [View.ld_unit_zero (S := S10000x64) zero_off, View.ld_unit_zero (S := S64x64) zero_off]
  funext j
  obtain ⟨p, q, rfl⟩ : ∃ (p : Fin 10000) (q : Fin 64), j = ix2 p q := ⟨j 0, j 1, eq_ix2 j⟩
  show Gen.k7_pay1 (F := Ideal) (Gen.iblk7 V c 0 t) (Gen.iblk7 V c 1 t) (Gen.iblk7 V c 2 t) (Gen.iblk7 V c 3 t) (ix2 p q)
    = Cert.Spec.fusion (V c main_v89) (V c main_v110) g1 g2 (((cfg7.win 4).blk t).view.emb (ix2 p q))
  rw [pay_apply, out_emb, Cert.Spec.fusion_apply]
  unfold Cert.Spec.gateArg
  simp only [blk0, blk1, blk2, blk3]
  rw [h114, h118]
  simp only [truncf_apply, Ideal.ofBits_one_f32]

/-- An entry of the table is in point `t`'s block iff each coordinate is in the block's range on its axis. -/
theorem mem_blk (t : Fin cfg7.N) (i : S50000x64.Idx) :
    i ∈ ((cfg7.win 4).blk t).view.set ↔ ∀ a : Fin 2, win7_4.index t a * S10000x64.size a ≤ (i a).val ∧ (i a).val < win7_4.index t a * S10000x64.size a + S10000x64.size a := by
  show i ∈ ((View.whole main_v119).slice (win7_4.rect t)).set ↔ _
  rw [View.set_slice_whole, Rect.mem_set_unit]
  exact Iff.rfl

/-- Every entry of the table is in some point's block: row `r` in the block of point `r / 10000`. -/
theorem cover (i : S50000x64.Idx) :
    ∃ t : Fin cfg7.N, (cfg7.win 4).flush t = true ∧ i ∈ ((cfg7.win 4).blk t).view.set := by
  have hi0 : (i 0).val < 50000 := (i 0).isLt
  have hi1 : (i 1).val < 64 := (i 1).isLt
  have h5 : grid7.N = 5 := Gen.N_7
  obtain ⟨t, ht⟩ : ∃ t : Fin cfg7.N, t.val = (i 0).val / 10000 :=
    ⟨⟨(i 0).val / 10000, by show (i 0).val / 10000 < grid7.N; omega⟩, rfl⟩
  obtain ⟨e0, e1, e2, e3, e4, e5, e6, e7, e8, e9⟩ := idx_facts t
  refine ⟨t, Gen.flush7_4 t, ?_⟩
  rw [mem_blk]
  intro a
  match a with
  | ⟨0, _⟩ => show win7_4.index t (0 : Fin 2) * 10000 ≤ (i 0).val ∧ (i 0).val < win7_4.index t (0 : Fin 2) * 10000 + 10000; omega
  | ⟨1, _⟩ => show win7_4.index t (1 : Fin 2) * 64 ≤ (i 1).val ∧ (i 1).val < win7_4.index t (1 : Fin 2) * 64 + 64; omega

end Cert.KernelIdeal.Fusion.R7

namespace Cert.KernelIdeal.Fusion

open Cert.KernelIdeal Cert.KernelIdeal.Gen Idealize.ShloMosaic Idealize.ShloMosaic.ValueIdx Idealize.ShloMosaic.TcCoe Idealize.SL.Sem

/-- The table the region leaves is the gated fusion of the two tables it finds, with the gate matrices whose
    roundings to half width it finds. -/
theorem final7 (V : (c : Dev nD) → (b : Ref sig .tc) → Buf (Elt Ideal) ((c : Thread nD τ).loc b)) (c : Dev nD)
    (g1 g2 : FVec Ideal S64x64 .f32)
    (h114 : V c main_v114 = truncf .bf16 g1 bitsLt_bf16_f32) (h118 : V c main_v118 = truncf .bf16 g2 bitsLt_bf16_f32) :
    (Gen.dat7 (F := Ideal) V c).arrAt 4 cfg7.N = Cert.Spec.fusion (V c main_v89) (V c main_v110) g1 g2 :=
  (Gen.dat7 (F := Ideal) V c).arrAt_eq_of_cover 4 (Cert.Spec.fusion (V c main_v89) (V c main_v110) g1 g2)
    (fun t _ => R7.flushed_eq V c g1 g2 h114 h118 t) (fun i => R7.cover i)

end Cert.KernelIdeal.Fusion

end
-- ==== Proof.FusionRef.lean ====
/-
  The reference's gated fusion is the specification's.

  The reference forms the gate's argument as the sum of two host matrix products, its gate as
  `one / (one + e^(-z))` with `one` the single-precision word of one broadcast to the table's shape, and the result as
  `σ · kg + (one - σ) · iu`. Over the extended reals the word of one is the number one, the quotient is the logistic's own
  definition, and each product's entry `(p, q)` is `Σ k, lhs (p, k) · rhs (k, q)`: entry by entry the specification.
-/
import proofs.«411258_j87239375716570_3_alg».proof.Proof.Gen.ReferenceIdeal
import proofs.«411258_j87239375716570_3_alg».proof.Proof.LibPlainDot
import proofs.«411258_j87239375716570_3_alg».proof.Proof.SpecFusion
import Idealize.ShloMosaic.Lib.IdealHost

noncomputable section

namespace Cert.ReferenceIdeal.Fusion

open Cert.ReferenceIdeal Cert.ReferenceIdeal.Facts₀ Cert.ReferenceIdeal.Facts
open Idealize.ShloMosaic Idealize.ShloMosaic.ValueIdx

/-- The host's matrix product of a table with a gate matrix, at entry `(p, q)`: `Σ k, a (p, k) · b (k, q)`. -/
theorem dot_apply (a : FVec Ideal S50000x64 .f32) (b : FVec Ideal S64x64 .f32) (p : Fin 50000) (q : Fin 64) :
    Host.dotGeneral dot_S50000x64_S64x64_S50000x64_1_0_0_1_n_n none a b (ix2 p q)
      = ∑ k : Fin 64, a (ix2 p k) * b (ix2 k q) :=
  Cert.Lib.PlainDot.dotGeneral_apply none .single a b p q

/-- The host's exponential at an index. -/
theorem hostExp_apply {s : Shape} {φ : FTy} (a : FVec Ideal s φ) (i : s.Idx) : Host.exp a i = Ideal.exp (a i) := rfl

/-- The host's negation at an index. -/
theorem hostNegf_apply {s : Shape} {φ : FTy} (a : FVec Ideal s φ) (i : s.Idx) : Host.negf a i = -(a i) := rfl

/-- The single-precision word of one, broadcast to the table's shape, is the number one at every entry. -/
theorem one_apply (j : S50000x64.Idx) :
    broadcastInDim S50000x64 ![] bcast_S_S50000x64 (constant (F := Ideal) S_ .f32 0x3F800000#32) j = 1 :=
  (broadcastInDim_scalar_apply bcast_S_S50000x64 (constant (F := Ideal) S_ .f32 0x3F800000#32) j).trans
    ((constant_apply _ _).trans Ideal.ofBits_one_f32)

/-- The reference's gated fusion of two tables with two gate matrices is the specification's. -/
theorem ref_eq (kg iu : FVec Ideal S50000x64 .f32) (g1 g2 : FVec Ideal S64x64 .f32) :
    addf (mulf (Host.divf (broadcastInDim S50000x64 ![] bcast_S_S50000x64 (constant (F := Ideal) S_ .f32 0x3F800000#32)) (addf (broadcastInDim S50000x64 ![] bcast_S_S50000x64 (constant (F := Ideal) S_ .f32 0x3F800000#32)) (Host.exp (Host.negf (addf (Host.dotGeneral dot_S50000x64_S64x64_S50000x64_1_0_0_1_n_n none kg g1) (Host.dotGeneral dot_S50000x64_S64x64_S50000x64_1_0_0_1_n_n none iu g2)))))) kg)
         (mulf (subf (broadcastInDim S50000x64 ![] bcast_S_S50000x64 (constant (F := Ideal) S_ .f32 0x3F800000#32)) (Host.divf (broadcastInDim S50000x64 ![] bcast_S_S50000x64 (constant (F := Ideal) S_ .f32 0x3F800000#32)) (addf (broadcastInDim S50000x64 ![] bcast_S_S50000x64 (constant (F := Ideal) S_ .f32 0x3F800000#32)) (Host.exp (Host.negf (addf (Host.dotGeneral dot_S50000x64_S64x64_S50000x64_1_0_0_1_n_n none kg g1) (Host.dotGeneral dot_S50000x64_S64x64_S50000x64_1_0_0_1_n_n none iu g2))))))) iu)
      = Cert.Spec.fusion kg iu g1 g2 := by
  funext i
  obtain ⟨p, q, rfl⟩ : ∃ (p : Fin 50000) (q : Fin 64), i = ix2 p q := ⟨i 0, i 1, eq_ix2 i⟩
  rw [Cert.Spec.fusion_apply]
  unfold Cert.Spec.gateArg
  simp only [addf_apply, mulf_apply, subf_apply, hostDivf_apply, hostExp_apply, hostNegf_apply, dot_apply]
  rw [one_apply (ix2 p q)]
  rfl

end Cert.ReferenceIdeal.Fusion

end
-- ==== Proof.SpecNorm.lean ====
/- The row normalisation of an embedding table: each row divided by the larger of its Euclidean norm and a floor,
   as ONE function of the table, index by index; the two sides' arrangements of it (a tile's chain of vector
   operations, the whole array's chain of tensor operations) read at an index. -/
import Idealize.ShloMosaic.Lib.ValueIdx
import Idealize.ShloMosaic.Lib.Pipeline.Value
import Idealize.ShloMosaic.PureOps.Ideal
import Idealize.ShloMosaic.PureOps.Ideal.Laws

noncomputable section

open Idealize.ShloMosaic Idealize.ShloMosaic.ValueIdx
open scoped BigOperators

namespace Cert.Spec

/-- Each row of an `n × 64` matrix divided by `max (√ Σ_k x[r,k]²) ε`, `ε` the value of the word `0x2B8CBCCC`. -/
def normRows {n : Nat} (x : FVec Ideal ⟨2, ![n, 64]⟩ .f32) : FVec Ideal ⟨2, ![n, 64]⟩ .f32 :=
  fun i => Ideal.div (x i)
    (max (Ideal.sqrt (∑ k : Fin 64, x (ix2 (n0 := n) (i 0) k) * x (ix2 (n0 := n) (i 0) k)))
      (Ideal.ofBits .f32 0x2B8CBCCC#32))

/-- The entity table (200000 rows) normalised row by row. -/
def normE (x : FVec Ideal ⟨2, ![200000, 64]⟩ .f32) : FVec Ideal ⟨2, ![200000, 64]⟩ .f32 := normRows x

/-- The user table (100000 rows) normalised row by row. -/
def normU (x : FVec Ideal ⟨2, ![100000, 64]⟩ .f32) : FVec Ideal ⟨2, ![100000, 64]⟩ .f32 := normRows x

/-- `normRows` at `(p, q)`: the row sum runs over row `p`. -/
theorem normRows_ix2 {n : Nat} (x : FVec Ideal ⟨2, ![n, 64]⟩ .f32) (p : Fin n) (q : Fin 64) :
    normRows x (ix2 p q) = Ideal.div (x (ix2 p q))
      (max (Ideal.sqrt (∑ k : Fin 64, x (ix2 p k) * x (ix2 p k))) (Ideal.ofBits .f32 0x2B8CBCCC#32)) := rfl

/-! ## The keepdims layout steps read at an index -/

section Layout
variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` sent to a column `[a, 1]` by `broadcast_in_dim` along axis 0 reads, at `(p, u)`, the operand at `p`. -/
theorem broadcastInDim_a_a1_apply {a : ℕ} (dims : Fin 1 → Fin 2) (hd : dims 0 = 0)
    (h : (⟨1, ![a]⟩ : Shape).BroadcastsInDim ⟨2, ![a, 1]⟩ dims) (x : (⟨1, ![a]⟩ : Shape).Idx → α) (p : Fin a) (u : Fin 1) :
    broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else ((ix2 p u) (dims 0)).val
    rw [hd]
    split
    · have := p.isLt; omega
    · rfl

/-- A column `[a, 1]` sent to `[a, b]` by `broadcast_in_dim` along axes (0, 1) reads, at `(p, c)`, the column at row `p`. -/
theorem broadcastInDim_a1_ab_apply {a b : ℕ} (dims : Fin 2 → Fin 2) (hd0 : dims 0 = 0) (hd1 : dims 1 = 1)
    (h : (⟨2, ![a, 1]⟩ : Shape).BroadcastsInDim ⟨2, ![a, b]⟩ dims) (x : (⟨2, ![a, 1]⟩ : Shape).Idx → α) (p : Fin a) (c : Fin b) :
    broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else ((ix2 p c) (dims 0)).val
    rw [hd0]
    split
    · have := p.isLt; omega
    · rfl
  | ⟨1, _⟩ => rfl

end Layout

/-- Over a row index `p`, the source index a reduction over the columns inserts coordinate `k` at is `(p, k)`. -/
theorem lift_cols {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-! ## The tile's chain of vector operations is the row normalisation of the tile -/

/-- The kernel body's value chain on an `a × 64` tile — identity cast, squares, the sum over the columns into a vector, the
    keepdims column, square root, the floor, the column broadcast back over the columns, the quotient — is `normRows` of
    the tile: at `(p, q)` every layout step reads row `p`, and the reduction is the `Fin 64` sum of row `p`'s squares. -/
theorem normRows_of_tile {a : Nat} (x : FVec Ideal ⟨2, ![a, 64]⟩ .f32)
    (hc : (⟨2, ![a, 64]⟩ : Shape).ShapeCasts ⟨2, ![a, 64]⟩)
    (hr : (⟨2, ![a, 64]⟩ : Shape).Reduces [1] ⟨1, ![a]⟩) (hφ : FKind.Formats .f32)
    (hacc : (0x00000000#32 : BitVec 32) = FKind.add.neutral .f32 hφ)
    (hk : (⟨1, ![a]⟩ : Shape).ShapeCasts ⟨2, ![a, 1]⟩)
    (hb : (⟨2, ![a, 1]⟩ : Shape).Broadcasts ⟨2, ![a, 64]⟩) :
    divf (shapeCast ⟨2, ![a, 64]⟩ x hc)
        (broadcastTo ⟨2, ![a, 64]⟩
          (maximumf
            (sqrt (shapeCast ⟨2, ![a, 1]⟩
              (multiReduction (F := Ideal) .add [1] ⟨1, ![a]⟩ (mulf (shapeCast ⟨2, ![a, 64]⟩ x hc) (shapeCast ⟨2, ![a, 64]⟩ x hc))
                0x00000000#32 hr hφ hacc) hk))
            (broadcast ⟨2, ![a, 1]⟩ (Scalar.ofBits (F := Ideal) .f32 0x2B8CBCCC#32))) hb)
      = normRows x := by
  rw [shapeCast_self]
  funext j
  obtain ⟨p, q, rfl⟩ : ∃ (p : Fin a) (q : Fin 64), j = ix2 p q := ⟨j 0, j 1, eq_ix2 j⟩
  rw [normRows_ix2, divf_apply, broadcastTo_a1_ab_apply, maximumf_apply, broadcast_apply]
  show Ideal.div (x (ix2 p q)) (max (Ideal.sqrt (shapeCast ⟨2, ![a, 1]⟩ _ hk (ix2 p (0 : Fin 1)))) _) = _
  rw [shapeCast_a_a1_apply]
  refine congrArg (fun s => Ideal.div (x (ix2 p q)) (max (Ideal.sqrt s) (Ideal.ofBits .f32 0x2B8CBCCC#32))) ?_
  refine (Ideal.multiReduction_add_single (mulf x x) 0x00000000#32 hr hφ hacc (ix1 p)).trans ?_
  refine Finset.sum_congr rfl fun k _ => ?_
  rw [lift_cols hr p k, mulf_apply]

/-! ## The whole array's chain of tensor operations is the row normalisation of the array -/

/-- The reference's chain on an `a × 64` array — squares, the host's sum over the columns from the zero word, the keepdims
    column, square root, the floor column, the column sent back over the columns, the host's quotient — is `normRows`. -/
theorem normRows_of_host {a : Nat} (x : FVec Ideal ⟨2, ![a, 64]⟩ .f32)
    (d2 : Fin 2 → Fin 2) (hd0 : d2 0 = 0) (hd1 : d2 1 = 1) (d1 : Fin 1 → Fin 2) (hd : d1 0 = 0) (d0 : Fin 0 → Fin 2)
    (hb2 : (⟨2, ![a, 1]⟩ : Shape).BroadcastsInDim ⟨2, ![a, 64]⟩ d2)
    (hb1 : (⟨1, ![a]⟩ : Shape).BroadcastsInDim ⟨2, ![a, 1]⟩ d1)
    (hb0 : (⟨0, ![]⟩ : Shape).BroadcastsInDim ⟨2, ![a, 1]⟩ d0)
    (hr : (⟨2, ![a, 64]⟩ : Shape).ReducesTo [1] ⟨1, ![a]⟩) (hu : 0 < (⟨0, ![]⟩ : Shape).numel) :
    Host.divf x (broadcastInDim ⟨2, ![a, 64]⟩ d2 hb2
        (maximumf
          (Host.sqrt (broadcastInDim ⟨2, ![a, 1]⟩ d1 hb1
            (Host.reduceAdd (F := Ideal) (mulf x x) (constant (F := Ideal) ⟨0, ![]⟩ .f32 0x00000000#32) hr hu)))
          (broadcastInDim ⟨2, ![a, 1]⟩ d0 hb0 (constant (F := Ideal) ⟨0, ![]⟩ .f32 0x2B8CBCCC#32))))
      = normRows x := by
  have hr' : (⟨2, ![a, 64]⟩ : Shape).Reduces [1] ⟨1, ![a]⟩ := ⟨hr.1, Nat.one_pos, hr.2⟩
  funext j
  obtain ⟨p, q, rfl⟩ : ∃ (p : Fin a) (q : Fin 64), j = ix2 p q := ⟨j 0, j 1, eq_ix2 j⟩
  rw [normRows_ix2]
  show Ideal.div (x (ix2 p q)) _ = _
  rw [broadcastInDim_a1_ab_apply d2 hd0 hd1 hb2, maximumf_apply]
  show Ideal.div (x (ix2 p q)) (max (Ideal.sqrt (broadcastInDim (s := ⟨1, ![a]⟩) ⟨2, ![a, 1]⟩ d1 hb1 _ (ix2 p (0 : Fin 1)))) (Ideal.ofBits .f32 0x2B8CBCCC#32)) = _
  rw [broadcastInDim_a_a1_apply d1 hd hb1]
  refine congrArg (fun s => Ideal.div (x (ix2 p q)) (max (Ideal.sqrt s) (Ideal.ofBits .f32 0x2B8CBCCC#32))) ?_
  show Ideal.hostReduceAdd hr (mulf x x) (Ideal.ofBits .f32 0x00000000#32) (ix1 p) = _
  rw [Ideal.hostReduceAdd_single hr hr', Ideal.ofBits_zero_f32, zero_add]
  refine Finset.sum_congr rfl fun k _ => ?_
  rw [lift_cols hr' p k, mulf_apply]

end Cert.Spec

end
-- ==== Proof.NormK3.lean ====
/- Region 3 (the entity table, first hop): the two arrays the row-normalisation kernel leaves. Every grid point `t` reads
   rows [5000 t, 5000 t + 5000) of the table and of the running residual, all 64 columns, and writes the same rows of the
   normalised table and of the new residual; a row's sum of squares lies inside one block, so the block of the normalised
   table is the normalisation of the block, and the blocks tile the array. -/
import proofs.«411258_j87239375716570_3_alg».proof.Proof.Gen.KernelIdeal.Frame
import proofs.«411258_j87239375716570_3_alg».proof.Proof.SpecNorm

set_option maxRecDepth 16384

noncomputable section

namespace Cert.KernelIdeal.Norm

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's accesses start at offset zero on both axes. -/
theorem zeros3 : (![0, 0] : Fin 2 → Nat) = fun _ => 0 := funext fun a => by fin_cases a <;> rfl

/-! ## The payloads -/

/-- The first store's payload is the row normalisation of the loaded tile. -/
theorem tile3_norm (x0 : FVec Ideal S5000x64 .f32) : k3_pay1 (F := Ideal) x0 = Cert.Spec.normRows x0 :=
  Cert.Spec.normRows_of_tile x0 _ _ _ _ _ _

/-- The second store's payload adds it to the loaded residual tile (an identity shape cast, where there is one, dropped). -/
theorem tile3_resid (x0 x1 : FVec Ideal S5000x64 .f32) : k3_pay2 (F := Ideal) x0 x1 = addf x1 (Cert.Spec.normRows x0) := by
  unfold k3_pay2
  simp only [shapeCast_self, tile3_norm]

/-! ## Where a block sits in its array -/

/-- Every window's block index at point `t` is `(t, 0)`: the blocks move down the rows with the point and span the columns. -/
theorem blockIndex3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Row `p` of block `t`, as a row of the array. -/
def row3 (t : Fin cfg3.N) (p : Fin 5000) : Fin 200000 :=
  ⟨t.val * 5000 + p.val, by have ht : t.val < 40 := Nat.lt_of_lt_of_eq t.isLt N_3; have := p.isLt; omega⟩

theorem row3_val (t : Fin cfg3.N) (p : Fin 5000) : (row3 t p).val = t.val * 5000 + p.val := rfl

/-- The table's block at point `t`, read at `(p, q)`, is the table at row `5000 t + p`, column `q`. -/
theorem tableBlock3 (c : Dev nD) (t : Fin cfg3.N) (p : Fin 5000) (q : Fin 64) :
    iblk3 V c 0 t (ix2 p q) = V c main_v66 (ix2 (row3 t p) q) := by
  obtain ⟨e0, e1, -, -, -, -, -, -⟩ := blockIndex3 t
  show V c main_v66 (((cfg3.win 0).blk t).view.emb (ix2 p q)) = V c main_v66 (ix2 (row3 t p) q)
  congr 1
  funext a; apply Fin.ext
  match a with
  | ⟨0, _⟩ => show win3_0.index t (0 : Fin 2) * 5000 + 1 * p.val = t.val * 5000 + p.val; rw [e0]; omega
  | ⟨1, _⟩ => show win3_0.index t (1 : Fin 2) * 64 + 1 * q.val = q.val; rw [e1]; omega

/-- The residual's block at point `t`, read at `(p, q)`, is the residual at row `5000 t + p`, column `q`. -/
theorem residBlock3 (c : Dev nD) (t : Fin cfg3.N) (p : Fin 5000) (q : Fin 64) :
    iblk3 V c 1 t (ix2 p q) = V c main_arg1 (ix2 (row3 t p) q) := by
  obtain ⟨-, -, e0, e1, -, -, -, -⟩ := blockIndex3 t
  show V c main_arg1 (((cfg3.win 1).blk t).view.emb (ix2 p q)) = V c main_arg1 (ix2 (row3 t p) q)
  congr 1
  funext a; apply Fin.ext
  match a with
  | ⟨0, _⟩ => show win3_1.index t (0 : Fin 2) * 5000 + 1 * p.val = t.val * 5000 + p.val; rw [e0]; omega
  | ⟨1, _⟩ => show win3_1.index t (1 : Fin 2) * 64 + 1 * q.val = q.val; rw [e1]; omega

/-- An element `(p, q)` of the first output's block at point `t` sits at row `5000 t + p`, column `q` of its array. -/
theorem outPlace3_2 (t : Fin cfg3.N) (p : Fin 5000) (q : Fin 64) :
    ((cfg3.win 2).blk t).view.emb (ix2 p q) = ix2 (row3 t p) q := by
  obtain ⟨-, -, -, -, e0, e1, -, -⟩ := blockIndex3 t
  funext a; apply Fin.ext
  match a with
  | ⟨0, _⟩ => show win3_2.index t (0 : Fin 2) * 5000 + 1 * p.val = t.val * 5000 + p.val; rw [e0]; omega
  | ⟨1, _⟩ => show win3_2.index t (1 : Fin 2) * 64 + 1 * q.val = q.val; rw [e1]; omega

/-- The same for the second output's block. -/
theorem outPlace3_3 (t : Fin cfg3.N) (p : Fin 5000) (q : Fin 64) :
    ((cfg3.win 3).blk t).view.emb (ix2 p q) = ix2 (row3 t p) q := by
  obtain ⟨-, -, -, -, -, -, e0, e1⟩ := blockIndex3 t
  funext a; apply Fin.ext
  match a with
  | ⟨0, _⟩ => show win3_3.index t (0 : Fin 2) * 5000 + 1 * p.val = t.val * 5000 + p.val; rw [e0]; omega
  | ⟨1, _⟩ => show win3_3.index t (1 : Fin 2) * 64 + 1 * q.val = q.val; rw [e1]; omega

/-- The normalisation of the table's block at `t` is the block of the normalised table: row `p` of the block is row
    `5000 t + p` of the table, whole, so the two sums of squares have the same terms. -/
theorem normBlock3 (c : Dev nD) (t : Fin cfg3.N) (p : Fin 5000) (q : Fin 64) :
    Cert.Spec.normRows (iblk3 V c 0 t) (ix2 p q) = Cert.Spec.normE (V c main_v66) (ix2 (row3 t p) q) := by
  show _ = Cert.Spec.normRows (V c main_v66) (ix2 (row3 t p) q)
  rw [Cert.Spec.normRows_ix2, Cert.Spec.normRows_ix2, tableBlock3]
  refine congrArg (fun s => Ideal.div (V c main_v66 (ix2 (row3 t p) q)) (max (Ideal.sqrt s) (Ideal.ofBits .f32 0x2B8CBCCC#32))) ?_
  exact Finset.sum_congr rfl fun k _ => by rw [tableBlock3]

/-! ## What a point writes back -/

/-- Point `t` writes back, to the normalised table, block `t` of `normE` of the table. -/
theorem flushed3_2 (c : Dev nD) (t : Fin cfg3.N) :
    (dat3 (F := Ideal) V c).flushed 2 t = ((cfg3.win 2).blk t).view.read (Elt Ideal) (Cert.Spec.normE (V c main_v66)) := by
  show (cfg3.win 2).cut (grid3.coords t) ((dat3 V c).after 2 t) = _
  rw [after3_2]
  unfold out3_2
  rw [View.canon_unit_zero zeros3]
  simp only [View.ld_unit_zero (S := S5000x64) zeros3]
  rw [tile3_norm]
  funext j
  obtain ⟨p, q, rfl⟩ : ∃ (p : Fin 5000) (q : Fin 64), j = ix2 p q := ⟨j 0, j 1, eq_ix2 (n0 := 5000) (n1 := 64) j⟩
  show Cert.Spec.normRows (iblk3 V c 0 t) (ix2 p q) = Cert.Spec.normE (V c main_v66) (((cfg3.win 2).blk t).view.emb (ix2 p q))
  rw [outPlace3_2, normBlock3]

/-- Point `t` writes back, to the new residual, block `t` of the old residual plus `normE` of the table. -/
theorem flushed3_3 (c : Dev nD) (t : Fin cfg3.N) :
    (dat3 (F := Ideal) V c).flushed 3 t
      = ((cfg3.win 3).blk t).view.read (Elt Ideal) (addf (V c main_arg1) (Cert.Spec.normE (V c main_v66))) := by
  show (cfg3.win 3).cut (grid3.coords t) ((dat3 V c).after 3 t) = _
  rw [after3_3]
  unfold out3_3
  rw [View.canon_unit_zero zeros3]
  simp only [View.ld_unit_zero (S := S5000x64) zeros3]
  rw [tile3_resid]
  funext j
  obtain ⟨p, q, rfl⟩ : ∃ (p : Fin 5000) (q : Fin 64), j = ix2 p q := ⟨j 0, j 1, eq_ix2 (n0 := 5000) (n1 := 64) j⟩
  show addf (F := Ideal) (s := S5000x64) (φ := .f32) (iblk3 V c 1 t) (Cert.Spec.normRows (iblk3 V c 0 t)) (ix2 p q)
    = addf (F := Ideal) (s := S200000x64) (φ := .f32) (V c main_arg1) (Cert.Spec.normE (V c main_v66)) (((cfg3.win 3).blk t).view.emb (ix2 p q))
  rw [outPlace3_3, addf_apply, addf_apply, normBlock3, residBlock3]

/-! ## The blocks tile the arrays -/

/-- An index of the first output's array is in point `t`'s block iff each coordinate is in the block's range on its axis. -/
theorem memBlock3_2 (t : Fin cfg3.N) (i : S200000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v67_0).slice (win3_2.rect t)).set ↔ _
  rw [View.set_slice_whole, Rect.mem_set_unit]
  exact Iff.rfl

/-- The same for the second output's array. -/
theorem memBlock3_3 (t : Fin cfg3.N) (i : S200000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v67_1).slice (win3_3.rect t)).set ↔ _
  rw [View.set_slice_whole, Rect.mem_set_unit]
  exact Iff.rfl

/-- Row `r` of the first output is written by point `r / 5000`. -/
theorem tiled3_2 (i : S200000x64.Idx) :
    ∃ t : Fin cfg3.N, (cfg3.win 2).flush t = true ∧ i ∈ ((cfg3.win 2).blk t).view.set := by
  have hi0 : (i 0).val < 200000 := (i 0).isLt
  have hi1 : (i 1).val < 64 := (i 1).isLt
  have hN : cfg3.N = 40 := N_3
  obtain ⟨t, ht⟩ : ∃ t : Fin cfg3.N, t.val = (i 0).val / 5000 := ⟨⟨(i 0).val / 5000, by rw [hN]; omega⟩, rfl⟩
  obtain ⟨-, -, -, -, e0, e1, -, -⟩ := blockIndex3 t
  refine ⟨t, flush3_2 t, ?_⟩
  rw [memBlock3_2]
  intro a
  match a with
  | ⟨0, _⟩ => show win3_2.index t (0 : Fin 2) * 5000 ≤ (i 0).val ∧ (i 0).val < win3_2.index t (0 : Fin 2) * 5000 + 5000; rw [e0, ht]; omega
  | ⟨1, _⟩ => show win3_2.index t (1 : Fin 2) * 64 ≤ (i 1).val ∧ (i 1).val < win3_2.index t (1 : Fin 2) * 64 + 64; rw [e1]; omega

/-- Row `r` of the second output is written by point `r / 5000`. -/
theorem tiled3_3 (i : S200000x64.Idx) :
    ∃ t : Fin cfg3.N, (cfg3.win 3).flush t = true ∧ i ∈ ((cfg3.win 3).blk t).view.set := by
  have hi0 : (i 0).val < 200000 := (i 0).isLt
  have hi1 : (i 1).val < 64 := (i 1).isLt
  have hN : cfg3.N = 40 := N_3
  obtain ⟨t, ht⟩ : ∃ t : Fin cfg3.N, t.val = (i 0).val / 5000 := ⟨⟨(i 0).val / 5000, by rw [hN]; omega⟩, rfl⟩
  obtain ⟨-, -, -, -, -, -, e0, e1⟩ := blockIndex3 t
  refine ⟨t, flush3_3 t, ?_⟩
  rw [memBlock3_3]
  intro a
  match a with
  | ⟨0, _⟩ => show win3_3.index t (0 : Fin 2) * 5000 ≤ (i 0).val ∧ (i 0).val < win3_3.index t (0 : Fin 2) * 5000 + 5000; rw [e0, ht]; omega
  | ⟨1, _⟩ => show win3_3.index t (1 : Fin 2) * 64 ≤ (i 1).val ∧ (i 1).val < win3_3.index t (1 : Fin 2) * 64 + 64; rw [e1]; omega

/-! ## The arrays the region leaves -/

/-- The normalised table after the region: `normE` of the table as the region finds it. -/
theorem final3_2 (c : Dev nD) : (dat3 (F := Ideal) V c).arrAt 2 cfg3.N = Cert.Spec.normE (V c main_v66) :=
  (dat3 V c).arrAt_eq_of_cover 2 (Cert.Spec.normE (V c main_v66)) (fun t _ => flushed3_2 V c t) tiled3_2

/-- The residual after the region: the residual as the region finds it plus `normE` of the table. -/
theorem final3_3 (c : Dev nD) :
    (dat3 (F := Ideal) V c).arrAt 3 cfg3.N = addf (V c main_arg1) (Cert.Spec.normE (V c main_v66)) :=
  (dat3 V c).arrAt_eq_of_cover 3 (addf (V c main_arg1) (Cert.Spec.normE (V c main_v66))) (fun t _ => flushed3_3 V c t) tiled3_3

end Cert.KernelIdeal.Norm

end
-- ==== Proof.NormK4.lean ====
/- Region 4 (the user table, first hop): the two arrays the row-normalisation kernel leaves. Every grid point `t` reads
   rows [5000 t, 5000 t + 5000) of the table and of the running residual, all 64 columns, and writes the same rows of the
   normalised table and of the new residual; a row's sum of squares lies inside one block, so the block of the normalised
   table is the normalisation of the block, and the blocks tile the array. -/
import proofs.«411258_j87239375716570_3_alg».proof.Proof.Gen.KernelIdeal.Frame
import proofs.«411258_j87239375716570_3_alg».proof.Proof.SpecNorm

set_option maxRecDepth 16384

noncomputable section

namespace Cert.KernelIdeal.Norm

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's accesses start at offset zero on both axes. -/
theorem zeros4 : (![0, 0] : Fin 2 → Nat) = fun _ => 0 := funext fun a => by fin_cases a <;> rfl

/-! ## The payloads -/

/-- The first store's payload is the row normalisation of the loaded tile. -/
theorem tile4_norm (x0 : FVec Ideal S5000x64 .f32) : k4_pay1 (F := Ideal) x0 = Cert.Spec.normRows x0 :=
  Cert.Spec.normRows_of_tile x0 _ _ _ _ _ _

/-- The second store's payload adds it to the loaded residual tile (an identity shape cast, where there is one, dropped). -/
theorem tile4_resid (x0 x1 : FVec Ideal S5000x64 .f32) : k4_pay2 (F := Ideal) x0 x1 = addf x1 (Cert.Spec.normRows x0) := by
  unfold k4_pay2
  simp only [shapeCast_self, tile4_norm]

/-! ## Where a block sits in its array -/

/-- Every window's block index at point `t` is `(t, 0)`: the blocks move down the rows with the point and span the columns. -/
theorem blockIndex4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- Row `p` of block `t`, as a row of the array. -/
def row4 (t : Fin cfg4.N) (p : Fin 5000) : Fin 100000 :=
  ⟨t.val * 5000 + p.val, by have ht : t.val < 20 := Nat.lt_of_lt_of_eq t.isLt N_4; have := p.isLt; omega⟩

theorem row4_val (t : Fin cfg4.N) (p : Fin 5000) : (row4 t p).val = t.val * 5000 + p.val := rfl

/-- The table's block at point `t`, read at `(p, q)`, is the table at row `5000 t + p`, column `q`. -/
theorem tableBlock4 (c : Dev nD) (t : Fin cfg4.N) (p : Fin 5000) (q : Fin 64) :
    iblk4 V c 0 t (ix2 p q) = V c main_v65 (ix2 (row4 t p) q) := by
  obtain ⟨e0, e1, -, -, -, -, -, -⟩ := blockIndex4 t
  show V c main_v65 (((cfg4.win 0).blk t).view.emb (ix2 p q)) = V c main_v65 (ix2 (row4 t p) q)
  congr 1
  funext a; apply Fin.ext
  match a with
  | ⟨0, _⟩ => show win4_0.index t (0 : Fin 2) * 5000 + 1 * p.val = t.val * 5000 + p.val; rw [e0]; omega
  | ⟨1, _⟩ => show win4_0.index t (1 : Fin 2) * 64 + 1 * q.val = q.val; rw [e1]; omega

/-- The residual's block at point `t`, read at `(p, q)`, is the residual at row `5000 t + p`, column `q`. -/
theorem residBlock4 (c : Dev nD) (t : Fin cfg4.N) (p : Fin 5000) (q : Fin 64) :
    iblk4 V c 1 t (ix2 p q) = V c main_arg0 (ix2 (row4 t p) q) := by
  obtain ⟨-, -, e0, e1, -, -, -, -⟩ := blockIndex4 t
  show V c main_arg0 (((cfg4.win 1).blk t).view.emb (ix2 p q)) = V c main_arg0 (ix2 (row4 t p) q)
  congr 1
  funext a; apply Fin.ext
  match a with
  | ⟨0, _⟩ => show win4_1.index t (0 : Fin 2) * 5000 + 1 * p.val = t.val * 5000 + p.val; rw [e0]; omega
  | ⟨1, _⟩ => show win4_1.index t (1 : Fin 2) * 64 + 1 * q.val = q.val; rw [e1]; omega

/-- An element `(p, q)` of the first output's block at point `t` sits at row `5000 t + p`, column `q` of its array. -/
theorem outPlace4_2 (t : Fin cfg4.N) (p : Fin 5000) (q : Fin 64) :
    ((cfg4.win 2).blk t).view.emb (ix2 p q) = ix2 (row4 t p) q := by
  obtain ⟨-, -, -, -, e0, e1, -, -⟩ := blockIndex4 t
  funext a; apply Fin.ext
  match a with
  | ⟨0, _⟩ => show win4_2.index t (0 : Fin 2) * 5000 + 1 * p.val = t.val * 5000 + p.val; rw [e0]; omega
  | ⟨1, _⟩ => show win4_2.index t (1 : Fin 2) * 64 + 1 * q.val = q.val; rw [e1]; omega

/-- The same for the second output's block. -/
theorem outPlace4_3 (t : Fin cfg4.N) (p : Fin 5000) (q : Fin 64) :
    ((cfg4.win 3).blk t).view.emb (ix2 p q) = ix2 (row4 t p) q := by
  obtain ⟨-, -, -, -, -, -, e0, e1⟩ := blockIndex4 t
  funext a; apply Fin.ext
  match a with
  | ⟨0, _⟩ => show win4_3.index t (0 : Fin 2) * 5000 + 1 * p.val = t.val * 5000 + p.val; rw [e0]; omega
  | ⟨1, _⟩ => show win4_3.index t (1 : Fin 2) * 64 + 1 * q.val = q.val; rw [e1]; omega

/-- The normalisation of the table's block at `t` is the block of the normalised table: row `p` of the block is row
    `5000 t + p` of the table, whole, so the two sums of squares have the same terms. -/
theorem normBlock4 (c : Dev nD) (t : Fin cfg4.N) (p : Fin 5000) (q : Fin 64) :
    Cert.Spec.normRows (iblk4 V c 0 t) (ix2 p q) = Cert.Spec.normU (V c main_v65) (ix2 (row4 t p) q) := by
  show _ = Cert.Spec.normRows (V c main_v65) (ix2 (row4 t p) q)
  rw [Cert.Spec.normRows_ix2, Cert.Spec.normRows_ix2, tableBlock4]
  refine congrArg (fun s => Ideal.div (V c main_v65 (ix2 (row4 t p) q)) (max (Ideal.sqrt s) (Ideal.ofBits .f32 0x2B8CBCCC#32))) ?_
  exact Finset.sum_congr rfl fun k _ => by rw [tableBlock4]

/-! ## What a point writes back -/

/-- Point `t` writes back, to the normalised table, block `t` of `normU` of the table. -/
theorem flushed4_2 (c : Dev nD) (t : Fin cfg4.N) :
    (dat4 (F := Ideal) V c).flushed 2 t = ((cfg4.win 2).blk t).view.read (Elt Ideal) (Cert.Spec.normU (V c main_v65)) := by
  show (cfg4.win 2).cut (grid4.coords t) ((dat4 V c).after 2 t) = _
  rw [after4_2]
  unfold out4_2
  rw [View.canon_unit_zero zeros4]
  simp only [View.ld_unit_zero (S := S5000x64) zeros4]
  rw [tile4_norm]
  funext j
  obtain ⟨p, q, rfl⟩ : ∃ (p : Fin 5000) (q : Fin 64), j = ix2 p q := ⟨j 0, j 1, eq_ix2 (n0 := 5000) (n1 := 64) j⟩
  show Cert.Spec.normRows (iblk4 V c 0 t) (ix2 p q) = Cert.Spec.normU (V c main_v65) (((cfg4.win 2).blk t).view.emb (ix2 p q))
  rw [outPlace4_2, normBlock4]

/-- Point `t` writes back, to the new residual, block `t` of the old residual plus `normU` of the table. -/
theorem flushed4_3 (c : Dev nD) (t : Fin cfg4.N) :
    (dat4 (F := Ideal) V c).flushed 3 t
      = ((cfg4.win 3).blk t).view.read (Elt Ideal) (addf (V c main_arg0) (Cert.Spec.normU (V c main_v65))) := by
  show (cfg4.win 3).cut (grid4.coords t) ((dat4 V c).after 3 t) = _
  rw [after4_3]
  unfold out4_3
  rw [View.canon_unit_zero zeros4]
  simp only [View.ld_unit_zero (S := S5000x64) zeros4]
  rw [tile4_resid]
  funext j
  obtain ⟨p, q, rfl⟩ : ∃ (p : Fin 5000) (q : Fin 64), j = ix2 p q := ⟨j 0, j 1, eq_ix2 (n0 := 5000) (n1 := 64) j⟩
  show addf (F := Ideal) (s := S5000x64) (φ := .f32) (iblk4 V c 1 t) (Cert.Spec.normRows (iblk4 V c 0 t)) (ix2 p q)
    = addf (F := Ideal) (s := S100000x64) (φ := .f32) (V c main_arg0) (Cert.Spec.normU (V c main_v65)) (((cfg4.win 3).blk t).view.emb (ix2 p q))
  rw [outPlace4_3, addf_apply, addf_apply, normBlock4, residBlock4]

/-! ## The blocks tile the arrays -/

/-- An index of the first output's array is in point `t`'s block iff each coordinate is in the block's range on its axis. -/
theorem memBlock4_2 (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v68_0).slice (win4_2.rect t)).set ↔ _
  rw [View.set_slice_whole, Rect.mem_set_unit]
  exact Iff.rfl

/-- The same for the second output's array. -/
theorem memBlock4_3 (t : Fin cfg4.N) (i : S100000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v68_1).slice (win4_3.rect t)).set ↔ _
  rw [View.set_slice_whole, Rect.mem_set_unit]
  exact Iff.rfl

/-- Row `r` of the first output is written by point `r / 5000`. -/
theorem tiled4_2 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 20 := N_4
  obtain ⟨t, ht⟩ : ∃ t : Fin cfg4.N, t.val = (i 0).val / 5000 := ⟨⟨(i 0).val / 5000, by rw [hN]; omega⟩, rfl⟩
  obtain ⟨-, -, -, -, e0, e1, -, -⟩ := blockIndex4 t
  refine ⟨t, flush4_2 t, ?_⟩
  rw [memBlock4_2]
  intro a
  match a with
  | ⟨0, _⟩ => show win4_2.index t (0 : Fin 2) * 5000 ≤ (i 0).val ∧ (i 0).val < win4_2.index t (0 : Fin 2) * 5000 + 5000; rw [e0, ht]; omega
  | ⟨1, _⟩ => show win4_2.index t (1 : Fin 2) * 64 ≤ (i 1).val ∧ (i 1).val < win4_2.index t (1 : Fin 2) * 64 + 64; rw [e1]; omega

/-- Row `r` of the second output is written by point `r / 5000`. -/
theorem tiled4_3 (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hN : cfg4.N = 20 := N_4
  obtain ⟨t, ht⟩ : ∃ t : Fin cfg4.N, t.val = (i 0).val / 5000 := ⟨⟨(i 0).val / 5000, by rw [hN]; omega⟩, rfl⟩
  obtain ⟨-, -, -, -, -, -, e0, e1⟩ := blockIndex4 t
  refine ⟨t, flush4_3 t, ?_⟩
  rw [memBlock4_3]
  intro a
  match a with
  | ⟨0, _⟩ => show win4_3.index t (0 : Fin 2) * 5000 ≤ (i 0).val ∧ (i 0).val < win4_3.index t (0 : Fin 2) * 5000 + 5000; rw [e0, ht]; omega
  | ⟨1, _⟩ => show win4_3.index t (1 : Fin 2) * 64 ≤ (i 1).val ∧ (i 1).val < win4_3.index t (1 : Fin 2) * 64 + 64; rw [e1]; omega

/-! ## The arrays the region leaves -/

/-- The normalised table after the region: `normU` of the table as the region finds it. -/
theorem final4_2 (c : Dev nD) : (dat4 (F := Ideal) V c).arrAt 2 cfg4.N = Cert.Spec.normU (V c main_v65) :=
  (dat4 V c).arrAt_eq_of_cover 2 (Cert.Spec.normU (V c main_v65)) (fun t _ => flushed4_2 V c t) tiled4_2

/-- The residual after the region: the residual as the region finds it plus `normU` of the table. -/
theorem final4_3 (c : Dev nD) :
    (dat4 (F := Ideal) V c).arrAt 3 cfg4.N = addf (V c main_arg0) (Cert.Spec.normU (V c main_v65)) :=
  (dat4 V c).arrAt_eq_of_cover 3 (addf (V c main_arg0) (Cert.Spec.normU (V c main_v65))) (fun t _ => flushed4_3 V c t) tiled4_3

end Cert.KernelIdeal.Norm

end
-- ==== Proof.NormK8.lean ====
/- Region 8 (the entity table, second hop): the two arrays the row-normalisation kernel leaves. Every grid point `t` reads
   rows [5000 t, 5000 t + 5000) of the table and of the running residual, all 64 columns, and writes the same rows of the
   normalised table and of the new residual; a row's sum of squares lies inside one block, so the block of the normalised
   table is the normalisation of the block, and the blocks tile the array. -/
import proofs.«411258_j87239375716570_3_alg».proof.Proof.Gen.KernelIdeal.Frame
import proofs.«411258_j87239375716570_3_alg».proof.Proof.SpecNorm

set_option maxRecDepth 16384

noncomputable section

namespace Cert.KernelIdeal.Norm

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's accesses start at offset zero on both axes. -/
theorem zeros8 : (![0, 0] : Fin 2 → Nat) = fun _ => 0 := funext fun a => by fin_cases a <;> rfl

/-! ## The payloads -/

/-- The first store's payload is the row normalisation of the loaded tile. -/
theorem tile8_norm (x0 : FVec Ideal S5000x64 .f32) : k8_pay1 (F := Ideal) x0 = Cert.Spec.normRows x0 :=
  Cert.Spec.normRows_of_tile x0 _ _ _ _ _ _

/-- The second store's payload adds it to the loaded residual tile (an identity shape cast, where there is one, dropped). -/
theorem tile8_resid (x0 x1 : FVec Ideal S5000x64 .f32) : k8_pay2 (F := Ideal) x0 x1 = addf x1 (Cert.Spec.normRows x0) := by
  unfold k8_pay2
  simp only [shapeCast_self, tile8_norm]

/-! ## Where a block sits in its array -/

/-- Every window's block index at point `t` is `(t, 0)`: the blocks move down the rows with the point and span the columns. -/
theorem blockIndex8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0 :=
  (by decide +kernel : ∀ t : Fin grid8.N, _)

/-- Row `p` of block `t`, as a row of the array. -/
def row8 (t : Fin cfg8.N) (p : Fin 5000) : Fin 200000 :=
  ⟨t.val * 5000 + p.val, by have ht : t.val < 40 := Nat.lt_of_lt_of_eq t.isLt N_8; have := p.isLt; omega⟩

theorem row8_val (t : Fin cfg8.N) (p : Fin 5000) : (row8 t p).val = t.val * 5000 + p.val := rfl

/-- The table's block at point `t`, read at `(p, q)`, is the table at row `5000 t + p`, column `q`. -/
theorem tableBlock8 (c : Dev nD) (t : Fin cfg8.N) (p : Fin 5000) (q : Fin 64) :
    iblk8 V c 0 t (ix2 p q) = V c main_v130 (ix2 (row8 t p) q) := by
  obtain ⟨e0, e1, -, -, -, -, -, -⟩ := blockIndex8 t
  show V c main_v130 (((cfg8.win 0).blk t).view.emb (ix2 p q)) = V c main_v130 (ix2 (row8 t p) q)
  congr 1
  funext a; apply Fin.ext
  match a with
  | ⟨0, _⟩ => show win8_0.index t (0 : Fin 2) * 5000 + 1 * p.val = t.val * 5000 + p.val; rw [e0]; omega
  | ⟨1, _⟩ => show win8_0.index t (1 : Fin 2) * 64 + 1 * q.val = q.val; rw [e1]; omega

/-- The residual's block at point `t`, read at `(p, q)`, is the residual at row `5000 t + p`, column `q`. -/
theorem residBlock8 (c : Dev nD) (t : Fin cfg8.N) (p : Fin 5000) (q : Fin 64) :
    iblk8 V c 1 t (ix2 p q) = V c main_v67_1 (ix2 (row8 t p) q) := by
  obtain ⟨-, -, e0, e1, -, -, -, -⟩ := blockIndex8 t
  show V c main_v67_1 (((cfg8.win 1).blk t).view.emb (ix2 p q)) = V c main_v67_1 (ix2 (row8 t p) q)
  congr 1
  funext a; apply Fin.ext
  match a with
  | ⟨0, _⟩ => show win8_1.index t (0 : Fin 2) * 5000 + 1 * p.val = t.val * 5000 + p.val; rw [e0]; omega
  | ⟨1, _⟩ => show win8_1.index t (1 : Fin 2) * 64 + 1 * q.val = q.val; rw [e1]; omega

/-- An element `(p, q)` of the first output's block at point `t` sits at row `5000 t + p`, column `q` of its array. -/
theorem outPlace8_2 (t : Fin cfg8.N) (p : Fin 5000) (q : Fin 64) :
    ((cfg8.win 2).blk t).view.emb (ix2 p q) = ix2 (row8 t p) q := by
  obtain ⟨-, -, -, -, e0, e1, -, -⟩ := blockIndex8 t
  funext a; apply Fin.ext
  match a with
  | ⟨0, _⟩ => show win8_2.index t (0 : Fin 2) * 5000 + 1 * p.val = t.val * 5000 + p.val; rw [e0]; omega
  | ⟨1, _⟩ => show win8_2.index t (1 : Fin 2) * 64 + 1 * q.val = q.val; rw [e1]; omega

/-- The same for the second output's block. -/
theorem outPlace8_3 (t : Fin cfg8.N) (p : Fin 5000) (q : Fin 64) :
    ((cfg8.win 3).blk t).view.emb (ix2 p q) = ix2 (row8 t p) q := by
  obtain ⟨-, -, -, -, -, -, e0, e1⟩ := blockIndex8 t
  funext a; apply Fin.ext
  match a with
  | ⟨0, _⟩ => show win8_3.index t (0 : Fin 2) * 5000 + 1 * p.val = t.val * 5000 + p.val; rw [e0]; omega
  | ⟨1, _⟩ => show win8_3.index t (1 : Fin 2) * 64 + 1 * q.val = q.val; rw [e1]; omega

/-- The normalisation of the table's block at `t` is the block of the normalised table: row `p` of the block is row
    `5000 t + p` of the table, whole, so the two sums of squares have the same terms. -/
theorem normBlock8 (c : Dev nD) (t : Fin cfg8.N) (p : Fin 5000) (q : Fin 64) :
    Cert.Spec.normRows (iblk8 V c 0 t) (ix2 p q) = Cert.Spec.normE (V c main_v130) (ix2 (row8 t p) q) := by
  show _ = Cert.Spec.normRows (V c main_v130) (ix2 (row8 t p) q)
  rw [Cert.Spec.normRows_ix2, Cert.Spec.normRows_ix2, tableBlock8]
  refine congrArg (fun s => Ideal.div (V c main_v130 (ix2 (row8 t p) q)) (max (Ideal.sqrt s) (Ideal.ofBits .f32 0x2B8CBCCC#32))) ?_
  exact Finset.sum_congr rfl fun k _ => by rw [tableBlock8]

/-! ## What a point writes back -/

/-- Point `t` writes back, to the normalised table, block `t` of `normE` of the table. -/
theorem flushed8_2 (c : Dev nD) (t : Fin cfg8.N) :
    (dat8 (F := Ideal) V c).flushed 2 t = ((cfg8.win 2).blk t).view.read (Elt Ideal) (Cert.Spec.normE (V c main_v130)) := by
  show (cfg8.win 2).cut (grid8.coords t) ((dat8 V c).after 2 t) = _
  rw [after8_2]
  unfold out8_2
  rw [View.canon_unit_zero zeros8]
  simp only [View.ld_unit_zero (S := S5000x64) zeros8]
  rw [tile8_norm]
  funext j
  obtain ⟨p, q, rfl⟩ : ∃ (p : Fin 5000) (q : Fin 64), j = ix2 p q := ⟨j 0, j 1, eq_ix2 (n0 := 5000) (n1 := 64) j⟩
  show Cert.Spec.normRows (iblk8 V c 0 t) (ix2 p q) = Cert.Spec.normE (V c main_v130) (((cfg8.win 2).blk t).view.emb (ix2 p q))
  rw [outPlace8_2, normBlock8]

/-- Point `t` writes back, to the new residual, block `t` of the old residual plus `normE` of the table. -/
theorem flushed8_3 (c : Dev nD) (t : Fin cfg8.N) :
    (dat8 (F := Ideal) V c).flushed 3 t
      = ((cfg8.win 3).blk t).view.read (Elt Ideal) (addf (V c main_v67_1) (Cert.Spec.normE (V c main_v130))) := by
  show (cfg8.win 3).cut (grid8.coords t) ((dat8 V c).after 3 t) = _
  rw [after8_3]
  unfold out8_3
  rw [View.canon_unit_zero zeros8]
  simp only [View.ld_unit_zero (S := S5000x64) zeros8]
  rw [tile8_resid]
  funext j
  obtain ⟨p, q, rfl⟩ : ∃ (p : Fin 5000) (q : Fin 64), j = ix2 p q := ⟨j 0, j 1, eq_ix2 (n0 := 5000) (n1 := 64) j⟩
  show addf (F := Ideal) (s := S5000x64) (φ := .f32) (iblk8 V c 1 t) (Cert.Spec.normRows (iblk8 V c 0 t)) (ix2 p q)
    = addf (F := Ideal) (s := S200000x64) (φ := .f32) (V c main_v67_1) (Cert.Spec.normE (V c main_v130)) (((cfg8.win 3).blk t).view.emb (ix2 p q))
  rw [outPlace8_3, addf_apply, addf_apply, normBlock8, residBlock8]

/-! ## The blocks tile the arrays -/

/-- An index of the first output's array is in point `t`'s block iff each coordinate is in the block's range on its axis. -/
theorem memBlock8_2 (t : Fin cfg8.N) (i : S200000x64.Idx) :
    i ∈ ((cfg8.win 2).blk t).view.set ↔ ∀ a : Fin 2, win8_2.index t a * S5000x64.size a ≤ (i a).val ∧ (i a).val < win8_2.index t a * S5000x64.size a + S5000x64.size a := by
  show i ∈ ((View.whole main_v131_0).slice (win8_2.rect t)).set ↔ _
  rw [View.set_slice_whole, Rect.mem_set_unit]
  exact Iff.rfl

/-- The same for the second output's array. -/
theorem memBlock8_3 (t : Fin cfg8.N) (i : S200000x64.Idx) :
    i ∈ ((cfg8.win 3).blk t).view.set ↔ ∀ a : Fin 2, win8_3.index t a * S5000x64.size a ≤ (i a).val ∧ (i a).val < win8_3.index t a * S5000x64.size a + S5000x64.size a := by
  show i ∈ ((View.whole main_v131_1).slice (win8_3.rect t)).set ↔ _
  rw [View.set_slice_whole, Rect.mem_set_unit]
  exact Iff.rfl

/-- Row `r` of the first output is written by point `r / 5000`. -/
theorem tiled8_2 (i : S200000x64.Idx) :
    ∃ t : Fin cfg8.N, (cfg8.win 2).flush t = true ∧ i ∈ ((cfg8.win 2).blk t).view.set := by
  have hi0 : (i 0).val < 200000 := (i 0).isLt
  have hi1 : (i 1).val < 64 := (i 1).isLt
  have hN : cfg8.N = 40 := N_8
  obtain ⟨t, ht⟩ : ∃ t : Fin cfg8.N, t.val = (i 0).val / 5000 := ⟨⟨(i 0).val / 5000, by rw [hN]; omega⟩, rfl⟩
  obtain ⟨-, -, -, -, e0, e1, -, -⟩ := blockIndex8 t
  refine ⟨t, flush8_2 t, ?_⟩
  rw [memBlock8_2]
  intro a
  match a with
  | ⟨0, _⟩ => show win8_2.index t (0 : Fin 2) * 5000 ≤ (i 0).val ∧ (i 0).val < win8_2.index t (0 : Fin 2) * 5000 + 5000; rw [e0, ht]; omega
  | ⟨1, _⟩ => show win8_2.index t (1 : Fin 2) * 64 ≤ (i 1).val ∧ (i 1).val < win8_2.index t (1 : Fin 2) * 64 + 64; rw [e1]; omega

/-- Row `r` of the second output is written by point `r / 5000`. -/
theorem tiled8_3 (i : S200000x64.Idx) :
    ∃ t : Fin cfg8.N, (cfg8.win 3).flush t = true ∧ i ∈ ((cfg8.win 3).blk t).view.set := by
  have hi0 : (i 0).val < 200000 := (i 0).isLt
  have hi1 : (i 1).val < 64 := (i 1).isLt
  have hN : cfg8.N = 40 := N_8
  obtain ⟨t, ht⟩ : ∃ t : Fin cfg8.N, t.val = (i 0).val / 5000 := ⟨⟨(i 0).val / 5000, by rw [hN]; omega⟩, rfl⟩
  obtain ⟨-, -, -, -, -, -, e0, e1⟩ := blockIndex8 t
  refine ⟨t, flush8_3 t, ?_⟩
  rw [memBlock8_3]
  intro a
  match a with
  | ⟨0, _⟩ => show win8_3.index t (0 : Fin 2) * 5000 ≤ (i 0).val ∧ (i 0).val < win8_3.index t (0 : Fin 2) * 5000 + 5000; rw [e0, ht]; omega
  | ⟨1, _⟩ => show win8_3.index t (1 : Fin 2) * 64 ≤ (i 1).val ∧ (i 1).val < win8_3.index t (1 : Fin 2) * 64 + 64; rw [e1]; omega

/-! ## The arrays the region leaves -/

/-- The normalised table after the region: `normE` of the table as the region finds it. -/
theorem final8_2 (c : Dev nD) : (dat8 (F := Ideal) V c).arrAt 2 cfg8.N = Cert.Spec.normE (V c main_v130) :=
  (dat8 V c).arrAt_eq_of_cover 2 (Cert.Spec.normE (V c main_v130)) (fun t _ => flushed8_2 V c t) tiled8_2

/-- The residual after the region: the residual as the region finds it plus `normE` of the table. -/
theorem final8_3 (c : Dev nD) :
    (dat8 (F := Ideal) V c).arrAt 3 cfg8.N = addf (V c main_v67_1) (Cert.Spec.normE (V c main_v130)) :=
  (dat8 V c).arrAt_eq_of_cover 3 (addf (V c main_v67_1) (Cert.Spec.normE (V c main_v130))) (fun t _ => flushed8_3 V c t) tiled8_3

end Cert.KernelIdeal.Norm

end
-- ==== Proof.NormK9.lean ====
/- Region 9 (the user table, second hop): the two arrays the row-normalisation kernel leaves. Every grid point `t` reads
   rows [5000 t, 5000 t + 5000) of the table and of the running residual, all 64 columns, and writes the same rows of the
   normalised table and of the new residual; a row's sum of squares lies inside one block, so the block of the normalised
   table is the normalisation of the block, and the blocks tile the array. -/
import proofs.«411258_j87239375716570_3_alg».proof.Proof.Gen.KernelIdeal.Frame
import proofs.«411258_j87239375716570_3_alg».proof.Proof.SpecNorm

set_option maxRecDepth 16384

noncomputable section

namespace Cert.KernelIdeal.Norm

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's accesses start at offset zero on both axes. -/
theorem zeros9 : (![0, 0] : Fin 2 → Nat) = fun _ => 0 := funext fun a => by fin_cases a <;> rfl

/-! ## The payloads -/

/-- The first store's payload is the row normalisation of the loaded tile. -/
theorem tile9_norm (x0 : FVec Ideal S5000x64 .f32) : k9_pay1 (F := Ideal) x0 = Cert.Spec.normRows x0 :=
  Cert.Spec.normRows_of_tile x0 _ _ _ _ _ _

/-- The second store's payload adds it to the loaded residual tile (an identity shape cast, where there is one, dropped). -/
theorem tile9_resid (x0 x1 : FVec Ideal S5000x64 .f32) : k9_pay2 (F := Ideal) x0 x1 = addf x1 (Cert.Spec.normRows x0) := by
  unfold k9_pay2
  simp only [shapeCast_self, tile9_norm]

/-! ## Where a block sits in its array -/

/-- Every window's block index at point `t` is `(t, 0)`: the blocks move down the rows with the point and span the columns. -/
theorem blockIndex9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0 :=
  (by decide +kernel : ∀ t : Fin grid9.N, _)

/-- Row `p` of block `t`, as a row of the array. -/
def row9 (t : Fin cfg9.N) (p : Fin 5000) : Fin 100000 :=
  ⟨t.val * 5000 + p.val, by have ht : t.val < 20 := Nat.lt_of_lt_of_eq t.isLt N_9; have := p.isLt; omega⟩

theorem row9_val (t : Fin cfg9.N) (p : Fin 5000) : (row9 t p).val = t.val * 5000 + p.val := rfl

/-- The table's block at point `t`, read at `(p, q)`, is the table at row `5000 t + p`, column `q`. -/
theorem tableBlock9 (c : Dev nD) (t : Fin cfg9.N) (p : Fin 5000) (q : Fin 64) :
    iblk9 V c 0 t (ix2 p q) = V c main_v129 (ix2 (row9 t p) q) := by
  obtain ⟨e0, e1, -, -, -, -, -, -⟩ := blockIndex9 t
  show V c main_v129 (((cfg9.win 0).blk t).view.emb (ix2 p q)) = V c main_v129 (ix2 (row9 t p) q)
  congr 1
  funext a; apply Fin.ext
  match a with
  | ⟨0, _⟩ => show win9_0.index t (0 : Fin 2) * 5000 + 1 * p.val = t.val * 5000 + p.val; rw [e0]; omega
  | ⟨1, _⟩ => show win9_0.index t (1 : Fin 2) * 64 + 1 * q.val = q.val; rw [e1]; omega

/-- The residual's block at point `t`, read at `(p, q)`, is the residual at row `5000 t + p`, column `q`. -/
theorem residBlock9 (c : Dev nD) (t : Fin cfg9.N) (p : Fin 5000) (q : Fin 64) :
    iblk9 V c 1 t (ix2 p q) = V c main_v68_1 (ix2 (row9 t p) q) := by
  obtain ⟨-, -, e0, e1, -, -, -, -⟩ := blockIndex9 t
  show V c main_v68_1 (((cfg9.win 1).blk t).view.emb (ix2 p q)) = V c main_v68_1 (ix2 (row9 t p) q)
  congr 1
  funext a; apply Fin.ext
  match a with
  | ⟨0, _⟩ => show win9_1.index t (0 : Fin 2) * 5000 + 1 * p.val = t.val * 5000 + p.val; rw [e0]; omega
  | ⟨1, _⟩ => show win9_1.index t (1 : Fin 2) * 64 + 1 * q.val = q.val; rw [e1]; omega

/-- An element `(p, q)` of the first output's block at point `t` sits at row `5000 t + p`, column `q` of its array. -/
theorem outPlace9_2 (t : Fin cfg9.N) (p : Fin 5000) (q : Fin 64) :
    ((cfg9.win 2).blk t).view.emb (ix2 p q) = ix2 (row9 t p) q := by
  obtain ⟨-, -, -, -, e0, e1, -, -⟩ := blockIndex9 t
  funext a; apply Fin.ext
  match a with
  | ⟨0, _⟩ => show win9_2.index t (0 : Fin 2) * 5000 + 1 * p.val = t.val * 5000 + p.val; rw [e0]; omega
  | ⟨1, _⟩ => show win9_2.index t (1 : Fin 2) * 64 + 1 * q.val = q.val; rw [e1]; omega

/-- The same for the second output's block. -/
theorem outPlace9_3 (t : Fin cfg9.N) (p : Fin 5000) (q : Fin 64) :
    ((cfg9.win 3).blk t).view.emb (ix2 p q) = ix2 (row9 t p) q := by
  obtain ⟨-, -, -, -, -, -, e0, e1⟩ := blockIndex9 t
  funext a; apply Fin.ext
  match a with
  | ⟨0, _⟩ => show win9_3.index t (0 : Fin 2) * 5000 + 1 * p.val = t.val * 5000 + p.val; rw [e0]; omega
  | ⟨1, _⟩ => show win9_3.index t (1 : Fin 2) * 64 + 1 * q.val = q.val; rw [e1]; omega

/-- The normalisation of the table's block at `t` is the block of the normalised table: row `p` of the block is row
    `5000 t + p` of the table, whole, so the two sums of squares have the same terms. -/
theorem normBlock9 (c : Dev nD) (t : Fin cfg9.N) (p : Fin 5000) (q : Fin 64) :
    Cert.Spec.normRows (iblk9 V c 0 t) (ix2 p q) = Cert.Spec.normU (V c main_v129) (ix2 (row9 t p) q) := by
  show _ = Cert.Spec.normRows (V c main_v129) (ix2 (row9 t p) q)
  rw [Cert.Spec.normRows_ix2, Cert.Spec.normRows_ix2, tableBlock9]
  refine congrArg (fun s => Ideal.div (V c main_v129 (ix2 (row9 t p) q)) (max (Ideal.sqrt s) (Ideal.ofBits .f32 0x2B8CBCCC#32))) ?_
  exact Finset.sum_congr rfl fun k _ => by rw [tableBlock9]

/-! ## What a point writes back -/

/-- Point `t` writes back, to the normalised table, block `t` of `normU` of the table. -/
theorem flushed9_2 (c : Dev nD) (t : Fin cfg9.N) :
    (dat9 (F := Ideal) V c).flushed 2 t = ((cfg9.win 2).blk t).view.read (Elt Ideal) (Cert.Spec.normU (V c main_v129)) := by
  show (cfg9.win 2).cut (grid9.coords t) ((dat9 V c).after 2 t) = _
  rw [after9_2]
  unfold out9_2
  rw [View.canon_unit_zero zeros9]
  simp only [View.ld_unit_zero (S := S5000x64) zeros9]
  rw [tile9_norm]
  funext j
  obtain ⟨p, q, rfl⟩ : ∃ (p : Fin 5000) (q : Fin 64), j = ix2 p q := ⟨j 0, j 1, eq_ix2 (n0 := 5000) (n1 := 64) j⟩
  show Cert.Spec.normRows (iblk9 V c 0 t) (ix2 p q) = Cert.Spec.normU (V c main_v129) (((cfg9.win 2).blk t).view.emb (ix2 p q))
  rw [outPlace9_2, normBlock9]

/-- Point `t` writes back, to the new residual, block `t` of the old residual plus `normU` of the table. -/
theorem flushed9_3 (c : Dev nD) (t : Fin cfg9.N) :
    (dat9 (F := Ideal) V c).flushed 3 t
      = ((cfg9.win 3).blk t).view.read (Elt Ideal) (addf (V c main_v68_1) (Cert.Spec.normU (V c main_v129))) := by
  show (cfg9.win 3).cut (grid9.coords t) ((dat9 V c).after 3 t) = _
  rw [after9_3]
  unfold out9_3
  rw [View.canon_unit_zero zeros9]
  simp only [View.ld_unit_zero (S := S5000x64) zeros9]
  rw [tile9_resid]
  funext j
  obtain ⟨p, q, rfl⟩ : ∃ (p : Fin 5000) (q : Fin 64), j = ix2 p q := ⟨j 0, j 1, eq_ix2 (n0 := 5000) (n1 := 64) j⟩
  show addf (F := Ideal) (s := S5000x64) (φ := .f32) (iblk9 V c 1 t) (Cert.Spec.normRows (iblk9 V c 0 t)) (ix2 p q)
    = addf (F := Ideal) (s := S100000x64) (φ := .f32) (V c main_v68_1) (Cert.Spec.normU (V c main_v129)) (((cfg9.win 3).blk t).view.emb (ix2 p q))
  rw [outPlace9_3, addf_apply, addf_apply, normBlock9, residBlock9]

/-! ## The blocks tile the arrays -/

/-- An index of the first output's array is in point `t`'s block iff each coordinate is in the block's range on its axis. -/
theorem memBlock9_2 (t : Fin cfg9.N) (i : S100000x64.Idx) :
    i ∈ ((cfg9.win 2).blk t).view.set ↔ ∀ a : Fin 2, win9_2.index t a * S5000x64.size a ≤ (i a).val ∧ (i a).val < win9_2.index t a * S5000x64.size a + S5000x64.size a := by
  show i ∈ ((View.whole main_v132_0).slice (win9_2.rect t)).set ↔ _
  rw [View.set_slice_whole, Rect.mem_set_unit]
  exact Iff.rfl

/-- The same for the second output's array. -/
theorem memBlock9_3 (t : Fin cfg9.N) (i : S100000x64.Idx) :
    i ∈ ((cfg9.win 3).blk t).view.set ↔ ∀ a : Fin 2, win9_3.index t a * S5000x64.size a ≤ (i a).val ∧ (i a).val < win9_3.index t a * S5000x64.size a + S5000x64.size a := by
  show i ∈ ((View.whole main_v132_1).slice (win9_3.rect t)).set ↔ _
  rw [View.set_slice_whole, Rect.mem_set_unit]
  exact Iff.rfl

/-- Row `r` of the first output is written by point `r / 5000`. -/
theorem tiled9_2 (i : S100000x64.Idx) :
    ∃ t : Fin cfg9.N, (cfg9.win 2).flush t = true ∧ i ∈ ((cfg9.win 2).blk t).view.set := by
  have hi0 : (i 0).val < 100000 := (i 0).isLt
  have hi1 : (i 1).val < 64 := (i 1).isLt
  have hN : cfg9.N = 20 := N_9
  obtain ⟨t, ht⟩ : ∃ t : Fin cfg9.N, t.val = (i 0).val / 5000 := ⟨⟨(i 0).val / 5000, by rw [hN]; omega⟩, rfl⟩
  obtain ⟨-, -, -, -, e0, e1, -, -⟩ := blockIndex9 t
  refine ⟨t, flush9_2 t, ?_⟩
  rw [memBlock9_2]
  intro a
  match a with
  | ⟨0, _⟩ => show win9_2.index t (0 : Fin 2) * 5000 ≤ (i 0).val ∧ (i 0).val < win9_2.index t (0 : Fin 2) * 5000 + 5000; rw [e0, ht]; omega
  | ⟨1, _⟩ => show win9_2.index t (1 : Fin 2) * 64 ≤ (i 1).val ∧ (i 1).val < win9_2.index t (1 : Fin 2) * 64 + 64; rw [e1]; omega

/-- Row `r` of the second output is written by point `r / 5000`. -/
theorem tiled9_3 (i : S100000x64.Idx) :
    ∃ t : Fin cfg9.N, (cfg9.win 3).flush t = true ∧ i ∈ ((cfg9.win 3).blk t).view.set := by
  have hi0 : (i 0).val < 100000 := (i 0).isLt
  have hi1 : (i 1).val < 64 := (i 1).isLt
  have hN : cfg9.N = 20 := N_9
  obtain ⟨t, ht⟩ : ∃ t : Fin cfg9.N, t.val = (i 0).val / 5000 := ⟨⟨(i 0).val / 5000, by rw [hN]; omega⟩, rfl⟩
  obtain ⟨-, -, -, -, -, -, e0, e1⟩ := blockIndex9 t
  refine ⟨t, flush9_3 t, ?_⟩
  rw [memBlock9_3]
  intro a
  match a with
  | ⟨0, _⟩ => show win9_3.index t (0 : Fin 2) * 5000 ≤ (i 0).val ∧ (i 0).val < win9_3.index t (0 : Fin 2) * 5000 + 5000; rw [e0, ht]; omega
  | ⟨1, _⟩ => show win9_3.index t (1 : Fin 2) * 64 ≤ (i 1).val ∧ (i 1).val < win9_3.index t (1 : Fin 2) * 64 + 64; rw [e1]; omega

/-! ## The arrays the region leaves -/

/-- The normalised table after the region: `normU` of the table as the region finds it. -/
theorem final9_2 (c : Dev nD) : (dat9 (F := Ideal) V c).arrAt 2 cfg9.N = Cert.Spec.normU (V c main_v129) :=
  (dat9 V c).arrAt_eq_of_cover 2 (Cert.Spec.normU (V c main_v129)) (fun t _ => flushed9_2 V c t) tiled9_2

/-- The residual after the region: the residual as the region finds it plus `normU` of the table. -/
theorem final9_3 (c : Dev nD) :
    (dat9 (F := Ideal) V c).arrAt 3 cfg9.N = addf (V c main_v68_1) (Cert.Spec.normU (V c main_v129)) :=
  (dat9 V c).arrAt_eq_of_cover 3 (addf (V c main_v68_1) (Cert.Spec.normU (V c main_v129))) (fun t _ => flushed9_3 V c t) tiled9_3

end Cert.KernelIdeal.Norm

end
-- ==== Proof.NormRef.lean ====
/- The reference's row normalisation of each table — squares, the sum over the columns, the keepdims column, square root, the
   floor, the column sent back over the columns, the quotient — is the specification's `normE` / `normU`. -/
import proofs.«411258_j87239375716570_3_alg».proof.Proof.Gen.ReferenceIdeal
import proofs.«411258_j87239375716570_3_alg».proof.Proof.SpecNorm

noncomputable section

namespace Cert.ReferenceIdeal.Norm

open Cert.ReferenceIdeal Cert.ReferenceIdeal.Gen Idealize.ShloMosaic Idealize.ShloMosaic.ValueIdx

/-- The entity table's normalisation as the reference computes it is `normE`: the chain read at `(p, q)` is the quotient of
    `x[p,q]` by `max (√ Σ_k x[p,k]²) ε`. -/
theorem refE_eq (x : FVec Ideal S200000x64 .f32) :
    Host.divf x (broadcastInDim S200000x64 ![0, 1] bcast_S200000x1_S200000x64_0_1 (maximumf (Host.sqrt (broadcastInDim S200000x1 ![0] bcast_S200000_S200000x1_0 (Host.reduceAdd (mulf x x) (constant S_ .f32 0x00000000#32) reducesTo_S200000x64_S200000_d1 h_S_))) (broadcastInDim S200000x1 ![] bcast_S_S200000x1 (constant S_ .f32 0x2B8CBCCC#32)))) = Cert.Spec.normE x :=
  Cert.Spec.normRows_of_host x ![0, 1] rfl rfl ![0] rfl ![] bcast_S200000x1_S200000x64_0_1 bcast_S200000_S200000x1_0 bcast_S_S200000x1 reducesTo_S200000x64_S200000_d1 h_S_

/-- The user table's normalisation as the reference computes it is `normU`. -/
theorem refU_eq (x : FVec Ideal S100000x64 .f32) :
    Host.divf x (broadcastInDim S100000x64 ![0, 1] bcast_S100000x1_S100000x64_0_1 (maximumf (Host.sqrt (broadcastInDim S100000x1 ![0] bcast_S100000_S100000x1_0 (Host.reduceAdd (mulf x x) (constant S_ .f32 0x00000000#32) reducesTo_S100000x64_S100000_d1 h_S_))) (broadcastInDim S100000x1 ![] bcast_S_S100000x1 (constant S_ .f32 0x2B8CBCCC#32)))) = Cert.Spec.normU x :=
  Cert.Spec.normRows_of_host x ![0, 1] rfl rfl ![0] rfl ![] bcast_S100000x1_S100000x64_0_1 bcast_S100000_S100000x1_0 bcast_S_S100000x1 reducesTo_S100000x64_S100000_d1 h_S_

end Cert.ReferenceIdeal.Norm

end
-- ==== Proof.ChainA.lean ====
import proofs.«411258_j87239375716570_3_alg».proof.Proof.ChainKeep
import proofs.«411258_j87239375716570_3_alg».proof.Proof.RefTerms
import proofs.«411258_j87239375716570_3_alg».proof.Proof.RelMulK0
import proofs.«411258_j87239375716570_3_alg».proof.Proof.RelMulK5
import proofs.«411258_j87239375716570_3_alg».proof.Proof.RelMulRef
import proofs.«411258_j87239375716570_3_alg».proof.Proof.RowScaleK1
import proofs.«411258_j87239375716570_3_alg».proof.Proof.RowScaleK6
import proofs.«411258_j87239375716570_3_alg».proof.Proof.RowScaleRef
import proofs.«411258_j87239375716570_3_alg».proof.Proof.FusionK2
import proofs.«411258_j87239375716570_3_alg».proof.Proof.FusionK7
import proofs.«411258_j87239375716570_3_alg».proof.Proof.FusionRef
import proofs.«411258_j87239375716570_3_alg».proof.Proof.NormK3
import proofs.«411258_j87239375716570_3_alg».proof.Proof.NormK4
import proofs.«411258_j87239375716570_3_alg».proof.Proof.NormK8
import proofs.«411258_j87239375716570_3_alg».proof.Proof.NormK9
import proofs.«411258_j87239375716570_3_alg».proof.Proof.NormRef
import Idealize.ShloMosaic.Lib.StableHlo.Run
import Idealize.ShloMosaic.PureOps.Ideal
set_option maxRecDepth 16384
noncomputable section
open Idealize.ShloMosaic Idealize.ShloMosaic.TcCoe Idealize.SL.Sem Idealize.ShloMosaic.StableHlo
namespace Cert.KernelIdeal.Chain
open Cert.KernelIdeal Cert.KernelIdeal.Gen
open Cert.ReferenceIdeal.Value (res_main_v1 res_main_v3 res_main_v29 res_main_v30 res_main_v54 res_main_v69 res_main_v74 res_main_v84 res_main_v85 res_main_v93 res_main_v101 res_main_v129 res_main_v130 res_main_v154 res_main_v169 res_main_v174 res_main_v184 res_main_v185)
open Cert.ReferenceIdeal.RefTerms

variable (m : (ℓ : Loc nD τ sig) → Buf (Elt Ideal) ℓ) (ρ : Dev nD → PrngReg) (c : Dev nD) (T : RVal)

/-- The two programs are launched on the same argument arrays, and the relation indices are in range. -/
structure Agree : Prop where
  h0 : m ((c : Thread nD τ).loc main_arg0) = a0 T
  h1 : m ((c : Thread nD τ).loc main_arg1) = a1 T
  h2 : m ((c : Thread nD τ).loc main_arg2) = a2 T
  h3 : m ((c : Thread nD τ).loc main_arg3) = a3 T
  h4 : m ((c : Thread nD τ).loc main_arg4) = a4 T
  h5 : m ((c : Thread nD τ).loc main_arg5) = a5 T
  h6 : m ((c : Thread nD τ).loc main_arg6) = a6 T
  h7 : m ((c : Thread nD τ).loc main_arg7) = a7 T
  h8 : m ((c : Thread nD τ).loc main_arg8) = a8 T
  hr : ∀ e : S2000000.Idx, 0 ≤ ((a6 T) e).toInt ∧ ((a6 T) e).toInt < 32

variable (H : Agree m c T)
include H

/-! ## The argument arrays at the boundaries where they are read -/
theorem W0_arg1 : W0 m ρ c (Proc.devRef .tc main_arg1) = a1 T :=
  H.h1
theorem W0_arg2 : W0 m ρ c (Proc.devRef .tc main_arg2) = a2 T :=
  H.h2
theorem W0_arg5 : W0 m ρ c (Proc.devRef .tc main_arg5) = a5 T :=
  H.h5
theorem W0_arg6 : W0 m ρ c (Proc.devRef .tc main_arg6) = a6 T :=
  H.h6
theorem W2_arg0 : W2 m ρ c (Proc.devRef .tc main_arg0) = a0 T :=
  (((W2_of_ne m ρ c main_arg0 (by decide)).trans (keep0 m ρ c main_arg0 (by decide)))).trans H.h0
theorem W2_arg2 : W2 m ρ c (Proc.devRef .tc main_arg2) = a2 T :=
  (((W2_of_ne m ρ c main_arg2 (by decide)).trans (keep0 m ρ c main_arg2 (by decide)))).trans H.h2
theorem W2_arg7 : W2 m ρ c (Proc.devRef .tc main_arg7) = a7 T :=
  (((W2_of_ne m ρ c main_arg7 (by decide)).trans (keep0 m ρ c main_arg7 (by decide)))).trans H.h7
theorem W4_arg3 : W4 m ρ c (Proc.devRef .tc main_arg3) = a3 T :=
  (((W4_of_ne m ρ c main_arg3 (by decide)).trans ((keep1 m ρ c main_arg3 (by decide)).trans ((W2_of_ne m ρ c main_arg3 (by decide)).trans (keep0 m ρ c main_arg3 (by decide)))))).trans H.h3
theorem W4_arg4 : W4 m ρ c (Proc.devRef .tc main_arg4) = a4 T :=
  (((W4_of_ne m ρ c main_arg4 (by decide)).trans ((keep1 m ρ c main_arg4 (by decide)).trans ((W2_of_ne m ρ c main_arg4 (by decide)).trans (keep0 m ρ c main_arg4 (by decide)))))).trans H.h4
theorem W4_arg8 : W4 m ρ c (Proc.devRef .tc main_arg8) = a8 T :=
  (((W4_of_ne m ρ c main_arg8 (by decide)).trans ((keep1 m ρ c main_arg8 (by decide)).trans ((W2_of_ne m ρ c main_arg8 (by decide)).trans (keep0 m ρ c main_arg8 (by decide)))))).trans H.h8
theorem W6_arg7 : W6 m ρ c (Proc.devRef .tc main_arg7) = a7 T :=
  (((W6_of_ne m ρ c main_arg7 (by decide)).trans ((keep2 m ρ c main_arg7 (by decide)).trans ((W4_of_ne m ρ c main_arg7 (by decide)).trans ((keep1 m ρ c main_arg7 (by decide)).trans ((W2_of_ne m ρ c main_arg7 (by decide)).trans (keep0 m ρ c main_arg7 (by decide)))))))).trans H.h7
theorem W6_arg8 : W6 m ρ c (Proc.devRef .tc main_arg8) = a8 T :=
  (((W6_of_ne m ρ c main_arg8 (by decide)).trans ((keep2 m ρ c main_arg8 (by decide)).trans ((W4_of_ne m ρ c main_arg8 (by decide)).trans ((keep1 m ρ c main_arg8 (by decide)).trans ((W2_of_ne m ρ c main_arg8 (by decide)).trans (keep0 m ρ c main_arg8 (by decide)))))))).trans H.h8
theorem W7_arg1 : W7 m ρ c (Proc.devRef .tc main_arg1) = a1 T :=
  (((keep3 m ρ c main_arg1 (by decide)).trans ((W6_of_ne m ρ c main_arg1 (by decide)).trans ((keep2 m ρ c main_arg1 (by decide)).trans ((W4_of_ne m ρ c main_arg1 (by decide)).trans ((keep1 m ρ c main_arg1 (by decide)).trans ((W2_of_ne m ρ c main_arg1 (by decide)).trans (keep0 m ρ c main_arg1 (by decide))))))))).trans H.h1
theorem W8_arg0 : W8 m ρ c (Proc.devRef .tc main_arg0) = a0 T :=
  (((W8_of_ne m ρ c main_arg0 (by decide)).trans ((keep3 m ρ c main_arg0 (by decide)).trans ((W6_of_ne m ρ c main_arg0 (by decide)).trans ((keep2 m ρ c main_arg0 (by decide)).trans ((W4_of_ne m ρ c main_arg0 (by decide)).trans ((keep1 m ρ c main_arg0 (by decide)).trans ((W2_of_ne m ρ c main_arg0 (by decide)).trans (keep0 m ρ c main_arg0 (by decide)))))))))).trans H.h0

/-! ## Hop 1. The first stretch: the edges' heads and tails, the relation table rounded, the tail rows gathered -/
set_option maxHeartbeats 4000000 in
theorem W1_v1 : W1 m ρ c (Proc.devRef .tc main_v1) = res_main_v1 T := by
  show StableHlo.after hostOps0 (W0 m ρ c) (Proc.devRef .tc main_v1) = _
  simp only [hostOps0]
  after_results
  simp only [W0_arg5 m ρ c T H] <;> rfl
set_option maxHeartbeats 4000000 in
theorem W1_v3 : W1 m ρ c (Proc.devRef .tc main_v3) = res_main_v3 T := by
  show StableHlo.after hostOps0 (W0 m ρ c) (Proc.devRef .tc main_v3) = _
  simp only [hostOps0]
  after_results
  simp only [W0_arg5 m ρ c T H] <;> rfl
set_option maxHeartbeats 4000000 in
theorem W1_v4 : W1 m ρ c (Proc.devRef .tc main_v4) = truncf .bf16 (a2 T) bitsLt_bf16_f32 := by
  show StableHlo.after hostOps0 (W0 m ρ c) (Proc.devRef .tc main_v4) = _
  simp only [hostOps0]
  after_results
  simp only [W0_arg2 m ρ c T H] <;> rfl
set_option maxHeartbeats 4000000 in
theorem W1_v11 : W1 m ρ c (Proc.devRef .tc main_v11) = gatherTail T (a1 T) := by
  show StableHlo.after hostOps0 (W0 m ρ c) (Proc.devRef .tc main_v11) = _
  simp only [hostOps0]
  after_results
  simp only [W0_arg5 m ρ c T H, W0_arg1 m ρ c T H] <;> rfl
set_option maxHeartbeats 4000000 in
theorem W1_v12 : W1 m ρ c (Proc.devRef .tc main_v12) = shapeCast S2000000x1 (a6 T) shapeCasts_S2000000_S2000000x1 := by
  show StableHlo.after hostOps0 (W0 m ρ c) (Proc.devRef .tc main_v12) = _
  simp only [hostOps0]
  after_results
  simp only [W0_arg6 m ρ c T H] <;> rfl

/-- Region 0 leaves the per-edge messages: under the range hypothesis the one-hot product is the gathered relation row. -/
theorem W2_v13 : W2 m ρ c (Proc.devRef .tc main_v13) = neigh T (a1 T) := by
  refine (W2_arr m ρ c 3).trans ?_
  refine (RelMul.final0 (V1 m ρ) c (a6 T) (a2 T) (W1_v12 m ρ c T H) (W1_v4 m ρ c T H) H.hr).trans ?_
  rw [show V1 m ρ c main_v11 = gatherTail T (a1 T) from W1_v11 m ρ c T H]
  exact (Cert.ReferenceIdeal.RelMul.ref_eq _ _ _ H.hr).symm
theorem W2_v1 : W2 m ρ c (Proc.devRef .tc main_v1) = res_main_v1 T :=
  ((W2_of_ne m ρ c main_v1 (by decide))).trans (W1_v1 m ρ c T H)

/-! ## The second stretch: the entity aggregate, its two parts, the user rows gathered -/
set_option maxHeartbeats 4000000 in
theorem W3_v25 : W3 m ρ c (Proc.devRef .tc main_v25) = res_main_v30 T := by
  show StableHlo.after hostOps1 (W2 m ρ c) (Proc.devRef .tc main_v25) = _
  simp only [hostOps1]
  after_results
  simp only [W2_v13 m ρ c T H, W2_v1 m ρ c T H] <;> rfl
set_option maxHeartbeats 4000000 in
theorem W3_v26 : W3 m ρ c (Proc.devRef .tc main_v26) = attPart (res_main_v29 T) := by
  show StableHlo.after hostOps1 (W2 m ρ c) (Proc.devRef .tc main_v26) = _
  simp only [hostOps1]
  after_results
  simp only [W2_v13 m ρ c T H, W2_v1 m ρ c T H] <;> rfl
set_option maxHeartbeats 4000000 in
theorem W3_v33 : W3 m ρ c (Proc.devRef .tc main_v33) = userRows T (a0 T) := by
  show StableHlo.after hostOps1 (W2 m ρ c) (Proc.devRef .tc main_v33) = _
  simp only [hostOps1]
  after_results_simp
  simp only [W2_arg7 m ρ c T H, W2_arg0 m ρ c T H] <;> rfl
set_option maxHeartbeats 4000000 in
theorem W3_v34 : W3 m ρ c (Proc.devRef .tc main_v34) = row0 T := by
  show StableHlo.after hostOps1 (W2 m ρ c) (Proc.devRef .tc main_v34) = _
  simp only [hostOps1]
  after_results_simp
  simp only [W2_arg2 m ρ c T H] <;> rfl

/-- Region 1 leaves the user rows scaled by the relation table's first row. -/
theorem W4_v35 : W4 m ρ c (Proc.devRef .tc main_v35) = itemNeigh T (a0 T) := by
  refine (W4_arr m ρ c 2).trans ?_
  refine (RowScale.final1 (V3 m ρ) c).trans ?_
  rw [show V3 m ρ c main_v33 = userRows T (a0 T) from W3_v33 m ρ c T H, show V3 m ρ c main_v34 = row0 T from W3_v34 m ρ c T H]
  exact (Cert.ReferenceIdeal.RowScale.ref_eq _ _).symm

/-! ## The third stretch: the item aggregate and the two gate matrices, transposed and rounded -/
set_option maxHeartbeats 4000000 in
theorem W5_v46 : W5 m ρ c (Proc.devRef .tc main_v46) = res_main_v54 T := by
  show StableHlo.after hostOps2 (W4 m ρ c) (Proc.devRef .tc main_v46) = _
  simp only [hostOps2]
  after_results
  simp only [W4_v35 m ρ c T H, W4_arg8 m ρ c T H] <;> rfl
set_option maxHeartbeats 4000000 in
theorem W5_v50 : W5 m ρ c (Proc.devRef .tc main_v50) = truncf .bf16 (g1_0 T) bitsLt_bf16_f32 := by
  show StableHlo.after hostOps2 (W4 m ρ c) (Proc.devRef .tc main_v50) = _
  simp only [hostOps2]
  after_results
  simp only [W4_arg3 m ρ c T H] <;> rfl
set_option maxHeartbeats 4000000 in
theorem W5_v54 : W5 m ρ c (Proc.devRef .tc main_v54) = truncf .bf16 (g2_0 T) bitsLt_bf16_f32 := by
  show StableHlo.after hostOps2 (W4 m ρ c) (Proc.devRef .tc main_v54) = _
  simp only [hostOps2]
  after_results
  simp only [W4_arg4 m ρ c T H] <;> rfl
theorem W5_v25 : W5 m ρ c (Proc.devRef .tc main_v25) = res_main_v30 T :=
  (((keep2 m ρ c main_v25 (by decide)).trans (W4_of_ne m ρ c main_v25 (by decide)))).trans (W3_v25 m ρ c T H)

/-- Region 2 leaves the gated blend of the two aggregates. -/
theorem W6_v55 : W6 m ρ c (Proc.devRef .tc main_v55) = res_main_v74 T := by
  refine (W6_arr m ρ c 4).trans ?_
  refine (Fusion.final2 (V5 m ρ) c (g1_0 T) (g2_0 T) (W5_v50 m ρ c T H) (W5_v54 m ρ c T H)).trans ?_
  rw [show V5 m ρ c main_v25 = res_main_v30 T from W5_v25 m ρ c T H, show V5 m ρ c main_v46 = res_main_v54 T from W5_v46 m ρ c T H]
  exact (Cert.ReferenceIdeal.Fusion.ref_eq _ _ _ _).symm
theorem W6_v26 : W6 m ρ c (Proc.devRef .tc main_v26) = attPart (res_main_v29 T) :=
  (((W6_of_ne m ρ c main_v26 (by decide)).trans ((keep2 m ρ c main_v26 (by decide)).trans (W4_of_ne m ρ c main_v26 (by decide))))).trans (W3_v26 m ρ c T H)

/-! ## The fourth stretch: the user aggregate and the stacked entity table -/
set_option maxHeartbeats 4000000 in
theorem W7_v65 : W7 m ρ c (Proc.devRef .tc main_v65) = res_main_v84 T := by
  show StableHlo.after hostOps3 (W6 m ρ c) (Proc.devRef .tc main_v65) = _
  simp only [hostOps3]
  after_results_simp
  simp only [W6_v55 m ρ c T H, W6_arg8 m ρ c T H, W6_arg7 m ρ c T H] <;> rfl
set_option maxHeartbeats 4000000 in
theorem W7_v66 : W7 m ρ c (Proc.devRef .tc main_v66) = res_main_v85 T := by
  show StableHlo.after hostOps3 (W6 m ρ c) (Proc.devRef .tc main_v66) = _
  simp only [hostOps3]
  after_results
  exact congrArg₂ stack (W6_v55 m ρ c T H) (W6_v26 m ρ c T H)

/-- Region 3 leaves the normalised entity table and the first residual sum. -/
theorem W8_v67_0 : W8 m ρ c (Proc.devRef .tc main_v67_0) = res_main_v93 T := by
  refine (W8_arr m ρ c 2).trans ?_
  refine (Norm.final3_2 (V7 m ρ) c).trans ?_
  rw [show V7 m ρ c main_v66 = res_main_v85 T from W7_v66 m ρ c T H]
  exact (Cert.ReferenceIdeal.Norm.refE_eq _).symm
theorem W8_v67_1 : W8 m ρ c (Proc.devRef .tc main_v67_1) = addf (a1 T) (res_main_v93 T) := by
  refine (W8_arr m ρ c 3).trans ?_
  refine (Norm.final3_3 (V7 m ρ) c).trans ?_
  rw [show V7 m ρ c main_v66 = res_main_v85 T from W7_v66 m ρ c T H, show V7 m ρ c main_arg1 = a1 T from W7_arg1 m ρ c T H]
  exact congrArg (addf (a1 T)) (Cert.ReferenceIdeal.Norm.refE_eq _).symm
theorem W8_v65 : W8 m ρ c (Proc.devRef .tc main_v65) = res_main_v84 T :=
  ((W8_of_ne m ρ c main_v65 (by decide))).trans (W7_v65 m ρ c T H)

/-- Region 4 leaves the normalised user table and the first residual sum. -/
theorem W9_v68_0 : W9 m ρ c (Proc.devRef .tc main_v68_0) = res_main_v101 T := by
  refine (W9_arr m ρ c 2).trans ?_
  refine (Norm.final4_2 (V8 m ρ) c).trans ?_
  rw [show V8 m ρ c main_v65 = res_main_v84 T from W8_v65 m ρ c T H]
  exact (Cert.ReferenceIdeal.Norm.refU_eq _).symm
theorem W9_v68_1 : W9 m ρ c (Proc.devRef .tc main_v68_1) = addf (a0 T) (res_main_v101 T) := by
  refine (W9_arr m ρ c 3).trans ?_
  refine (Norm.final4_3 (V8 m ρ) c).trans ?_
  rw [show V8 m ρ c main_v65 = res_main_v84 T from W8_v65 m ρ c T H, show V8 m ρ c main_arg0 = a0 T from W8_arg0 m ρ c T H]
  exact congrArg (addf (a0 T)) (Cert.ReferenceIdeal.Norm.refU_eq _).symm

end Cert.KernelIdeal.Chain
end
-- ==== Proof.ChainB.lean ====
import proofs.«411258_j87239375716570_3_alg».proof.Proof.ChainA
import Idealize.ShloMosaic.Lib.StableHlo.Run
import Idealize.ShloMosaic.PureOps.Ideal
set_option maxRecDepth 16384
noncomputable section
open Idealize.ShloMosaic Idealize.ShloMosaic.TcCoe Idealize.SL.Sem Idealize.ShloMosaic.StableHlo
namespace Cert.KernelIdeal.Chain
open Cert.KernelIdeal Cert.KernelIdeal.Gen
open Cert.ReferenceIdeal.Value (res_main_v1 res_main_v3 res_main_v29 res_main_v30 res_main_v54 res_main_v69 res_main_v74 res_main_v84 res_main_v85 res_main_v93 res_main_v101 res_main_v129 res_main_v130 res_main_v154 res_main_v169 res_main_v174 res_main_v184 res_main_v185)
open Cert.ReferenceIdeal.RefTerms

variable (m : (ℓ : Loc nD τ sig) → Buf (Elt Ideal) ℓ) (ρ : Dev nD → PrngReg) (c : Dev nD) (T : RVal)

variable (H : Agree m c T)
include H

/-! ## The argument arrays at the boundaries where the second hop reads them -/
theorem W9_arg6 : W9 m ρ c (Proc.devRef .tc main_arg6) = a6 T :=
  (((W9_of_ne m ρ c main_arg6 (by decide)).trans ((W8_of_ne m ρ c main_arg6 (by decide)).trans ((keep3 m ρ c main_arg6 (by decide)).trans ((W6_of_ne m ρ c main_arg6 (by decide)).trans ((keep2 m ρ c main_arg6 (by decide)).trans ((W4_of_ne m ρ c main_arg6 (by decide)).trans ((keep1 m ρ c main_arg6 (by decide)).trans ((W2_of_ne m ρ c main_arg6 (by decide)).trans (keep0 m ρ c main_arg6 (by decide))))))))))).trans H.h6
theorem W11_arg7 : W11 m ρ c (Proc.devRef .tc main_arg7) = a7 T :=
  (((W11_of_ne m ρ c main_arg7 (by decide)).trans ((keep5 m ρ c main_arg7 (by decide)).trans ((W9_of_ne m ρ c main_arg7 (by decide)).trans ((W8_of_ne m ρ c main_arg7 (by decide)).trans ((keep3 m ρ c main_arg7 (by decide)).trans ((W6_of_ne m ρ c main_arg7 (by decide)).trans ((keep2 m ρ c main_arg7 (by decide)).trans ((W4_of_ne m ρ c main_arg7 (by decide)).trans ((keep1 m ρ c main_arg7 (by decide)).trans ((W2_of_ne m ρ c main_arg7 (by decide)).trans (keep0 m ρ c main_arg7 (by decide))))))))))))).trans H.h7
theorem W11_arg2 : W11 m ρ c (Proc.devRef .tc main_arg2) = a2 T :=
  (((W11_of_ne m ρ c main_arg2 (by decide)).trans ((keep5 m ρ c main_arg2 (by decide)).trans ((W9_of_ne m ρ c main_arg2 (by decide)).trans ((W8_of_ne m ρ c main_arg2 (by decide)).trans ((keep3 m ρ c main_arg2 (by decide)).trans ((W6_of_ne m ρ c main_arg2 (by decide)).trans ((keep2 m ρ c main_arg2 (by decide)).trans ((W4_of_ne m ρ c main_arg2 (by decide)).trans ((keep1 m ρ c main_arg2 (by decide)).trans ((W2_of_ne m ρ c main_arg2 (by decide)).trans (keep0 m ρ c main_arg2 (by decide))))))))))))).trans H.h2
theorem W13_arg8 : W13 m ρ c (Proc.devRef .tc main_arg8) = a8 T :=
  (((W13_of_ne m ρ c main_arg8 (by decide)).trans ((keep6 m ρ c main_arg8 (by decide)).trans ((W11_of_ne m ρ c main_arg8 (by decide)).trans ((keep5 m ρ c main_arg8 (by decide)).trans ((W9_of_ne m ρ c main_arg8 (by decide)).trans ((W8_of_ne m ρ c main_arg8 (by decide)).trans ((keep3 m ρ c main_arg8 (by decide)).trans ((W6_of_ne m ρ c main_arg8 (by decide)).trans ((keep2 m ρ c main_arg8 (by decide)).trans ((W4_of_ne m ρ c main_arg8 (by decide)).trans ((keep1 m ρ c main_arg8 (by decide)).trans ((W2_of_ne m ρ c main_arg8 (by decide)).trans (keep0 m ρ c main_arg8 (by decide))))))))))))))).trans H.h8
theorem W13_arg3 : W13 m ρ c (Proc.devRef .tc main_arg3) = a3 T :=
  (((W13_of_ne m ρ c main_arg3 (by decide)).trans ((keep6 m ρ c main_arg3 (by decide)).trans ((W11_of_ne m ρ c main_arg3 (by decide)).trans ((keep5 m ρ c main_arg3 (by decide)).trans ((W9_of_ne m ρ c main_arg3 (by decide)).trans ((W8_of_ne m ρ c main_arg3 (by decide)).trans ((keep3 m ρ c main_arg3 (by decide)).trans ((W6_of_ne m ρ c main_arg3 (by decide)).trans ((keep2 m ρ c main_arg3 (by decide)).trans ((W4_of_ne m ρ c main_arg3 (by decide)).trans ((keep1 m ρ c main_arg3 (by decide)).trans ((W2_of_ne m ρ c main_arg3 (by decide)).trans (keep0 m ρ c main_arg3 (by decide))))))))))))))).trans H.h3
theorem W13_arg4 : W13 m ρ c (Proc.devRef .tc main_arg4) = a4 T :=
  (((W13_of_ne m ρ c main_arg4 (by decide)).trans ((keep6 m ρ c main_arg4 (by decide)).trans ((W11_of_ne m ρ c main_arg4 (by decide)).trans ((keep5 m ρ c main_arg4 (by decide)).trans ((W9_of_ne m ρ c main_arg4 (by decide)).trans ((W8_of_ne m ρ c main_arg4 (by decide)).trans ((keep3 m ρ c main_arg4 (by decide)).trans ((W6_of_ne m ρ c main_arg4 (by decide)).trans ((keep2 m ρ c main_arg4 (by decide)).trans ((W4_of_ne m ρ c main_arg4 (by decide)).trans ((keep1 m ρ c main_arg4 (by decide)).trans ((W2_of_ne m ρ c main_arg4 (by decide)).trans (keep0 m ρ c main_arg4 (by decide))))))))))))))).trans H.h4
theorem W15_arg8 : W15 m ρ c (Proc.devRef .tc main_arg8) = a8 T :=
  (((W15_of_ne m ρ c main_arg8 (by decide)).trans ((keep7 m ρ c main_arg8 (by decide)).trans ((W13_of_ne m ρ c main_arg8 (by decide)).trans ((keep6 m ρ c main_arg8 (by decide)).trans ((W11_of_ne m ρ c main_arg8 (by decide)).trans ((keep5 m ρ c main_arg8 (by decide)).trans ((W9_of_ne m ρ c main_arg8 (by decide)).trans ((W8_of_ne m ρ c main_arg8 (by decide)).trans ((keep3 m ρ c main_arg8 (by decide)).trans ((W6_of_ne m ρ c main_arg8 (by decide)).trans ((keep2 m ρ c main_arg8 (by decide)).trans ((W4_of_ne m ρ c main_arg8 (by decide)).trans ((keep1 m ρ c main_arg8 (by decide)).trans ((W2_of_ne m ρ c main_arg8 (by decide)).trans (keep0 m ρ c main_arg8 (by decide))))))))))))))))).trans H.h8
theorem W15_arg7 : W15 m ρ c (Proc.devRef .tc main_arg7) = a7 T :=
  (((W15_of_ne m ρ c main_arg7 (by decide)).trans ((keep7 m ρ c main_arg7 (by decide)).trans ((W13_of_ne m ρ c main_arg7 (by decide)).trans ((keep6 m ρ c main_arg7 (by decide)).trans ((W11_of_ne m ρ c main_arg7 (by decide)).trans ((keep5 m ρ c main_arg7 (by decide)).trans ((W9_of_ne m ρ c main_arg7 (by decide)).trans ((W8_of_ne m ρ c main_arg7 (by decide)).trans ((keep3 m ρ c main_arg7 (by decide)).trans ((W6_of_ne m ρ c main_arg7 (by decide)).trans ((keep2 m ρ c main_arg7 (by decide)).trans ((W4_of_ne m ρ c main_arg7 (by decide)).trans ((keep1 m ρ c main_arg7 (by decide)).trans ((W2_of_ne m ρ c main_arg7 (by decide)).trans (keep0 m ρ c main_arg7 (by decide))))))))))))))))).trans H.h7

/-! ## What the first hop leaves for the second -/
theorem W9_v3 : W9 m ρ c (Proc.devRef .tc main_v3) = res_main_v3 T :=
  (((W9_of_ne m ρ c main_v3 (by decide)).trans ((W8_of_ne m ρ c main_v3 (by decide)).trans ((keep3 m ρ c main_v3 (by decide)).trans ((W6_of_ne m ρ c main_v3 (by decide)).trans ((keep2 m ρ c main_v3 (by decide)).trans ((W4_of_ne m ρ c main_v3 (by decide)).trans ((keep1 m ρ c main_v3 (by decide)).trans (W2_of_ne m ρ c main_v3 (by decide)))))))))).trans (W1_v3 m ρ c T H)
theorem W9_v67_0 : W9 m ρ c (Proc.devRef .tc main_v67_0) = res_main_v93 T :=
  ((W9_of_ne m ρ c main_v67_0 (by decide))).trans (W8_v67_0 m ρ c T H)

/-! ## Hop 2. The tail rows of the normalised entity table gathered -/
set_option maxHeartbeats 4000000 in
theorem W10_v75 : W10 m ρ c (Proc.devRef .tc main_v75) = gatherTail T (res_main_v93 T) := by
  show StableHlo.after hostOps5 (W9 m ρ c) (Proc.devRef .tc main_v75) = _
  simp only [hostOps5]
  after_results
  simp only [W9_v3 m ρ c T H, W9_v67_0 m ρ c T H] <;> rfl
set_option maxHeartbeats 4000000 in
theorem W10_v76 : W10 m ρ c (Proc.devRef .tc main_v76) = shapeCast S2000000x1 (a6 T) shapeCasts_S2000000_S2000000x1 := by
  show StableHlo.after hostOps5 (W9 m ρ c) (Proc.devRef .tc main_v76) = _
  simp only [hostOps5]
  after_results
  simp only [W9_arg6 m ρ c T H] <;> rfl
theorem W10_v4 : W10 m ρ c (Proc.devRef .tc main_v4) = truncf .bf16 (a2 T) bitsLt_bf16_f32 :=
  (((keep5 m ρ c main_v4 (by decide)).trans ((W9_of_ne m ρ c main_v4 (by decide)).trans ((W8_of_ne m ρ c main_v4 (by decide)).trans ((keep3 m ρ c main_v4 (by decide)).trans ((W6_of_ne m ρ c main_v4 (by decide)).trans ((keep2 m ρ c main_v4 (by decide)).trans ((W4_of_ne m ρ c main_v4 (by decide)).trans ((keep1 m ρ c main_v4 (by decide)).trans ((W2_arr m ρ c 2).trans (((dat0 (V1 m ρ) c).arrAt_in 2 rfl _).trans (A_eq0 (V1 m ρ) c 2)))))))))))).trans (W1_v4 m ρ c T H)

/-- Region 5 leaves the second hop's per-edge messages. -/
theorem W11_v77 : W11 m ρ c (Proc.devRef .tc main_v77) = neigh T (res_main_v93 T) := by
  refine (W11_arr m ρ c 3).trans ?_
  refine (RelMul.final5 (V10 m ρ) c (a6 T) (a2 T) (W10_v76 m ρ c T H) (W10_v4 m ρ c T H) H.hr).trans ?_
  rw [show V10 m ρ c main_v75 = gatherTail T (res_main_v93 T) from W10_v75 m ρ c T H]
  exact (Cert.ReferenceIdeal.RelMul.ref_eq _ _ _ H.hr).symm
theorem W11_v1 : W11 m ρ c (Proc.devRef .tc main_v1) = res_main_v1 T :=
  (((W11_of_ne m ρ c main_v1 (by decide)).trans ((keep5 m ρ c main_v1 (by decide)).trans ((W9_of_ne m ρ c main_v1 (by decide)).trans ((W8_of_ne m ρ c main_v1 (by decide)).trans ((keep3 m ρ c main_v1 (by decide)).trans ((W6_of_ne m ρ c main_v1 (by decide)).trans ((keep2 m ρ c main_v1 (by decide)).trans ((W4_of_ne m ρ c main_v1 (by decide)).trans (keep1 m ρ c main_v1 (by decide))))))))))).trans (W2_v1 m ρ c T H)
theorem W11_v68_0 : W11 m ρ c (Proc.devRef .tc main_v68_0) = res_main_v101 T :=
  (((W11_of_ne m ρ c main_v68_0 (by decide)).trans (keep5 m ρ c main_v68_0 (by decide)))).trans (W9_v68_0 m ρ c T H)

/-! ## The entity aggregate of the second hop, its two parts, the normalised user rows gathered -/
set_option maxHeartbeats 4000000 in
theorem W12_v89 : W12 m ρ c (Proc.devRef .tc main_v89) = res_main_v130 T := by
  show StableHlo.after hostOps6 (W11 m ρ c) (Proc.devRef .tc main_v89) = _
  simp only [hostOps6]
  after_results
  simp only [W11_v77 m ρ c T H, W11_v1 m ρ c T H] <;> rfl
set_option maxHeartbeats 4000000 in
theorem W12_v90 : W12 m ρ c (Proc.devRef .tc main_v90) = attPart (res_main_v129 T) := by
  show StableHlo.after hostOps6 (W11 m ρ c) (Proc.devRef .tc main_v90) = _
  simp only [hostOps6]
  after_results
  simp only [W11_v77 m ρ c T H, W11_v1 m ρ c T H] <;> rfl
set_option maxHeartbeats 4000000 in
theorem W12_v97 : W12 m ρ c (Proc.devRef .tc main_v97) = userRows T (res_main_v101 T) := by
  show StableHlo.after hostOps6 (W11 m ρ c) (Proc.devRef .tc main_v97) = _
  simp only [hostOps6]
  after_results_simp
  simp only [W11_arg7 m ρ c T H, W11_v68_0 m ρ c T H] <;> rfl
set_option maxHeartbeats 4000000 in
theorem W12_v98 : W12 m ρ c (Proc.devRef .tc main_v98) = row0 T := by
  show StableHlo.after hostOps6 (W11 m ρ c) (Proc.devRef .tc main_v98) = _
  simp only [hostOps6]
  after_results_simp
  simp only [W11_arg2 m ρ c T H] <;> rfl

/-- Region 6 leaves the normalised user rows scaled by the relation table's first row. -/
theorem W13_v99 : W13 m ρ c (Proc.devRef .tc main_v99) = itemNeigh T (res_main_v101 T) := by
  refine (W13_arr m ρ c 2).trans ?_
  refine (RowScale.final6 (V12 m ρ) c).trans ?_
  rw [show V12 m ρ c main_v97 = userRows T (res_main_v101 T) from W12_v97 m ρ c T H, show V12 m ρ c main_v98 = row0 T from W12_v98 m ρ c T H]
  exact (Cert.ReferenceIdeal.RowScale.ref_eq _ _).symm

/-! ## The item aggregate of the second hop and its gate matrices -/
set_option maxHeartbeats 4000000 in
theorem W14_v110 : W14 m ρ c (Proc.devRef .tc main_v110) = res_main_v154 T := by
  show StableHlo.after hostOps7 (W13 m ρ c) (Proc.devRef .tc main_v110) = _
  simp only [hostOps7]
  after_results
  simp only [W13_v99 m ρ c T H, W13_arg8 m ρ c T H] <;> rfl
set_option maxHeartbeats 4000000 in
theorem W14_v114 : W14 m ρ c (Proc.devRef .tc main_v114) = truncf .bf16 (g1_1 T) bitsLt_bf16_f32 := by
  show StableHlo.after hostOps7 (W13 m ρ c) (Proc.devRef .tc main_v114) = _
  simp only [hostOps7]
  after_results
  simp only [W13_arg3 m ρ c T H] <;> rfl
set_option maxHeartbeats 4000000 in
theorem W14_v118 : W14 m ρ c (Proc.devRef .tc main_v118) = truncf .bf16 (g2_1 T) bitsLt_bf16_f32 := by
  show StableHlo.after hostOps7 (W13 m ρ c) (Proc.devRef .tc main_v118) = _
  simp only [hostOps7]
  after_results
  simp only [W13_arg4 m ρ c T H] <;> rfl
theorem W14_v89 : W14 m ρ c (Proc.devRef .tc main_v89) = res_main_v130 T :=
  (((keep7 m ρ c main_v89 (by decide)).trans (W13_of_ne m ρ c main_v89 (by decide)))).trans (W12_v89 m ρ c T H)

/-- Region 7 leaves the second hop's gated blend. -/
theorem W15_v119 : W15 m ρ c (Proc.devRef .tc main_v119) = res_main_v174 T := by
  refine (W15_arr m ρ c 4).trans ?_
  refine (Fusion.final7 (V14 m ρ) c (g1_1 T) (g2_1 T) (W14_v114 m ρ c T H) (W14_v118 m ρ c T H)).trans ?_
  rw [show V14 m ρ c main_v89 = res_main_v130 T from W14_v89 m ρ c T H, show V14 m ρ c main_v110 = res_main_v154 T from W14_v110 m ρ c T H]
  exact (Cert.ReferenceIdeal.Fusion.ref_eq _ _ _ _).symm
theorem W15_v90 : W15 m ρ c (Proc.devRef .tc main_v90) = attPart (res_main_v129 T) :=
  (((W15_of_ne m ρ c main_v90 (by decide)).trans ((keep7 m ρ c main_v90 (by decide)).trans (W13_of_ne m ρ c main_v90 (by decide))))).trans (W12_v90 m ρ c T H)

/-! ## The user aggregate and the stacked entity table of the second hop -/
set_option maxHeartbeats 4000000 in
theorem W16_v129 : W16 m ρ c (Proc.devRef .tc main_v129) = res_main_v184 T := by
  show StableHlo.after hostOps8 (W15 m ρ c) (Proc.devRef .tc main_v129) = _
  simp only [hostOps8]
  after_results_simp
  simp only [W15_v119 m ρ c T H, W15_arg8 m ρ c T H, W15_arg7 m ρ c T H] <;> rfl
set_option maxHeartbeats 4000000 in
theorem W16_v130 : W16 m ρ c (Proc.devRef .tc main_v130) = res_main_v185 T := by
  show StableHlo.after hostOps8 (W15 m ρ c) (Proc.devRef .tc main_v130) = _
  simp only [hostOps8]
  after_results
  exact congrArg₂ stack (W15_v119 m ρ c T H) (W15_v90 m ρ c T H)
theorem W16_v67_1 : W16 m ρ c (Proc.devRef .tc main_v67_1) = addf (a1 T) (res_main_v93 T) :=
  (((keep8 m ρ c main_v67_1 (by decide)).trans ((W15_of_ne m ρ c main_v67_1 (by decide)).trans ((keep7 m ρ c main_v67_1 (by decide)).trans ((W13_of_ne m ρ c main_v67_1 (by decide)).trans ((keep6 m ρ c main_v67_1 (by decide)).trans ((W11_of_ne m ρ c main_v67_1 (by decide)).trans ((keep5 m ρ c main_v67_1 (by decide)).trans (W9_of_ne m ρ c main_v67_1 (by decide)))))))))).trans (W8_v67_1 m ρ c T H)

/-- Region 8 leaves the first result: the entity table plus both hops' normalised tables. -/
theorem W17_v131_1 : W17 m ρ c (Proc.devRef .tc main_v131_1) = out0 T := by
  refine (W17_arr m ρ c 3).trans ?_
  refine (Norm.final8_3 (V16 m ρ) c).trans ?_
  rw [show V16 m ρ c main_v130 = res_main_v185 T from W16_v130 m ρ c T H, show V16 m ρ c main_v67_1 = addf (a1 T) (res_main_v93 T) from W16_v67_1 m ρ c T H]
  exact congrArg (addf (addf (a1 T) (res_main_v93 T))) (Cert.ReferenceIdeal.Norm.refE_eq _).symm
theorem W17_v129 : W17 m ρ c (Proc.devRef .tc main_v129) = res_main_v184 T :=
  ((W17_of_ne m ρ c main_v129 (by decide))).trans (W16_v129 m ρ c T H)
theorem W17_v68_1 : W17 m ρ c (Proc.devRef .tc main_v68_1) = addf (a0 T) (res_main_v101 T) :=
  (((W17_of_ne m ρ c main_v68_1 (by decide)).trans ((keep8 m ρ c main_v68_1 (by decide)).trans ((W15_of_ne m ρ c main_v68_1 (by decide)).trans ((keep7 m ρ c main_v68_1 (by decide)).trans ((W13_of_ne m ρ c main_v68_1 (by decide)).trans ((keep6 m ρ c main_v68_1 (by decide)).trans ((W11_of_ne m ρ c main_v68_1 (by decide)).trans (keep5 m ρ c main_v68_1 (by decide)))))))))).trans (W9_v68_1 m ρ c T H)

/-- Region 9 leaves the second result: the user table plus both hops' normalised tables. -/
theorem W18_v132_1 : W18 m ρ c (Proc.devRef .tc main_v132_1) = out1 T := by
  refine (W18_arr m ρ c 3).trans ?_
  refine (Norm.final9_3 (V17 m ρ) c).trans ?_
  rw [show V17 m ρ c main_v129 = res_main_v184 T from W17_v129 m ρ c T H, show V17 m ρ c main_v68_1 = addf (a0 T) (res_main_v101 T) from W17_v68_1 m ρ c T H]
  exact congrArg (addf (addf (a0 T) (res_main_v101 T))) (Cert.ReferenceIdeal.Norm.refU_eq _).symm
theorem W18_v131_1 : W18 m ρ c (Proc.devRef .tc main_v131_1) = out0 T :=
  ((W18_of_ne m ρ c main_v131_1 (by decide))).trans (W17_v131_1 m ρ c T H)

end Cert.KernelIdeal.Chain
end
-- ==== Proof.lean ====
/-
  Two hops of a graph recommender. Per hop: the tail entities' rows are gathered and multiplied by their edge's
  relation row, averaged at the head entities; the users' rows are gathered, scaled by the first relation row and
  averaged at the items; the two item aggregates are blended by a gate, the logistic function of two 64 x 64
  projections; the blended items are summed at the users; both tables are divided row by row by their Euclidean
  norms (bounded below by a guard word) and added to running sums. The kernel program runs four of these stages
  as tiled regions over row blocks, ten regions in all; the gathers and the scatter sums are the same host
  operations in both programs.

  At the ideal instance the regions compute, index by index, what the reference's host operations compute: a row
  block's result depends only on that block's rows (and on whole small operands), a matrix product into a zero
  accumulator is the host's contraction, the logistic function is its own expansion, a change of float format is
  the identity. The one place where the two differ as functions is the relation lookup: the kernel multiplies a
  32-wide one-hot row into the relation table, the reference gathers the table's row; the two agree exactly when
  the relation index lies in [0, 32), the stated domain of the index (outside it the reference wraps and clamps
  while the one-hot row is zero). With that, the kernel program's buffers are followed boundary by boundary
  through the eighteen segments of its run, each equal to the reference's named intermediate, down to the two
  results.
-/
import proofs.«411258_j87239375716570_3_alg».proof.Defs
import proofs.«411258_j87239375716570_3_alg».proof.Proof.Gen.Kernel
import proofs.«411258_j87239375716570_3_alg».proof.Proof.Gen.Kernel.Skeleton
import proofs.«411258_j87239375716570_3_alg».proof.Proof.Gen.Kernel.Launch
import proofs.«411258_j87239375716570_3_alg».proof.Proof.Gen.Kernel.Points
import proofs.«411258_j87239375716570_3_alg».proof.Proof.Gen.Kernel.Frame
import proofs.«411258_j87239375716570_3_alg».proof.Proof.Gen.KernelIdeal
import proofs.«411258_j87239375716570_3_alg».proof.Proof.Gen.KernelIdeal.Skeleton
import proofs.«411258_j87239375716570_3_alg».proof.Proof.Gen.KernelIdeal.Launch
import proofs.«411258_j87239375716570_3_alg».proof.Proof.Gen.KernelIdeal.Points
import proofs.«411258_j87239375716570_3_alg».proof.Proof.Gen.KernelIdeal.Frame
import proofs.«411258_j87239375716570_3_alg».proof.Proof.Gen.ReferenceIdeal
import proofs.«411258_j87239375716570_3_alg».proof.Proof.Gen.Pre_finite_inputs
import proofs.«411258_j87239375716570_3_alg».proof.Proof.Gen.ReferenceIdeal.Run
import proofs.«411258_j87239375716570_3_alg».proof.Proof.KernelValueRun
import proofs.«411258_j87239375716570_3_alg».proof.Proof.RangeOfPre
import proofs.«411258_j87239375716570_3_alg».proof.Proof.ChainB
import Idealize.ShloMosaic.Adequacy
import Idealize.ShloMosaic.Init

set_option maxRecDepth 16384

noncomputable section

namespace Cert.Proof

open Idealize.ShloMosaic Idealize.SL.Sem Idealize.ShloMosaic.StableHlo
open Cert.ReferenceIdeal.RefTerms (out0 out1)

theorem frame_k : Cert.frame_Kernel := fun m ρ _ => Cert.Kernel.Gen.frame m ρ
theorem frame_ki : Cert.frame_KernelIdeal := fun m ρ _ => Cert.KernelIdeal.Gen.frame m ρ
/-- The reference's run, its results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the reference's two composed terms of the (shared) argument arrays: the kernel program's
    by following its buffers through the run, the reference's by its operations' composition. -/
theorem algebraic : Cert.algebraic_KernelIdeal_ReferenceIdeal := by
  intro m ρ m' ρ' hpre hagree
  refine ⟨fun c => out0 (launchContents m' c), fun c => out1 (launchContents m' c), ?_, ?_⟩
  · refine (θ_run Cert.KernelIdeal.defs _ _).mono (fun r h c => ?_) (Cert.KernelIdeal.ValueRun.run (F := Ideal) m ρ)
    have H : Cert.KernelIdeal.Chain.Agree m c (launchContents m' c) :=
      { h0 := (hagree c).1.symm, h1 := (hagree c).2.1.symm, h2 := (hagree c).2.2.1.symm, h3 := (hagree c).2.2.2.1.symm, h4 := (hagree c).2.2.2.2.1.symm,
        h5 := (hagree c).2.2.2.2.2.1.symm, h6 := (hagree c).2.2.2.2.2.2.1.symm, h7 := (hagree c).2.2.2.2.2.2.2.1.symm, h8 := (hagree c).2.2.2.2.2.2.2.2.symm,
        hr := by
          have h6 : Cert.ReferenceIdeal.RefTerms.a6 (launchContents m' c)
              = m ((c.tc : Thread Cert.KernelIdeal.nD Cert.KernelIdeal.τ).loc Cert.KernelIdeal.main_arg6) := (hagree c).2.2.2.2.2.2.1
          rw [h6]
          exact Cert.Pre_finite_inputs.edge_type_range _ _ _ _ _ _ _ _ _ (hpre c) }
    exact ⟨(h c).1.trans (Cert.KernelIdeal.Chain.W18_v131_1 m ρ c _ H),
      (h c).2.1.trans (Cert.KernelIdeal.Chain.W18_v132_1 m ρ c _ H), (h c).2.2⟩
  · exact (θ_run Cert.ReferenceIdeal.defs _ _).mono (fun r h c => h c) (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
